-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : IVec S1x800000 32 := (extractStridedSlice S1x800000 ![0, 0] · slices_S2x800000_S1x800000_0_0) main_arg1
  let main_v55 : IVec S800000 32 := shapeCast S800000 main_v54 shapeCasts_S1x800000_S800000
  let main_c_20 : IVec S_ 32 := constantI S_ 32 0#32
  let main_v56 : IVec S800000 32 := broadcastInDim S800000 ![] bcast_S_S800000 main_c_20
  let main_v57 : IVec S800000 1 := cmpi .sge main_v55 main_v56
  let main_v58 : IVec S1x800000 32 := (extractStridedSlice S1x800000 ![0, 0] · slices_S2x800000_S1x800000_0_0) main_arg1
  let main_v59 : IVec S800000 32 := shapeCast S800000 main_v58 shapeCasts_S1x800000_S800000
  let main_c_21 : IVec S_ 32 := constantI S_ 32 50000#32
  let main_v60 : IVec S800000 32 := broadcastInDim S800000 ![] bcast_S_S800000 main_c_21
  let main_v61 : IVec S800000 1 := cmpi .slt main_v59 main_v60
  let main_v62 : IVec S800000 1 := andi main_v57 main_v61
  let main_c_22 : IVec S_ 1 := constantI S_ 1 1#1
  let main_v63 : IVec S_ 1 := (fun x v => Host.reduce IntOp.andi x v reducesTo_S800000_S_d0 h_S_) main_v62 main_c_22
  let main_v64 : IVec S_ 1 := andi main_v53 main_v63
  main_v64

def fn_part2 {F : FTy → Type} [FloatOps F] (main_arg1 : IVec S2x800000 32) (main_arg8 : FVec F S128 .f32) (main_arg9 : FVec F S128x128 .f32) (main_arg10 : FVec F S128 .f32) (main_arg11 : FVec F S128x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_v48 main_v49 main_v50

def fn_part1 {F : FTy → Type} [FloatOps F] (main_arg1 : IVec S2x800000 32) (main_arg5 : FVec F S128 .f32) (main_arg6 : FVec F S128x128 .f32) (main_arg7 : FVec F S128x128 .f32) (main_arg8 : FVec F S128 .f32) (main_arg9 : FVec F S128x128 .f32) (main_arg10 : FVec F S128 .f32) (main_arg11 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128 .f32) (main_arg11 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S50000 : Shape := ⟨1, ![50000]⟩
abbrev S1x128 : Shape := ⟨2, ![1, 128]⟩
abbrev S1000x128 : Shape := ⟨2, ![1000, 128]⟩
abbrev S50048x128 : Shape := ⟨2, ![50048, 128]⟩
abbrev S800000x128 : Shape := ⟨2, ![800000, 128]⟩
abbrev S256x1 : Shape := ⟨2, ![256, 1]⟩
abbrev S256x128 : Shape := ⟨2, ![256, 128]⟩
abbrev S256x50048 : Shape := ⟨2, ![256, 50048]⟩
abbrev S50000x1 : Shape := ⟨2, ![50000, 1]⟩

abbrev nBuf : Space → Nat
  | .hbm => 64
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S800000x1, .i32⟩
  | .hbm, ⟨17, _⟩ => ⟨S1x800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S128x128, .f32⟩
  | .hbm, ⟨25, _⟩ => ⟨S1x128, .f32⟩
  | .hbm, ⟨26, _⟩ => ⟨S50000x128, .f32⟩
  | .hbm, ⟨27, _⟩ => ⟨S_, .i32⟩
  | .hbm, ⟨28, _⟩ => ⟨S_, .f32⟩
  | .hbm, ⟨29, _⟩ => ⟨S50048x128, .f32⟩
  | .hbm, ⟨30, _⟩ => ⟨S50048x128, .bf16⟩
  | .hbm, ⟨31, _⟩ => ⟨S800000x128, .f32⟩
  | .hbm, ⟨32, _⟩ => ⟨S50048x128, .f32⟩
  | .hbm, ⟨33, _⟩ => ⟨S50000x128, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S50000x128, .f32⟩
  | .hbm, ⟨44, _⟩ => ⟨S128x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S_, .f32⟩
  | .hbm, ⟨49, _⟩ => ⟨S50048x128, .f32⟩
  | .hbm, ⟨50, _⟩ => ⟨S50048x128, .bf16⟩
  | .hbm, ⟨51, _⟩ => ⟨S800000x128, .f32⟩
  | .hbm, ⟨52, _⟩ => ⟨S50048x128, .f32⟩
  | .hbm, ⟨53, _⟩ => ⟨S50000x128, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S50048x128, .bf16⟩
  | .local _ .vmem, ⟨7, _⟩ => ⟨S256x1, .i32⟩
  | .local _ .vmem, ⟨8, _⟩ => ⟨S256x1, .i32⟩
  | .local _ .vmem, ⟨9, _⟩ => ⟨S256x128, .f32⟩
  | .local _ .vmem, ⟨10, _⟩ => ⟨S256x128, .f32⟩
  | .local _ .vmem, ⟨11, _⟩ => ⟨S128x128, .f32⟩
  | .local _ .vmem, ⟨12, _⟩ => ⟨S128x128, .f32⟩
  | .local _ .vmem, ⟨13, _⟩ => ⟨S1x128, .i32⟩
  | .local _ .vmem, ⟨14, _⟩ => ⟨S1x128, .i32⟩
  | .local _ .vmem, ⟨15, _⟩ => ⟨S50048x128, .f32⟩
  | .local _ .vmem, ⟨16, _⟩ => ⟨S1000x128, .f32⟩
  | .local _ .vmem, ⟨17, _⟩ => ⟨S1000x128, .f32⟩
  | .local _ .vmem, ⟨18, _⟩ => ⟨S128x128, .f32⟩
  | .local _ .vmem, ⟨19, _⟩ => ⟨S1x128, .f32⟩
  | .local _ .vmem, ⟨20, _⟩ => ⟨S1000x128, .f32⟩
  | .local _ .vmem, ⟨21, _⟩ => ⟨S1000x128, .f32⟩
  | .local _ .vmem, ⟨22, _⟩ => ⟨S128x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S128x128, .f32⟩
  | .local _ .vmem, ⟨28, _⟩ => ⟨S1x128, .f32⟩
  | .local _ .vmem, ⟨29, _⟩ => ⟨S1000x128, .f32⟩
  | .local _ .vmem, ⟨30, _⟩ => ⟨S1000x128, .f32⟩
  | .local _ .vmem, ⟨31, _⟩ => ⟨S50048x128, .bf16⟩
  | .local _ .vmem, ⟨32, _⟩ => ⟨S256x1, .i32⟩
  | .local _ .vmem, ⟨33, _⟩ => ⟨S256x1, .i32⟩
  | .local _ .vmem, ⟨34, _⟩ => ⟨S256x128, .f32⟩
  | .local _ .vmem, ⟨35, _⟩ => ⟨S256x128, .f32⟩
  | .local _ .vmem, ⟨36, _⟩ => ⟨S128x128, .f32⟩
  | .local _ .vmem, ⟨37, _⟩ => ⟨S128x128, .f32⟩
  | .local _ .vmem, ⟨38, _⟩ => ⟨S1x128, .i32⟩
  | .local _ .vmem, ⟨39, _⟩ => ⟨S1x128, .i32⟩
  | .local _ .vmem, ⟨40, _⟩ => ⟨S50048x128, .f32⟩
  | .local _ .vmem, ⟨41, _⟩ => ⟨S1000x128, .f32⟩
  | .local _ .vmem, ⟨42, _⟩ => ⟨S1000x128, .f32⟩
  | .local _ .vmem, ⟨43, _⟩ => ⟨S128x128, .f32⟩
  | .local _ .vmem, ⟨44, _⟩ => ⟨S1x128, .f32⟩
  | .local _ .vmem, ⟨45, _⟩ => ⟨S1000x128, .f32⟩
  | .local _ .vmem, ⟨46, _⟩ => ⟨S1000x128, .f32⟩
  | .local _ .vmem, ⟨47, _⟩ => ⟨S128x128, .f32⟩
  | .local _ .vmem, ⟨48, _⟩ => ⟨S1000x128, .f32⟩
  | .local _ .vmem, ⟨49, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_2 : Ref sig .tc := ⟨.hbm, 47, rfl⟩
abbrev main_call1_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg5_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg3_0 : Ref sig .tc := ⟨.vmem, 45, rfl⟩
abbrev cc7_stg3_1 : Ref sig .tc := ⟨.vmem, 46, rfl⟩
abbrev cc7_stg4_0 : Ref sig .tc := ⟨.vmem, 47, rfl⟩
abbrev cc7_stg5_0 : Ref sig .tc := ⟨.vmem, 48, rfl⟩
abbrev cc7_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc3_sem4_0 : DmaSem sig := 22
abbrev cc3_sem5_0 : DmaSem sig := 23
abbrev cc3_sem5_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem3_0 : DmaSem sig := 45
abbrev cc7_sem3_1 : DmaSem sig := 46
abbrev cc7_sem4_0 : DmaSem sig := 47
abbrev cc7_sem5_0 : DmaSem sig := 48
abbrev cc7_sem5_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![3125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S50048x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![6250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S50048x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![3125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S50048x128 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S256x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![6250], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S128x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x128 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S50048x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000_S800000x1 : S800000.ShapeCasts S800000x1
  shapeCasts_S800000_S1x800000 : S800000.ShapeCasts S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  transposes_S128x128_S128x128_1_0 : S128x128.Transposes [1, 0] S128x128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  pads_S50000x128_S50048x128_0480_000 : S50000x128.Pads (![0, 0] : Fin 2 → Nat) ![48, 0] ![0, 0] S50048x128
  h_S_ : 0 < S_.numel
  iota_S256x50048_d1_w32 : S256x50048.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x50048 : S256x1.Broadcasts S256x50048
  inb_S50048x128_S50048x128_0_0 : ∀ a, (![0, 0] : Fin 2 → Nat) a + S50048x128.size a ≤ S50048x128.size a
  h_S50048x128 : 0 < S50048x128.numel
  shapeCasts_S50048x128_S50048x128 : S50048x128.ShapeCasts S50048x128
  inb_S256x128_S256x128_0_0 : ∀ a, (![0, 0] : Fin 2 → Nat) a + S256x128.size a ≤ S256x128.size a
  h_S256x128 : 0 < S256x128.numel
  iota_S50048x128_d0_w32 : S50048x128.Iotas .tc 32 [0]
  broadcasts_S1x128_S50048x128 : S1x128.Broadcasts S50048x128
  slices_S50048x128_S50000x128_0_0 : S50048x128.Slices ![0, 0] S50000x128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S1000x128_S1000x128 : S1000x128.ShapeCasts S1000x128
  scatter_S50000_S800000x1_S800000_n_0_0_1_wf : ScatterDims.WF S50000 S800000x1 S800000 [] [0] [0] 1
  dot_S1000x128_S128x128_S1000x128_1_0_0_1_n_n_wf : DotDims.WF S1000x128 S128x128 S1000x128 [1] [0] [0] [1] [] []
  dot_S256x50048_S50048x128_S256x128_1_0_0_1_n_n_wf : DotDims.WF S256x50048 S50048x128 S256x128 [1] [0] [0] [1] [] []
  dot_S50048x128_S128x128_S50048x128_1_0_0_1_n_n_wf : DotDims.WF S50048x128 S128x128 S50048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S50048x128.size a ≤ S50048x128.size a
  hwx1_0 : ∀ i : grid1.Coords, EltTy.bits .bf16 = 32 ∨ (Rect.block (s := S50048x128) S50048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S800000x1.size a
  hwx1_1 : ∀ i : grid1.Coords, EltTy.bits .i32 = 32 ∨ (Rect.block (s := S800000x1) S256x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S800000x128.size a
  hwx1_2 : ∀ i : grid1.Coords, EltTy.bits .f32 = 32 ∨ (Rect.block (s := S800000x128) S256x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S800000x128.size a
  hwx2_0 : ∀ i : grid2.Coords, EltTy.bits .f32 = 32 ∨ (Rect.block (s := S800000x128) S128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x800000.size a
  hwx2_1 : ∀ i : grid2.Coords, EltTy.bits .i32 = 32 ∨ (Rect.block (s := S1x800000) S1x128.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50048x128.size a ≤ S50048x128.size a
  hwx2_2 : ∀ i : grid2.Coords, EltTy.bits .f32 = 32 ∨ (Rect.block (s := S50048x128) S50048x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S50000x128.size a
  hwx3_3 : ∀ i : grid3.Coords, EltTy.bits .f32 = 32 ∨ (Rect.block (s := S50000x128) S1000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S50000x128.size a
  hwx3_5 : ∀ i : grid3.Coords, EltTy.bits .f32 = 32 ∨ (Rect.block (s := S50000x128) S1000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S50000x128.size a
  hwx4_3 : ∀ i : grid4.Coords, EltTy.bits .f32 = 32 ∨ (Rect.block (s := S50000x128) S1000x128.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S50048x128.size a ≤ S50048x128.size a
  hwx5_0 : ∀ i : grid5.Coords, EltTy.bits .bf16 = 32 ∨ (Rect.block (s := S50048x128) S50048x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x1.size a ≤ S800000x1.size a
  hwx5_1 : ∀ i : grid5.Coords, EltTy.bits .i32 = 32 ∨ (Rect.block (s := S800000x1) S256x1.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S800000x128.size a
  hwx5_2 : ∀ i : grid5.Coords, EltTy.bits .f32 = 32 ∨ (Rect.block (s := S800000x128) S256x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S128x128.size a ≤ S800000x128.size a
  hwx6_0 : ∀ i : grid6.Coords, EltTy.bits .f32 = 32 ∨ (Rect.block (s := S800000x128) S128x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x800000.size a
  hwx6_1 : ∀ i : grid6.Coords, EltTy.bits .i32 = 32 ∨ (Rect.block (s := S1x800000) S1x128.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S50048x128.size a ≤ S50048x128.size a
  hwx6_2 : ∀ i : grid6.Coords, EltTy.bits .f32 = 32 ∨ (Rect.block (s := S50048x128) S50048x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S50000x128.size a
  hwx7_0 : ∀ i : grid7.Coords, EltTy.bits .f32 = 32 ∨ (Rect.block (s := S50000x128) S1000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x128.size a ≤ S50000x128.size a
  hwx7_3 : ∀ i : grid7.Coords, EltTy.bits .f32 = 32 ∨ (Rect.block (s := S50000x128) S1000x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1000x128.size a ≤ S50000x128.size a
  hwx7_5 : ∀ i : grid7.Coords, EltTy.bits .f32 = 32 ∨ (Rect.block (s := S50000x128) S1000x128.size (cc7_transform_5 i) (hinb7_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S256x50048_S50048x128_S256x128_1_0_0_1_n_n : DotDims S256x50048 S50048x128 S256x128 where
  lhsContracting := [1]
  rhsContracting := [0]
  lhsNonContracting := [0]
  rhsNonContracting := [1]
  lhsBatch := []
  rhsBatch := []
  wf := dot_S256x50048_S50048x128_S256x128_1_0_0_1_n_n_wf
def dot_S50048x128_S128x128_S50048x128_1_0_0_1_n_n : DotDims S50048x128 S128x128 S50048x128 where
  lhsContracting := [1]
  rhsContracting := [0]
  lhsNonContracting := [0]
  rhsNonContracting := [1]
  lhsBatch := []
  rhsBatch := []
  wf := dot_S50048x128_S128x128_S50048x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S50048x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S50048x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v22) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg0) S1000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v24) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v26) S1000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v26) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v28) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v29) S1000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v31) S50048x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v4) S256x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v32) S256x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v32) S128x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S1x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v33) S50048x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v39) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v40) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v42) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v26) S1000x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v41) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v43) S1000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 105
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S128x128, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S50000x128, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S_, .f32⟩
  | .hbm, ⟨38, _⟩ => ⟨S800000, .f32⟩
  | .hbm, ⟨39, _⟩ => ⟨S_, .f32⟩
  | .hbm, ⟨40, _⟩ => ⟨S50000, .f32⟩
  | .hbm, ⟨41, _⟩ => ⟨S800000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S128x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S128x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S1x800000, .i32⟩
  | .hbm, ⟨61, _⟩ => ⟨S800000, .i32⟩
  | .hbm, ⟨62, _⟩ => ⟨S1x800000, .i32⟩
  | .hbm, ⟨63, _⟩ => ⟨S800000, .i32⟩
  | .hbm, ⟨64, _⟩ => ⟨S128x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S_, .f32⟩
  | .hbm, ⟨86, _⟩ => ⟨S800000, .f32⟩
  | .hbm, ⟨87, _⟩ => ⟨S_, .f32⟩
  | .hbm, ⟨88, _⟩ => ⟨S50000, .f32⟩
  | .hbm, ⟨89, _⟩ => ⟨S800000x1, .i32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x128, .f32⟩
  | .hbm, ⟨96, _⟩ => ⟨S50000x128, .f32⟩
  | .hbm, ⟨97, _⟩ => ⟨S128x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S128x128, .f32⟩
  | .hbm, ⟨103, _⟩ => ⟨S50000x128, .f32⟩
  | .hbm, ⟨104, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_cst : Ref sig .tc := ⟨.hbm, 21, rfl⟩
abbrev main_call0_v0 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call2_cst : Ref sig .tc := ⟨.hbm, 69, rfl⟩
abbrev main_call2_v0 : Ref sig .tc := ⟨.hbm, 70, rfl⟩
abbrev main_v47 : Ref sig .tc := ⟨.hbm, 71, rfl⟩
abbrev main_c_4 : Ref sig .tc := ⟨.hbm, 72, rfl⟩
abbrev main_v48 : Ref sig .tc := ⟨.hbm, 73, rfl⟩
abbrev main_v49 : Ref sig .tc := ⟨.hbm, 74, rfl⟩
abbrev main_c_5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_6 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Spec.lean ====
/-
  The mathematics of one mean-aggregating graph layer, index by index over the extended reals.
  Nodes carry 128 features; an edge list `ei` of shape [2, 800000] names a source (row 0) and a destination (row 1) per edge.
  One layer: project every node and clip below at zero (`proj`), pad the node axis with 48 zero rows (`padRows`),
  take for each edge the row of its source as a sum against a one-hot row (`gatherRows`), add for each node the rows of
  the edges that point at it as a sum against a one-hot column (`scatterRows`), divide by the in-degree clipped below at
  one (`meanRows`, the divisor an array `cntB` given from outside), and combine with the node's own features (`comb`).
-/
import Idealize.ShloMosaic.PureOps.Ideal
import Idealize.ShloMosaic.Lib.ValueIdx

noncomputable section

namespace Cert.Sage

open Idealize.ShloMosaic Idealize.ShloMosaic.ValueIdx

/-- [50000, 128]: one row per node. -/
abbrev Nodes : Shape := ⟨2, ![50000, 128]⟩
/-- [50048, 128]: the node axis padded to a multiple of 128. -/
abbrev NodesPad : Shape := ⟨2, ![50048, 128]⟩
/-- [800000, 128]: one row per edge. -/
abbrev Msgs : Shape := ⟨2, ![800000, 128]⟩
/-- [128, 128]: a weight matrix, already transposed: row = input feature, column = output feature. -/
abbrev Sq : Shape := ⟨2, ![128, 128]⟩
/-- [1, 128]: a bias as a row. -/
abbrev Row : Shape := ⟨2, ![1, 128]⟩
/-- [128]: a bias. -/
abbrev V128 : Shape := ⟨1, ![128]⟩
/-- [2, 800000]: the edge list. -/
abbrev EI : Shape := ⟨2, ![2, 800000]⟩
/-- [800000, 1]: the sources as a column. -/
abbrev SrcCol : Shape := ⟨2, ![800000, 1]⟩
/-- [1, 800000]: the destinations as a row. -/
abbrev DstRow : Shape := ⟨2, ![1, 800000]⟩

/-- `max (x·wT + b, 0)` at node `n`, feature `d`. -/
def projAt (x : Nodes.Idx → EReal) (wT : Sq.Idx → EReal) (b : Row.Idx → EReal) (n : Fin 50000) (d : Fin 128) : EReal :=
  max ((∑ k : Fin 128, x (ix2 n k) * wT (ix2 k d)) + b (ix2 (0 : Fin 1) d)) 0

/-- The projection with the clip at zero, as an array. -/
def proj (x : Nodes.Idx → EReal) (wT : Sq.Idx → EReal) (b : Row.Idx → EReal) : Nodes.Idx → EReal :=
  fun i => projAt x wT b (i 0) (i 1)

/-- 48 zero rows appended. -/
def padRows (h : Nodes.Idx → EReal) : NodesPad.Idx → EReal :=
  fun i => if hlt : (i 0).val < 50000 then h (ix2 (⟨(i 0).val, hlt⟩ : Fin 50000) (i 1 : Fin 128)) else 0

/-- Edge `e`'s message, feature `d`: the sum over the padded node axis of (1 where the node is the edge's source, else 0)
    times the node's row. -/
def gatherAt (hp : NodesPad.Idx → EReal) (src : SrcCol.Idx → BitVec 32) (e : Fin 800000) (d : Fin 128) : EReal :=
  ∑ n : Fin 50048, (if src (ix2 e (0 : Fin 1)) = BitVec.ofNat 32 n.val then (1 : EReal) else 0) * hp (ix2 n d)

def gatherRows (hp : NodesPad.Idx → EReal) (src : SrcCol.Idx → BitVec 32) : Msgs.Idx → EReal :=
  fun i => gatherAt hp src (i 0) (i 1)

/-- Node `n`'s sum, feature `d`: the sum over the edges of (1 where the edge points at the node, else 0) times the edge's
    message. -/
def scatterAt (msg : Msgs.Idx → EReal) (dst : DstRow.Idx → BitVec 32) (n : Fin 50048) (d : Fin 128) : EReal :=
  ∑ e : Fin 800000, (if BitVec.ofNat 32 n.val = dst (ix2 (0 : Fin 1) e) then (1 : EReal) else 0) * msg (ix2 e d)

def scatterRows (msg : Msgs.Idx → EReal) (dst : DstRow.Idx → BitVec 32) : NodesPad.Idx → EReal :=
  fun i => scatterAt msg dst (i 0) (i 1)

/-- The first 50000 rows of the sums, each divided by the divisor array. -/
def meanRows (s : NodesPad.Idx → EReal) (cntB : Nodes.Idx → EReal) : Nodes.Idx → EReal :=
  fun i => Ideal.div (s (ix2 (⟨(i 0).val, Nat.lt_trans (idx2_lt0 i) (by decide)⟩ : Fin 50048) (i 1 : Fin 128))) (cntB i)

/-- `agg·wlT + bl + x·wrT` at node `n`, feature `d`. -/
def combAt (agg : Nodes.Idx → EReal) (wlT : Sq.Idx → EReal) (bl : Row.Idx → EReal) (x : Nodes.Idx → EReal)
    (wrT : Sq.Idx → EReal) (n : Fin 50000) (d : Fin 128) : EReal :=
  ((∑ k : Fin 128, agg (ix2 n k) * wlT (ix2 k d)) + bl (ix2 (0 : Fin 1) d)) + ∑ k : Fin 128, x (ix2 n k) * wrT (ix2 k d)

def comb (agg : Nodes.Idx → EReal) (wlT : Sq.Idx → EReal) (bl : Row.Idx → EReal) (x : Nodes.Idx → EReal)
    (wrT : Sq.Idx → EReal) : Nodes.Idx → EReal :=
  fun i => combAt agg wlT bl x wrT (i 0) (i 1)

/-- The combination clipped below at zero. -/
def combRelu (agg : Nodes.Idx → EReal) (wlT : Sq.Idx → EReal) (bl : Row.Idx → EReal) (x : Nodes.Idx → EReal)
    (wrT : Sq.Idx → EReal) : Nodes.Idx → EReal :=
  fun i => max (combAt agg wlT bl x wrT (i 0) (i 1)) 0

/-- A bias [128] as a row [1, 128]. -/
def rowOf (b : V128.Idx → EReal) : Row.Idx → EReal := fun i => b (ix1 (i 1 : Fin 128))

/-- Row 0 of the edge list as a column: the sources. -/
def srcCol (ei : EI.Idx → BitVec 32) : SrcCol.Idx → BitVec 32 := fun i => ei (ix2 (0 : Fin 2) (i 0 : Fin 800000))

/-- Row 1 of the edge list as a row: the destinations. -/
def dstRow (ei : EI.Idx → BitVec 32) : DstRow.Idx → BitVec 32 := fun i => ei (ix2 (1 : Fin 2) (i 1 : Fin 800000))

/-- One layer before its last clip: the mean over incoming edges of the projected sources, combined with the node itself. -/
def layer (x : Nodes.Idx → EReal) (ei : EI.Idx → BitVec 32) (cntB : Nodes.Idx → EReal) (wpT : Sq.Idx → EReal)
    (bp : V128.Idx → EReal) (wlT : Sq.Idx → EReal) (bl : V128.Idx → EReal) (wrT : Sq.Idx → EReal) : Nodes.Idx → EReal :=
  comb (meanRows (scatterRows (gatherRows (padRows (proj x wpT (rowOf bp))) (srcCol ei)) (dstRow ei)) cntB) wlT (rowOf bl) x wrT

/-- The same with the clip at zero. -/
def layerRelu (x : Nodes.Idx → EReal) (ei : EI.Idx → BitVec 32) (cntB : Nodes.Idx → EReal) (wpT : Sq.Idx → EReal)
    (bp : V128.Idx → EReal) (wlT : Sq.Idx → EReal) (bl : V128.Idx → EReal) (wrT : Sq.Idx → EReal) : Nodes.Idx → EReal :=
  combRelu (meanRows (scatterRows (gatherRows (padRows (proj x wpT (rowOf bp))) (srcCol ei)) (dstRow ei)) cntB) wlT (rowOf bl) x wrT

/-- Two layers, the first clipped at zero. -/
def twoLayers (x : Nodes.Idx → EReal) (ei : EI.Idx → BitVec 32) (cnt1 cnt2 : Nodes.Idx → EReal)
    (wpT1 : Sq.Idx → EReal) (bp1 : V128.Idx → EReal) (wlT1 : Sq.Idx → EReal) (bl1 : V128.Idx → EReal) (wrT1 : Sq.Idx → EReal)
    (wpT2 : Sq.Idx → EReal) (bp2 : V128.Idx → EReal) (wlT2 : Sq.Idx → EReal) (bl2 : V128.Idx → EReal) (wrT2 : Sq.Idx → EReal) :
    Nodes.Idx → EReal :=
  layer (layerRelu x ei cnt1 wpT1 bp1 wlT1 bl1 wrT1) ei cnt2 wpT2 bp2 wlT2 bl2 wrT2

/-- Every source is a node: `0 ≤ ei[0, e] < 50000`, read signed. -/
def SrcInRange (ei : EI.Idx → BitVec 32) : Prop :=
  ∀ e : Fin 800000, 0 ≤ (ei (ix2 (0 : Fin 2) e)).toInt ∧ (ei (ix2 (0 : Fin 2) e)).toInt < 50000

end Cert.Sage

end
-- ==== Proof.Lin0.lean ====
/- The projection region of layer 1: every node's row times the transposed weights plus the bias row, clipped at zero.
   The region runs over 50 grid points. Point `t` loads rows `1000 t … 1000 t + 999` of the node array, the whole weight
   matrix and the whole bias row, and stores one block of 1000 rows. At row `p`, column `q` of that block the body's value
   is `max (∑ₖ x[p,k] · w[k,q] + b[0,q], 0)`: a block product into the zero block is the plain sum over the contracted
   axis, and narrowing an operand's float format is the identity on extended reals. The 50 blocks tile the output array
   (row `r` lies in block `r / 1000`), so after the last point the array is the projection of the arrays the region found
   at entry, index by index. Nothing here needs a finite entry: no sum is rearranged and nothing is distributed. -/
import proofs.«412110_j609885356389_1_alg».proof.Proof.Gen.KernelIdeal.Frame
import proofs.«412110_j609885356389_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Sage

open Idealize.ShloMosaic Idealize.ShloMosaic.TcCoe Idealize.ShloMosaic.ValueIdx Idealize.SL.Sem Cert.KernelIdeal Cert.KernelIdeal.Gen
open Idealize.ShloMosaic.Pipeline (Dat Cfg Window)

namespace Lin0

/-- In the block product's dimension numbers, the left operand's row is the output's row … -/
theorem lhs_dot_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- … its column the contraction index, … -/
theorem lhs_dot_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- … the right operand's row the contraction index … -/
theorem rhs_dot_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- … and its column the output's column. -/
theorem rhs_dot_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The block product into the zero block, at row `p` and column `q`: the sum over the 128 features of the row's entry
    times the weight's. -/
theorem matmul_apply (l : FVec Ideal S1000x128 .bf16) (r : FVec Ideal S128x128 .bf16) (p : Fin 1000) (q : Fin 128) :
    FloatOps.matmul dot_S1000x128_S128x128_S1000x128_1_0_0_1_n_n none l r (constant S1000x128 .f32 0x00000000#32) (ix2 p q)
      = ∑ k : Fin 128, l (ix2 p k) * r (ix2 k q) := by
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- What the body stores, at row `p` and column `q` of its block: the row of the node block times the weights' column,
    plus the bias, clipped below at zero. The roundings to the narrower float format are the identity on extended reals. -/
theorem pay_apply (x : Vec Ideal S1000x128 .f32) (w : Vec Ideal S128x128 .f32) (b : Vec Ideal S1x128 .f32) (p : Fin 1000) (q : Fin 128) :
    (k0_pay1 (F := Ideal) x w b) (ix2 p q)
      = max ((∑ k : Fin 128, x (ix2 p k) * w (ix2 k q)) + b (ix2 (0 : Fin 1) q)) 0 := by
  unfold k0_pay1
  simp only [shapeCast_self]
  rw [maximumf_apply, addf_apply, broadcast_apply, broadcastTo_1b_ab_apply]
  refine congrArg₂ max (congrArg₂ (· + ·) ?_ rfl) Ideal.ofBits_zero_f32
  exact matmul_apply _ _ p q

/-! ## From the blocks to the array -/

theorem hz : (![0, 0] : Fin 2 → Nat) = fun _ => 0 := funext fun a => by fin_cases a <;> rfl

/-- The printed index maps over the 50 grid points: the node block and the output block of point `t` are block `t` along
    the rows, the weights and the bias row are whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One block of the result is the projection of the node rows it covers: given that the loaded node block holds rows
    `1000 t … 1000 t + 999` of the node array `X` and the other two loads are the whole weights and bias row, the stored
    block at `j` is the projection at the array index `i` sitting at row `1000 t + j₀`, column `j₁`. -/
theorem block_eq (X : Cert.Sage.Nodes.Idx → EReal) (W : Cert.Sage.Sq.Idx → EReal) (B : Cert.Sage.Row.Idx → EReal)
    (x : Vec Ideal S1000x128 .f32) (w : Vec Ideal S128x128 .f32) (b : Vec Ideal S1x128 .f32) (t : Nat)
    (hx : ∀ (p : Fin 1000) (k : Fin 128) (n : Fin 50000), n.val = t * 1000 + p.val → x (ix2 p k) = X (ix2 n k))
    (hw : w = W) (hb : b = B)
    (j : S1000x128.Idx) (i : Cert.Sage.Nodes.Idx) (hi0 : (i 0).val = t * 1000 + (j 0).val) (hi1 : (i 1).val = (j 1).val) :
    k0_pay1 (F := Ideal) x w b j = Cert.Sage.proj X W B i := by
  obtain ⟨p, q, rfl⟩ : ∃ (p : Fin 1000) (q : Fin 128), j = ix2 p q := ⟨j 0, j 1, eq_ix2 j⟩
  obtain ⟨n, d, rfl⟩ : ∃ (n : Fin 50000) (d : Fin 128), i = ix2 n d := ⟨i 0, i 1, eq_ix2 i⟩
  have hn : n.val = t * 1000 + p.val := hi0
  obtain rfl : d = q := Fin.ext hi1
  rw [pay_apply, hw, hb]
  show _ = Cert.Sage.projAt X W B n d
  unfold Cert.Sage.projAt
  refine congrArg₂ max (congrArg₂ (· + ·) (Finset.sum_congr rfl fun k _ => ?_) rfl) rfl
  rw [hx p k n hn]

/-- The node block at point `t` holds rows `1000 t … 1000 t + 999` of the node array. -/
theorem xblk_apply (V : (c : Dev nD) → (b : Ref sig .tc) → Buf (Elt Ideal) ((c : Thread nD τ).loc b)) (c : Dev nD) (t : Fin cfg0.N)
    (p : Fin 1000) (k : Fin 128) (n : Fin 50000) (hn : n.val = t.val * 1000 + p.val) :
    (iblk0 V c 0 t : Vec Ideal S1000x128 .f32) (ix2 p k) = (V c main_arg0 : S50000x128.Idx → EReal) (ix2 n k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 1000 + 1 * p.val = n.val; rw [e0, hn]; omega
  | ⟨1, _⟩ => show win0_0.index t (1 : Fin 2) * 128 + 1 * k.val = k.val; rw [e1]; omega

/-- The weights' block at every point is the whole weight array. -/
theorem wblk_eq (V : (c : Dev nD) → (b : Ref sig .tc) → Buf (Elt Ideal) ((c : Thread nD τ).loc b)) (c : Dev nD) (t : Fin cfg0.N) :
    (iblk0 V c 1 t : Vec Ideal S128x128 .f32) = (V c main_v10 : S128x128.Idx → EReal) := by
  obtain ⟨-, -, e2, e3, -⟩ := idx_facts t
  funext y
  unfold iblk0
  rw [View.read_apply]
  show V c main_v10 _ = V c main_v10 _
  refine congrArg (V c main_v10) (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The bias row's block at every point is the whole row. -/
theorem bblk_eq (V : (c : Dev nD) → (b : Ref sig .tc) → Buf (Elt Ideal) ((c : Thread nD τ).loc b)) (c : Dev nD) (t : Fin cfg0.N) :
    (iblk0 V c 2 t : Vec Ideal S1x128 .f32) = (V c main_v11 : S1x128.Idx → EReal) := by
  obtain ⟨-, -, -, -, e4, e5, -⟩ := idx_facts t
  funext y
  unfold iblk0
  rw [View.read_apply]
  show V c main_v11 _ = V c main_v11 _
  refine congrArg (V c main_v11) (funext fun a => Fin.ext ?_)
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- What point `t` writes back is block `t` of the projection of the arrays the region found. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Sage.proj (V c main_arg0) (V c main_v10) (V c main_v11)) := by
  show (cfg0.win 3).cut (grid0.coords t) ((dat0 V c).after 3 t) = _
  rw [after0_3]
  unfold out0_3
  rw [View.canon_unit_zero hz]
  simp only [View.ld_unit_zero (S := S1000x128) hz, View.ld_unit_zero (S := S128x128) hz, View.ld_unit_zero (S := S1x128) hz]
  obtain ⟨-, -, -, -, -, -, e6, e7⟩ := idx_facts t
  funext j
  show k0_pay1 (F := Ideal) (iblk0 V c 0 t) (iblk0 V c 1 t) (iblk0 V c 2 t) j
    = Cert.Sage.proj (V c main_arg0) (V c main_v10) (V c main_v11) (((cfg0.win 3).blk t).view.emb j)
  refine block_eq (V c main_arg0) (V c main_v10) (V c main_v11) (iblk0 V c 0 t) (iblk0 V c 1 t) (iblk0 V c 2 t) t.val
    (fun p k n hn => xblk_apply V c t p k n hn) (wblk_eq V c t) (bblk_eq V c t) j (((cfg0.win 3).blk t).view.emb j) ?_ ?_
  · show win0_3.index t (0 : Fin 2) * 1000 + 1 * (j 0).val = t.val * 1000 + (j 0).val
    rw [e6]; omega
  · show win0_3.index t (1 : Fin 2) * 128 + 1 * (j 1).val = (j 1).val
    rw [e7]; omega

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v12).slice (win0_3.rect t)).set ↔ _
  rw [View.set_slice_whole, Rect.mem_set_unit]
  exact Iff.rfl

/-- Every index of the output array lies in the block of the point its row falls in: row `r` in block `r / 1000`. -/
theorem cover (i : S50000x128.Idx) : ∃ t : Fin cfg0.N, (cfg0.win 3).flush t = true ∧ i ∈ ((cfg0.win 3).blk t).view.set := by
  have hN : cfg0.N = 50 := N_0
  have hi0 : (i 0).val < 50000 := (i 0).isLt
  have hi1 : (i 1).val < 128 := (i 1).isLt
  obtain ⟨-, -, -, -, -, -, e6, e7⟩ := idx_facts ⟨(i 0).val / 1000, by omega⟩
  refine ⟨⟨(i 0).val / 1000, by omega⟩, flush0_3 _, ?_⟩
  rw [mem_blk]
  intro a
  match a with
  | ⟨0, _⟩ =>
    show win0_3.index _ (0 : Fin 2) * 1000 ≤ (i 0).val ∧ (i 0).val < win0_3.index _ (0 : Fin 2) * 1000 + 1000
    rw [e6]; show (i 0).val / 1000 * 1000 ≤ (i 0).val ∧ (i 0).val < (i 0).val / 1000 * 1000 + 1000; omega
  | ⟨1, _⟩ =>
    show win0_3.index _ (1 : Fin 2) * 128 ≤ (i 1).val ∧ (i 1).val < win0_3.index _ (1 : Fin 2) * 128 + 128
    rw [e7]; omega

end Lin0

/-- The region's output array after all its grid points, as a function of the arrays the region finds at entry. -/
theorem arr0 (V : (c : Dev nD) → (b : Ref sig .tc) → Buf (Elt Ideal) ((c : Thread nD τ).loc b)) (c : Dev nD) :
    (dat0 (F := Ideal) V c).arrAt 3 cfg0.N = Cert.Sage.proj (V c main_arg0) (V c main_v10) (V c main_v11) :=
  (dat0 (F := Ideal) V c).arrAt_eq_of_cover 3 (Cert.Sage.proj (V c main_arg0) (V c main_v10) (V c main_v11))
    (fun t _ => Lin0.flushed_eq V c t) Lin0.cover

end Cert.KernelIdeal.Sage

end
-- ==== Proof.Gat1.lean ====
/- The gathering region of layer 1: per edge, the padded node rows summed against the one-hot row of the edge's source. -/
import proofs.«412110_j609885356389_1_alg».proof.Proof.Gen.KernelIdeal.Frame
import proofs.«412110_j609885356389_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Sage

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## The body's arithmetic at one entry

The body builds, for its 256 edges, the 256 × 50048 matrix whose row `p` is 1 at the column equal to edge `p`'s source word
and 0 elsewhere, and multiplies it into the padded node rows. Read at entry `(p, q)` this is the sum over the 50048 padded
nodes `n` of (1 if the source word of edge `p` is the word `n`, else 0) times the node rows' entry `(n, q)`. No law beyond
reading each operation at an index is used: the sum is kept as it stands. -/

/-- A select on a comparison of two words for equality is the `if` on the equality of the words. -/
theorem gat1_select_eq {α : Type} (a b : BitVec 32) (x y : α) :
    Scalar.select (IntOp.cmpi .eq a b) x y = if a = b then x else y := by
  show (if BitVec.ofBool (a == b) = 1 then x else y) = _
  by_cases h : a = b
  · rw [if_pos h, show (a == b) = true from beq_iff_eq.mpr h]; rfl
  · rw [if_neg h, show (a == b) = false from beq_eq_false_iff_ne.mpr h]; rfl

/-- The one-hot matrix's row coordinate is the output's row. -/
theorem gat1_onehot_row (i : S256x128.Idx) (k : dot_S256x50048_S50048x128_S256x128_1_0_0_1_n_n.contr.Idx) :
    (dot_S256x50048_S50048x128_S256x128_1_0_0_1_n_n.lhsIdx i k 0).val = (i 0).val := by
  unfold DotDims.lhsIdx
  rw [dif_neg (show ¬(0 : Fin S256x50048.rank) ∈ dot_S256x50048_S50048x128_S256x128_1_0_0_1_n_n.lhsBatch by decide), dif_pos (show (0 : Fin S256x50048.rank) ∈ dot_S256x50048_S50048x128_S256x128_1_0_0_1_n_n.lhsNonContracting by decide)]
  rfl
/-- The one-hot matrix's column coordinate is the summed node. -/
theorem gat1_onehot_col (i : S256x128.Idx) (k : dot_S256x50048_S50048x128_S256x128_1_0_0_1_n_n.contr.Idx) :
    (dot_S256x50048_S50048x128_S256x128_1_0_0_1_n_n.lhsIdx i k 1).val = (k ⟨0, by decide⟩).val :=
  dot_S256x50048_S50048x128_S256x128_1_0_0_1_n_n.lhsIdx_val_of_single rfl i k
/-- The node rows' row coordinate is the summed node. -/
theorem gat1_nodes_row (i : S256x128.Idx) (k : dot_S256x50048_S50048x128_S256x128_1_0_0_1_n_n.contr.Idx) :
    (dot_S256x50048_S50048x128_S256x128_1_0_0_1_n_n.rhsIdx i k 0).val = (k ⟨0, by decide⟩).val :=
  dot_S256x50048_S50048x128_S256x128_1_0_0_1_n_n.rhsIdx_val_of_single rfl i k
/-- The node rows' column coordinate is the output's column. -/
theorem gat1_nodes_col (i : S256x128.Idx) (k : dot_S256x50048_S50048x128_S256x128_1_0_0_1_n_n.contr.Idx) :
    (dot_S256x50048_S50048x128_S256x128_1_0_0_1_n_n.rhsIdx i k 1).val = (i 1).val := by
  unfold DotDims.rhsIdx
  rw [dif_neg (show ¬(1 : Fin S50048x128.rank) ∈ dot_S256x50048_S50048x128_S256x128_1_0_0_1_n_n.rhsBatch by decide), dif_pos (show (1 : Fin S50048x128.rank) ∈ dot_S256x50048_S50048x128_S256x128_1_0_0_1_n_n.rhsNonContracting by decide)]
  rfl

/-- Entry `(p, n)` of the one-hot matrix: 1 where edge `p`'s source word is the word `n`, else 0. -/
theorem gat1_onehot_apply (src : Vec Ideal S256x1 .i32) (p : Fin 256) (n : Fin 50048) :
    (select (cmpi .eq (broadcastTo S256x50048 (shapeCast S256x1 src shapeCasts_S256x1_S256x1) broadcasts_S256x1_S256x50048)
        (iota .tc S256x50048 32 [1] iota_S256x50048_d1_w32))
      (broadcast S256x50048 (Scalar.ofBits (F := Ideal) .bf16 0x3F80#16)) (broadcast S256x50048 (Scalar.ofBits (F := Ideal) .bf16 0x0000#16))
        : FVec Ideal S256x50048 .bf16) (ix2 p n)
      = if src (ix2 p (0 : Fin 1)) = BitVec.ofNat 32 n.val then (1 : EReal) else 0 := by
  have hb : broadcastTo S256x50048 (shapeCast S256x1 src shapeCasts_S256x1_S256x1) broadcasts_S256x1_S256x50048 (ix2 p n) = src (ix2 p (0 : Fin 1)) := by
    rw [shapeCast_self]
    exact broadcastTo_apply src broadcasts_S256x1_S256x50048 (ix2 p n) (ix2 p (0 : Fin 1)) (fun a => match a with
      | ⟨0, _⟩ => by show p.val = if (256 : Nat) = 1 then 0 else p.val; rw [if_neg (by decide)]
      | ⟨1, _⟩ => by show (0 : Nat) = if (1 : Nat) = 1 then 0 else n.val; rw [if_pos rfl])
  have hi : iota .tc S256x50048 32 [1] iota_S256x50048_d1_w32 (ix2 p n) = BitVec.ofNat 32 n.val :=
    iota_single_apply .tc S256x50048 32 1 iota_S256x50048_d1_w32 (ix2 p n)
  show Scalar.select (IntOp.cmpi .eq (broadcastTo S256x50048 (shapeCast S256x1 src shapeCasts_S256x1_S256x1) broadcasts_S256x1_S256x50048 (ix2 p n))
      (iota .tc S256x50048 32 [1] iota_S256x50048_d1_w32 (ix2 p n))) (Ideal.ofBits .bf16 0x3F80#16) (Ideal.ofBits .bf16 0x0000#16) = _
  rw [hb, hi, gat1_select_eq]
  rw [show Ideal.ofBits .bf16 0x3F80#16 = (1 : EReal) from IdealRules.sign_bit.ideal_onePat .bf16,
    show Ideal.ofBits .bf16 0x0000#16 = (0 : EReal) from IdealRules.sign_bit.ideal_zero .bf16]

/-- THE BODY'S RESULT AT ENTRY `(p, q)`: the padded node rows summed against the one-hot row of edge `p`'s source. -/
theorem gat1_pay_apply (src : Vec Ideal S256x1 .i32) (hp : Vec Ideal S50048x128 .bf16) (p : Fin 256) (q : Fin 128) :
    k1_pay1 (F := Ideal) src hp (ix2 p q)
      = ∑ n : Fin 50048, (if src (ix2 p (0 : Fin 1)) = BitVec.ofNat 32 n.val then (1 : EReal) else 0) * hp (ix2 n q) := by
  unfold k1_pay1
  refine (Ideal.matmul_constant_zero_apply dot_S256x50048_S50048x128_S256x128_1_0_0_1_n_n none _ _ (ix2 p q)).trans ?_
  rw [← Equiv.sum_comp (ValueIdx.contrEquiv1 dot_S256x50048_S50048x128_S256x128_1_0_0_1_n_n 50048 rfl rfl).symm]
  refine Finset.sum_congr rfl fun n _ => ?_
  have hk := ValueIdx.contrEquiv1_symm_val dot_S256x50048_S50048x128_S256x128_1_0_0_1_n_n 50048 rfl rfl n
  have el : dot_S256x50048_S50048x128_S256x128_1_0_0_1_n_n.lhsIdx (ix2 p q) ((ValueIdx.contrEquiv1 dot_S256x50048_S50048x128_S256x128_1_0_0_1_n_n 50048 rfl rfl).symm n) = ix2 p n := funext fun a => Fin.ext (by
    match a with
    | ⟨0, _⟩ => exact gat1_onehot_row _ _
    | ⟨1, _⟩ => exact (gat1_onehot_col _ _).trans hk)
  have er : dot_S256x50048_S50048x128_S256x128_1_0_0_1_n_n.rhsIdx (ix2 p q) ((ValueIdx.contrEquiv1 dot_S256x50048_S50048x128_S256x128_1_0_0_1_n_n 50048 rfl rfl).symm n) = ix2 n q := funext fun a => Fin.ext (by
    match a with
    | ⟨0, _⟩ => exact (gat1_nodes_row _ _).trans hk
    | ⟨1, _⟩ => exact gat1_nodes_col _ _)
  rw [el, er, shapeCast_self hp shapeCasts_S50048x128_S50048x128]
  exact congrArg (· * hp (ix2 n q)) (gat1_onehot_apply src p n)

/-! ## From the grid's blocks to the array

The grid has 3125 points; point `t` holds edges `256 t … 256 t + 255`: its source block is rows `256 t …` of the source column,
its output block rows `256 t …` of the message array, and the padded node rows are staged whole at every point. So what point
`t` writes back is block `t` of the one function `gatherRows` of the two arrays the region finds at entry, and the 3125 blocks
tile the 800000 rows: row `e` lies in the block of point `e / 256`. -/

/-- The sum over the nodes, written over a point's two blocks, is `gatherRows` of the two arrays at the array index `i` the
    block entry `(p, q)` sits at: row `256 t + p`, column `q`; the node rows' block is the whole array, the source block's row
    `p` is the source column's row `256 t + p`. -/
theorem gat1_of_blocks (hpA : S50048x128.Idx → EReal) (srcA : S800000x1.Idx → BitVec 32)
    (x0 : Vec Ideal S50048x128 .bf16) (x1 : Vec Ideal S256x1 .i32) (tv : Nat) (p : Fin 256) (q : Fin 128) (i : S800000x128.Idx)
    (h0 : (i 0).val = tv * 256 + p.val) (h1 : (i 1).val = q.val)
    (hx0 : ∀ (n : Fin 50048) (d : Fin 128), x0 (ix2 n d) = hpA (ix2 n d))
    (hx1 : ∀ e : Fin 800000, e.val = tv * 256 + p.val → x1 (ix2 p (0 : Fin 1)) = srcA (ix2 e (0 : Fin 1))) :
    ∑ n : Fin 50048, (if x1 (ix2 p (0 : Fin 1)) = BitVec.ofNat 32 n.val then (1 : EReal) else 0) * x0 (ix2 n q)
      = Cert.Sage.gatherRows hpA srcA i := by
  obtain ⟨e, d, rfl⟩ : ∃ (e : Fin 800000) (d : Fin 128), i = ix2 e d := ⟨i 0, i 1, eq_ix2 i⟩
  obtain rfl : d = q := Fin.ext h1
  show _ = ∑ n : Fin 50048, (if srcA (ix2 e (0 : Fin 1)) = BitVec.ofNat 32 n.val then (1 : EReal) else 0) * hpA (ix2 n d)
  refine Finset.sum_congr rfl fun n _ => ?_
  rw [hx0 n d, hx1 e h0]

variable (V : (c : Dev nD) → (b : Ref sig .tc) → Buf (Elt Ideal) ((c : Thread nD τ).loc b))

/-- A block that starts at the origin of its buffer. -/
theorem gat1_origin : (![0, 0] : Fin 2 → Nat) = fun _ => 0 := funext fun a => by fin_cases a <;> rfl

/-- The printed index maps, decided over the grid: the node rows' block is always block (0, 0); the source column's and the
    output's block at point `t` is block (t, 0). -/
theorem gat1_blocks_at : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The node rows' block at any point is the whole array. -/
theorem gat1_nodesBlk_apply (c : Dev nD) (t : Fin cfg1.N) (n : Fin 50048) (d : Fin 128) :
    (iblk1 V c 0 t : Vec Ideal S50048x128 .bf16) (ix2 n d) = (V c main_v14 : S50048x128.Idx → EReal) (ix2 n d) := by
  obtain ⟨a0, a1, -, -, -, -⟩ := gat1_blocks_at t
  unfold iblk1
  rw [View.read_apply]
  show V c main_v14 _ = V c main_v14 _
  refine congrArg (V c main_v14) (funext fun a => Fin.ext ?_)
  match a with
  | ⟨0, _⟩ => show win1_0.index t (0 : Fin 2) * 50048 + 1 * n.val = n.val; rw [a0]; omega
  | ⟨1, _⟩ => show win1_0.index t (1 : Fin 2) * 128 + 1 * d.val = d.val; rw [a1]; omega

/-- Row `p` of the source block at point `t` is row `256 t + p` of the source column. -/
theorem gat1_srcBlk_apply (c : Dev nD) (t : Fin cfg1.N) (p : Fin 256) (e : Fin 800000) (he : e.val = t.val * 256 + p.val) :
    (iblk1 V c 1 t : Vec Ideal S256x1 .i32) (ix2 p (0 : Fin 1)) = (V c main_v4 : S800000x1.Idx → BitVec 32) (ix2 e (0 : Fin 1)) := by
  obtain ⟨-, -, b0, b1, -, -⟩ := gat1_blocks_at t
  unfold iblk1
  rw [View.read_apply]
  show V c main_v4 _ = V c main_v4 _
  refine congrArg (V c main_v4) (funext fun a => Fin.ext ?_)
  match a with
  | ⟨0, _⟩ => show win1_1.index t (0 : Fin 2) * 256 + 1 * p.val = e.val; rw [b0, he]; omega
  | ⟨1, _⟩ => show win1_1.index t (1 : Fin 2) * 1 + 1 * 0 = 0; rw [b1]

/-- WHAT POINT `t` WRITES BACK is block `t` of `gatherRows` of the padded node rows and the source column as the region finds them. -/
theorem gat1_flushed_eq (c : Dev nD) (t : Fin cfg1.N) :
    (dat1 (F := Ideal) V c).flushed 2 t
      = ((cfg1.win 2).blk t).view.read (Elt Ideal) (Cert.Sage.gatherRows (V c main_v14) (V c main_v4)) := by
  show (cfg1.win 2).cut (grid1.coords t) ((dat1 V c).after 2 t) = _
  rw [after1_2]
  unfold out1_2
  rw [View.canon_unit_zero gat1_origin]
  simp only [View.ld_unit_zero (S := S256x1) gat1_origin, View.ld_unit_zero (S := S50048x128) gat1_origin]
  obtain ⟨-, -, -, -, o0, o1⟩ := gat1_blocks_at t
  funext j
  obtain ⟨p, q, rfl⟩ : ∃ (p : Fin 256) (q : Fin 128), j = ix2 p q := ⟨j 0, j 1, eq_ix2 j⟩
  show k1_pay1 (F := Ideal) (iblk1 V c 1 t) (iblk1 V c 0 t) (ix2 p q) = _
  refine (gat1_pay_apply (iblk1 V c 1 t) (iblk1 V c 0 t) p q).trans ?_
  rw [View.read_apply]
  have h0 : ((((cfg1.win 2).blk t).view.emb (ix2 p q)) 0).val = t.val * 256 + p.val := by
    show win1_2.index t (0 : Fin 2) * 256 + 1 * p.val = _; rw [o0]; omega
  have h1 : ((((cfg1.win 2).blk t).view.emb (ix2 p q)) 1).val = q.val := by
    show win1_2.index t (1 : Fin 2) * 128 + 1 * q.val = _; rw [o1]; omega
  exact (gat1_of_blocks (V c main_v14) (V c main_v4) (iblk1 V c 0 t) (iblk1 V c 1 t) t.val p q
    (((cfg1.win 2).blk t).view.emb (ix2 p q)) h0 h1 (gat1_nodesBlk_apply V c t) (fun e he => gat1_srcBlk_apply V c t p e he)).trans (cast_eq _ _).symm

/-- An index of the message array is in point `t`'s block iff each coordinate is in the block's range on its axis. -/
theorem gat1_mem_blk (t : Fin cfg1.N) (i : S800000x128.Idx) :
    i ∈ ((cfg1.win 2).blk t).view.set
      ↔ ∀ a : Fin 2, win1_2.index t a * S256x128.size a ≤ (i a).val ∧ (i a).val < win1_2.index t a * S256x128.size a + S256x128.size a := by
  show i ∈ ((View.whole main_v15).slice (win1_2.rect t)).set ↔ _
  rw [View.set_slice_whole, Rect.mem_set_unit]
  exact Iff.rfl

/-- Every index of the message array lies in the block of a point that writes back: row `e` in that of point `e / 256`. -/
theorem gat1_covered (i : S800000x128.Idx) :
    ∃ t : Fin cfg1.N, (cfg1.win 2).flush t = true ∧ i ∈ ((cfg1.win 2).blk t).view.set := by
  have hi0 : (i 0).val < 800000 := (i 0).isLt
  have hi1 : (i 1).val < 128 := (i 1).isLt
  have hN : cfg1.N = 3125 := N_1
  have hlt : (i 0).val / 256 < cfg1.N := by rw [hN]; omega
  obtain ⟨-, -, -, -, o0, o1⟩ := gat1_blocks_at ⟨(i 0).val / 256, hlt⟩
  have o0' : win1_2.index ⟨(i 0).val / 256, hlt⟩ (0 : Fin 2) = (i 0).val / 256 := o0
  refine ⟨⟨(i 0).val / 256, hlt⟩, flush1_2 _, ?_⟩
  rw [gat1_mem_blk]
  intro a
  match a with
  | ⟨0, _⟩ =>
    show win1_2.index ⟨(i 0).val / 256, hlt⟩ (0 : Fin 2) * 256 ≤ (i 0).val
      ∧ (i 0).val < win1_2.index ⟨(i 0).val / 256, hlt⟩ (0 : Fin 2) * 256 + 256
    rw [o0']; omega
  | ⟨1, _⟩ =>
    show win1_2.index ⟨(i 0).val / 256, hlt⟩ (1 : Fin 2) * 128 ≤ (i 1).val
      ∧ (i 1).val < win1_2.index ⟨(i 0).val / 256, hlt⟩ (1 : Fin 2) * 128 + 128
    rw [o1]; omega

/-- The region's output array after all its grid points, as a function of the arrays the region finds at entry. -/
theorem arr1 (V : (c : Dev nD) → (b : Ref sig .tc) → Buf (Elt Ideal) ((c : Thread nD τ).loc b)) (c : Dev nD) :
    (dat1 (F := Ideal) V c).arrAt 2 cfg1.N = Cert.Sage.gatherRows (V c main_v14) (V c main_v4) :=
  (dat1 (F := Ideal) V c).arrAt_eq_of_cover 2 (Cert.Sage.gatherRows (V c main_v14) (V c main_v4))
    (fun t _ => gat1_flushed_eq V c t) (fun i => gat1_covered i)

end Cert.KernelIdeal.Sage

end
-- ==== Proof.Sca2.lean ====
/- The accumulating region of layer 1: per padded node, the messages summed against the one-hot column of the edges' destinations, 128 edges a grid point.

  The output block is the whole array [50048, 128] and stays in place over all 6250 grid points. The first point fills it
  with zeros; every point t then adds, at (n, d), the sum over the 128 edges e = 128 t + k of its block of
  (1 where the edge's destination is n, else 0) times the edge's message at d: the one-hot column is a row number
  compared with the broadcast destination row, the sum a matrix product into zero. So after point t the block holds the
  sum over the first t + 1 blocks of edges (induction on the point; only 0 + x = x and the associativity of + on the
  extended reals are used), after the last point the sum over all 800000 edges (an edge number is a block and a place
  in it), and the one write-back, after the last point, writes that. -/
import proofs.«412110_j609885356389_1_alg».proof.Proof.Gen.KernelIdeal.Frame
import proofs.«412110_j609885356389_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Sage

open Idealize.ShloMosaic Idealize.ShloMosaic.TcCoe Idealize.ShloMosaic.ValueIdx Idealize.SL.Sem Cert.KernelIdeal Cert.KernelIdeal.Gen
open Idealize.ShloMosaic.Pipeline (Dat Cfg Window)

namespace Sca2

section Pieces
variable {F : FTy → Type} [FloatOps F]

theorem hz : (![0, 0] : Fin 2 → Nat) = fun _ => 0 := funext fun a => by fin_cases a <;> rfl

/-- Past the first point the body leaves the update of the running contents: its one covering store's payload, the
    loads reading the whole buffers. -/
theorem outB (c : Dev nD) (i : grid2.Coords) (a1 : Memref sig .tc .vmem S128x128 .f32) (h1 : a1.IsWhole)
    (a2 : Memref sig .tc .vmem S1x128 .i32) (h2 : a2.IsWhole) (a3 : Memref sig .tc .vmem S50048x128 .f32) (h3 : a3.IsWhole)
    (hc : ¬cond2_0 i) (x0 : Vec F S128x128 .f32) (x1 : Vec F S1x128 .i32) (xo : Vec F S50048x128 .f32) :
    out2_B_2 c i a1 h1 a2 h2 a3 h3 hc x0 x1 xo = k2_pay2 x1 x0 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero hz]
  simp only [View.readAt_eq_ld, h1.read_unread, h2.read_unread, h3.read_unread, View.ld_unit_zero (S := S128x128) hz,
    View.ld_unit_zero (S := S1x128) hz, View.ld_unit_zero (S := S50048x128) hz]

/-- At the first point the body stores the zero fill, reads it back, and leaves the update of it. -/
theorem outA (c : Dev nD) (i : grid2.Coords) (a1 : Memref sig .tc .vmem S128x128 .f32) (h1 : a1.IsWhole)
    (a2 : Memref sig .tc .vmem S1x128 .i32) (h2 : a2.IsWhole) (a3 : Memref sig .tc .vmem S50048x128 .f32) (h3 : a3.IsWhole)
    (hc : cond2_0 i) (x0 : Vec F S128x128 .f32) (x1 : Vec F S1x128 .i32) :
    out2_A_2 c i a1 h1 a2 h2 a3 h3 hc x0 x1 = k2_pay2 x1 x0 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S50048x128) hz, View.readCov_unit_zero (S := S50048x128) _ hz]
  simp only [View.readAt_eq_ld, h1.read_unread, h2.read_unread, View.ld_unit_zero (S := S128x128) hz,
    View.ld_unit_zero (S := S1x128) hz]

end Pieces

/-- The zero fill reads 0 everywhere. -/
theorem pay1_apply (p : Fin 50048) (d : Fin 128) : (k2_pay1 (F := Ideal)) (ix2 p d) = 0 := by
  unfold k2_pay1
  exact Ideal.ofBits_zero_f32

theorem lhs_0 (i : S50048x128.Idx) (q : dot_S50048x128_S128x128_S50048x128_1_0_0_1_n_n.contr.Idx) :
    (dot_S50048x128_S128x128_S50048x128_1_0_0_1_n_n.lhsIdx i q 0).val = (i 0).val := by
  unfold DotDims.lhsIdx
  rw [dif_neg (show ¬(0 : Fin S50048x128.rank) ∈ dot_S50048x128_S128x128_S50048x128_1_0_0_1_n_n.lhsBatch by decide), dif_pos (show (0 : Fin S50048x128.rank) ∈ dot_S50048x128_S128x128_S50048x128_1_0_0_1_n_n.lhsNonContracting by decide)]
  rfl
theorem lhs_1 (i : S50048x128.Idx) (q : dot_S50048x128_S128x128_S50048x128_1_0_0_1_n_n.contr.Idx) :
    (dot_S50048x128_S128x128_S50048x128_1_0_0_1_n_n.lhsIdx i q 1).val = (q ⟨0, by decide⟩).val :=
  dot_S50048x128_S128x128_S50048x128_1_0_0_1_n_n.lhsIdx_val_of_single rfl i q
theorem rhs_0 (i : S50048x128.Idx) (q : dot_S50048x128_S128x128_S50048x128_1_0_0_1_n_n.contr.Idx) :
    (dot_S50048x128_S128x128_S50048x128_1_0_0_1_n_n.rhsIdx i q 0).val = (q ⟨0, by decide⟩).val :=
  dot_S50048x128_S128x128_S50048x128_1_0_0_1_n_n.rhsIdx_val_of_single rfl i q
theorem rhs_1 (i : S50048x128.Idx) (q : dot_S50048x128_S128x128_S50048x128_1_0_0_1_n_n.contr.Idx) :
    (dot_S50048x128_S128x128_S50048x128_1_0_0_1_n_n.rhsIdx i q 1).val = (i 1).val := by
  unfold DotDims.rhsIdx
  rw [dif_neg (show ¬(1 : Fin S128x128.rank) ∈ dot_S50048x128_S128x128_S50048x128_1_0_0_1_n_n.rhsBatch by decide), dif_pos (show (1 : Fin S128x128.rank) ∈ dot_S50048x128_S128x128_S50048x128_1_0_0_1_n_n.rhsNonContracting by decide)]
  rfl

/-- The one-hot entry: row p against the destination of the block's edge k. -/
theorem onehot_apply (x1 : Vec Ideal S1x128 .i32) (p : Fin 50048) (k : Fin 128) :
    (select (cmpi .eq (iota .tc S50048x128 32 [0] iota_S50048x128_d0_w32) (broadcastTo S50048x128 x1 broadcasts_S1x128_S50048x128))
      (broadcast S50048x128 (Scalar.ofBits (F := Ideal) .bf16 0x3F80#16)) (broadcast S50048x128 (Scalar.ofBits (F := Ideal) .bf16 0x0000#16))
      : FVec Ideal S50048x128 .bf16) (ix2 p k)
      = if BitVec.ofNat 32 p.val = x1 (ix2 (0 : Fin 1) k) then (1 : EReal) else 0 := by
  rw [select_apply, broadcast_apply, broadcast_apply]
  have e3 : iota .tc S50048x128 32 [0] iota_S50048x128_d0_w32 (ix2 p k) = BitVec.ofNat 32 p.val :=
    iota_single_apply .tc S50048x128 32 0 iota_S50048x128_d0_w32 (ix2 p k)
  have e6 : broadcastTo S50048x128 x1 broadcasts_S1x128_S50048x128 (ix2 p k) = x1 (ix2 (0 : Fin 1) k) :=
    broadcastTo_apply x1 broadcasts_S1x128_S50048x128 (ix2 p k) (ix2 (0 : Fin 1) k) (fun a => by
      match a with
      | ⟨0, _⟩ => rfl
      | ⟨1, _⟩ => rfl)
  show Scalar.select (IntOp.cmpi .eq (iota .tc S50048x128 32 [0] iota_S50048x128_d0_w32 (ix2 p k)) (broadcastTo S50048x128 x1 broadcasts_S1x128_S50048x128 (ix2 p k))) _ _ = _
  rw [e3, e6]
  by_cases h : BitVec.ofNat 32 p.val = x1 (ix2 (0 : Fin 1) k)
  · rw [if_pos h, h]
    have : IntOp.cmpi .eq (x1 (ix2 (0 : Fin 1) k)) (x1 (ix2 (0 : Fin 1) k)) = 1#1 := by simp [IntOp.cmpi]
    rw [this, select_one]
    exact Ideal.ofBits_one_bf16
  · rw [if_neg h]
    have hb : (BitVec.ofNat 32 p.val == x1 (ix2 (0 : Fin 1) k)) = false := beq_eq_false_iff_ne.mpr h
    have : IntOp.cmpi .eq (BitVec.ofNat 32 p.val) (x1 (ix2 (0 : Fin 1) k)) = 0#1 := by
      show BitVec.ofBool (_ == _) = 0#1
      rw [hb]; rfl
    rw [this, select_zero]
    exact Ideal.ofBits_zero_bf16

/-- The update at an index: the running contents there plus the block's 128 edges' messages, each weighted by
    whether the edge points at row p. -/
theorem pay2_apply (x1 : Vec Ideal S1x128 .i32) (x0 : Vec Ideal S128x128 .f32) (acc : Vec Ideal S50048x128 .f32)
    (p : Fin 50048) (d : Fin 128) :
    k2_pay2 (F := Ideal) x1 x0 acc (ix2 p d)
      = acc (ix2 p d) + ∑ k : Fin 128, (if BitVec.ofNat 32 p.val = x1 (ix2 (0 : Fin 1) k) then (1 : EReal) else 0) * x0 (ix2 k d) := by
  unfold k2_pay2
  simp only [shapeCast_self]
  rw [addf_apply]
  simp only [matmul]
  rw [Ideal.matmul_constant_zero_apply, ← Equiv.sum_comp (contrEquiv1 dot_S50048x128_S128x128_S50048x128_1_0_0_1_n_n 128 rfl rfl).symm]
  refine congrArg (acc (ix2 p d) + ·) (Finset.sum_congr rfl fun k _ => ?_)
  have hk := contrEquiv1_symm_val dot_S50048x128_S128x128_S50048x128_1_0_0_1_n_n 128 rfl rfl k
  have el : dot_S50048x128_S128x128_S50048x128_1_0_0_1_n_n.lhsIdx (ix2 p d) ((contrEquiv1 dot_S50048x128_S128x128_S50048x128_1_0_0_1_n_n 128 rfl rfl).symm k) = ix2 p k := funext fun a => Fin.ext (by
    match a with
    | ⟨0, _⟩ => exact lhs_0 _ _
    | ⟨1, _⟩ => exact (lhs_1 _ _).trans hk)
  have er : dot_S50048x128_S128x128_S50048x128_1_0_0_1_n_n.rhsIdx (ix2 p d) ((contrEquiv1 dot_S50048x128_S128x128_S50048x128_1_0_0_1_n_n 128 rfl rfl).symm k) = ix2 k d := funext fun a => Fin.ext (by
    match a with
    | ⟨0, _⟩ => exact (rhs_0 _ _).trans hk
    | ⟨1, _⟩ => exact rhs_1 _ _)
  rw [el, er, truncf_apply, onehot_apply]

section Region

variable (V : (c : Dev nD) → (b : Ref sig .tc) → Buf (Elt Ideal) ((c : Thread nD τ).loc b))

/-- The three windows' block indices at a grid point t: the message block (t, 0), the destination block (0, t),
    the output block (0, 0); decided over the grid. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = 0 :=
  (by decide +kernel : ∀ t : Fin grid2.N, _)

/-- Edge k of block s, as an edge number. -/
def edge (s : Fin 6250) (k : Fin 128) : Fin 800000 := ⟨128 * s.val + k.val, by have := s.isLt; have := k.isLt; omega⟩

theorem point_lt (t : Fin cfg2.N) : t.val < 6250 := lt_of_lt_of_eq t.isLt (show cfg2.N = 6250 from N_2)

/-- The message block at point t is rows 128 t .. 128 t + 127 of the message array. -/
theorem msgBlk_apply (c : Dev nD) (t : Fin cfg2.N) (k : Fin 128) (d : Fin 128) :
    (iblk2 (F := Ideal) V c 0 t : Vec Ideal S128x128 .f32) (ix2 k d)
      = (V c main_v15 : Cert.Sage.Msgs.Idx → EReal) (ix2 (edge ⟨t.val, point_lt t⟩ k) d) := by
  have hi := idx_facts t
  unfold iblk2
  rw [View.read_apply]
  show V c main_v15 _ = V c main_v15 _
  congr 1
  funext a
  apply Fin.ext
  match a with
  | ⟨0, _⟩ => show win2_0.index t 0 * 128 + 1 * k.val = 128 * t.val + k.val; rw [hi.1]; omega
  | ⟨1, _⟩ => show win2_0.index t 1 * 128 + 1 * d.val = d.val; rw [hi.2.1]; omega

/-- The destination block at point t is columns 128 t .. 128 t + 127 of the destination row. -/
theorem dstBlk_apply (c : Dev nD) (t : Fin cfg2.N) (k : Fin 128) :
    (iblk2 (F := Ideal) V c 1 t : Vec Ideal S1x128 .i32) (ix2 (0 : Fin 1) k)
      = (V c main_v5 : Cert.Sage.DstRow.Idx → BitVec 32) (ix2 (0 : Fin 1) (edge ⟨t.val, point_lt t⟩ k)) := by
  have hi := idx_facts t
  unfold iblk2
  rw [View.read_apply]
  show V c main_v5 _ = V c main_v5 _
  congr 1
  funext a
  apply Fin.ext
  match a with
  | ⟨0, _⟩ => show win2_1.index t 0 * 1 + 1 * 0 = 0; rw [hi.2.2.1]
  | ⟨1, _⟩ => show win2_1.index t 1 * 128 + 1 * k.val = 128 * t.val + k.val; rw [hi.2.2.2.1]; omega

/-- What block s adds at (p, d): its 128 edges' messages, each weighted by whether the edge points at row p
    (nothing past the last block). -/
def blockSum (msg : Cert.Sage.Msgs.Idx → EReal) (dst : Cert.Sage.DstRow.Idx → BitVec 32) (s : ℕ) (p : Fin 50048) (d : Fin 128) : EReal :=
  if h : s < 6250 then
    ∑ k : Fin 128, (if BitVec.ofNat 32 p.val = dst (ix2 (0 : Fin 1) (edge ⟨s, h⟩ k)) then (1 : EReal) else 0) * msg (ix2 (edge ⟨s, h⟩ k) d)
  else 0

/-- An edge number is a block and a place inside it: e = 128 s + k. -/
def edgeEquiv : Fin 6250 × Fin 128 ≃ Fin 800000 where
  toFun x := edge x.1 x.2
  invFun e := (⟨e.val / 128, by have := e.isLt; omega⟩, ⟨e.val % 128, by omega⟩)
  left_inv x := by
    have h1 := x.1.isLt
    have h2 := x.2.isLt
    refine Prod.ext (Fin.ext ?_) (Fin.ext ?_)
    · show (128 * x.1.val + x.2.val) / 128 = x.1.val; omega
    · show (128 * x.1.val + x.2.val) % 128 = x.2.val; omega
  right_inv e := by
    refine Fin.ext ?_
    show 128 * (e.val / 128) + e.val % 128 = e.val; omega

/-- The blocks' sums, all 6250 of them, are the sum over all edges. -/
theorem sum_blockSum (msg : Cert.Sage.Msgs.Idx → EReal) (dst : Cert.Sage.DstRow.Idx → BitVec 32) (p : Fin 50048) (d : Fin 128) :
    ∑ s ∈ Finset.range 6250, blockSum msg dst s p d = Cert.Sage.scatterAt msg dst p d := by
  unfold Cert.Sage.scatterAt
  rw [Finset.sum_range, ← Equiv.sum_comp edgeEquiv, Fintype.sum_prod_type]
  refine Finset.sum_congr rfl fun s _ => ?_
  unfold blockSum
  rw [dif_pos s.isLt]
  rfl

/-- What the output's buffer holds after a first point: the update of the zero fill by the point's blocks. -/
theorem outsAt_first (c : Dev nD) (t : Fin cfg2.N) (h0 : t.val % 6250 = 0) :
    outsAt2 (F := Ideal) V c t.val t.isLt = k2_pay2 (iblk2 V c 1 t) (iblk2 V c 0 t) (k2_pay1 (F := Ideal)) :=
  (outsAt2_A V c t h0).trans
    (outA c (grid2.coords t) (ms2_0 t) (hs2_0 t) (ms2_1 t) (hs2_1 t) (ms2_2 t) (hs2_2 t) ((hcond2_0 t).mpr h0) (iblk2 V c 0 t) (iblk2 V c 1 t))

/-- And after a later point: the update, by the point's blocks, of what the point before left. -/
theorem outsAt_next (c : Dev nD) (t : Fin cfg2.N) (h0 : ¬t.val % 6250 = 0) :
    outsAt2 (F := Ideal) V c t.val t.isLt
      = k2_pay2 (iblk2 V c 1 t) (iblk2 V c 0 t) (outsAt2 V c (t.val - 1) (Nat.lt_of_le_of_lt (Nat.sub_le _ _) t.isLt)) :=
  (outsAt2_B V c t h0).trans
    (outB c (grid2.coords t) (ms2_0 t) (hs2_0 t) (ms2_1 t) (hs2_1 t) (ms2_2 t) (hs2_2 t) (fun h => h0 ((hcond2_0 t).mp h)) (iblk2 V c 0 t) (iblk2 V c 1 t)
      (outsAt2 V c (t.val - 1) (Nat.lt_of_le_of_lt (Nat.sub_le _ _) t.isLt)))

/-- A block's sum read through the windows' blocks at point t is the block's sum read off the arrays. -/
theorem blk_sum (c : Dev nD) (t : Fin cfg2.N) (p : Fin 50048) (d : Fin 128) :
    (∑ k : Fin 128, (if BitVec.ofNat 32 p.val = (iblk2 (F := Ideal) V c 1 t : Vec Ideal S1x128 .i32) (ix2 (0 : Fin 1) k) then (1 : EReal) else 0)
        * (iblk2 (F := Ideal) V c 0 t : Vec Ideal S128x128 .f32) (ix2 k d))
      = blockSum (V c main_v15) (V c main_v5) t.val p d := by
  unfold blockSum
  rw [dif_pos (point_lt t)]
  refine Finset.sum_congr rfl fun k _ => ?_
  rw [msgBlk_apply V c t k d, dstBlk_apply V c t k]

/-- THE INVARIANT: after point n the output holds at (p, d) the sum of the first n + 1 blocks' sums; by induction
    on the point (0 + x = x and associativity of + on the extended reals are all it takes). -/
theorem outsAt_eq (c : Dev nD) : ∀ (n : ℕ) (hn : n < cfg2.N) (p : Fin 50048) (d : Fin 128),
    (outsAt2 (F := Ideal) V c n hn : Vec Ideal S50048x128 .f32) (ix2 p d)
      = ∑ s ∈ Finset.range (n + 1), blockSum (V c main_v15) (V c main_v5) s p d
  | 0, hn, p, d => by
    refine (congrFun (outsAt_first V c ⟨0, hn⟩ rfl) (ix2 p d)).trans ?_
    refine (pay2_apply (iblk2 V c 1 ⟨0, hn⟩) (iblk2 V c 0 ⟨0, hn⟩) (k2_pay1 (F := Ideal)) p d).trans ?_
    rw [pay1_apply, zero_add, blk_sum V c ⟨0, hn⟩ p d]
    exact (Finset.sum_range_one (fun s => blockSum (V c main_v15) (V c main_v5) s p d)).symm
  | n + 1, hn, p, d => by
    have hN : cfg2.N = 6250 := N_2
    have hB : ¬(⟨n + 1, hn⟩ : Fin cfg2.N).val % 6250 = 0 := by dsimp only; omega
    refine (congrFun (outsAt_next V c ⟨n + 1, hn⟩ hB) (ix2 p d)).trans ?_
    refine (pay2_apply (iblk2 V c 1 ⟨n + 1, hn⟩) (iblk2 V c 0 ⟨n + 1, hn⟩) (outsAt2 V c n (Nat.lt_of_succ_lt hn)) p d).trans ?_
    rw [outsAt_eq c n (Nat.lt_of_succ_lt hn) p d, blk_sum V c ⟨n + 1, hn⟩ p d]
    exact (Finset.sum_range_succ (fun s => blockSum (V c main_v15) (V c main_v5) s p d) (n + 1)).symm

/-- The one write-back, after the last point, writes the whole sum: the output's block (0, 0) read through zero
    offsets is the array. -/
theorem flushed_eq (c : Dev nD) (t : Fin cfg2.N) (hf : (cfg2.win 2).flush t = true) :
    (dat2 (F := Ideal) V c).flushed 2 t
      = ((cfg2.win 2).blk t).view.read (Elt Ideal) (Cert.Sage.scatterRows (V c main_v15) (V c main_v5)) := by
  have hN : cfg2.N = 6250 := N_2
  have h3 : t.val = 6249 := by have := (flush2_2 t).mp hf; have := t.isLt; omega
  have hi := idx_facts t
  have hG : outsAt2 (F := Ideal) V c t.val t.isLt = Cert.Sage.scatterRows (V c main_v15) (V c main_v5) := by
    funext i
    obtain ⟨p, d, rfl⟩ : ∃ (p : Fin 50048) (d : Fin 128), i = ix2 p d := ⟨i 0, i 1, eq_ix2 i⟩
    rw [outsAt_eq V c t.val t.isLt p d, h3]
    exact sum_blockSum _ _ p d
  show (cfg2.win 2).cut (grid2.coords t) ((dat2 V c).after 2 t) = _
  rw [after2_2, hG]
  have hz' : (fun a => win2_2.index t a * main_v16.ty.shape.size a) = fun _ => 0 := funext fun a => by
    match a with
    | ⟨0, _⟩ => show win2_2.index t 0 * 50048 = 0; rw [hi.2.2.2.2.1]
    | ⟨1, _⟩ => show win2_2.index t 1 * 128 = 0; rw [hi.2.2.2.2.2]
  exact (Memref.read_access_unit_zero (Elt Ideal) main_v16 hz' (fun a => by rw [congrFun hz' a]; simp) _).symm

end Region

end Sca2

/-- The region's output array after all its grid points, as a function of the arrays the region finds at entry. -/
theorem arr2 (V : (c : Dev nD) → (b : Ref sig .tc) → Buf (Elt Ideal) ((c : Thread nD τ).loc b)) (c : Dev nD) :
    (dat2 (F := Ideal) V c).arrAt 2 cfg2.N = Cert.Sage.scatterRows (V c main_v15) (V c main_v5) := by
  have hlast : (6249 : ℕ) < cfg2.N := lt_of_lt_of_eq (by decide) N_2.symm
  refine (dat2 (F := Ideal) V c).arrAt_eq_of_cover 2 (Cert.Sage.scatterRows (V c main_v15) (V c main_v5)) (Sca2.flushed_eq V c) fun i =>
    ⟨⟨6249, hlast⟩, (flush2_2 ⟨6249, hlast⟩).mpr rfl, ?_⟩
  have hi := Sca2.idx_facts ⟨6249, hlast⟩
  show i ∈ ((View.whole main_v16).slice (win2_2.rect ⟨6249, hlast⟩)).set
  rw [View.set_slice_whole, Rect.mem_set_unit]
  intro a
  have h0 : (i 0 : Nat) < 50048 := (i 0).isLt
  have h1 : (i 1 : Nat) < 128 := (i 1).isLt
  match a with
  | ⟨0, _⟩ =>
    show win2_2.index ⟨6249, hlast⟩ 0 * 50048 ≤ (i 0 : Nat) ∧ (i 0 : Nat) < win2_2.index ⟨6249, hlast⟩ 0 * 50048 + 50048
    rw [hi.2.2.2.2.1]; omega
  | ⟨1, _⟩ =>
    show win2_2.index ⟨6249, hlast⟩ 1 * 128 ≤ (i 1 : Nat) ∧ (i 1 : Nat) < win2_2.index ⟨6249, hlast⟩ 1 * 128 + 128
    rw [hi.2.2.2.2.2]; omega

end Cert.KernelIdeal.Sage

end
-- ==== Proof.Cmb3.lean ====
/- The combining region of layer 1, clipped at zero. -/
import proofs.«412110_j609885356389_1_alg».proof.Proof.Gen.KernelIdeal.Frame
import proofs.«412110_j609885356389_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Sage

open Idealize.ShloMosaic Idealize.ShloMosaic.TcCoe Idealize.ShloMosaic.ValueIdx Idealize.SL.Sem Cert.KernelIdeal Cert.KernelIdeal.Gen
open Idealize.ShloMosaic.Pipeline (Dat Cfg Window)

namespace Combine3

/-! ## The product of a block of rows with a square matrix, entry by entry -/

/-- The left factor's index at output entry `i` keeps the output's row. -/
theorem prodL_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- Its column is the summation index. -/
theorem prodL_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- The right factor's row is the summation index. -/
theorem prodR_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- Its column is the output's column. -/
theorem prodR_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A [1000,128] block times a [128,128] matrix, added into the zero block: entry (p, q) is the sum over k of
    l[p, k] · r[k, q], whatever the operands' float formats. -/
theorem prod_at {φ₁ φ₂ : FTy} (l : FVec Ideal S1000x128 φ₁) (r : FVec Ideal S128x128 φ₂) (p : Fin 1000) (q : Fin 128) :
    matmul dot_S1000x128_S128x128_S1000x128_1_0_0_1_n_n none l r (constant (F := Ideal) S1000x128 .f32 0x00000000#32) (ix2 p q)
      = ∑ k : Fin 128, l (ix2 p k) * r (ix2 k q) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k := funext fun a => Fin.ext (by
    match a with
    | ⟨0, _⟩ => exact prodL_0 _ _
    | ⟨1, _⟩ => exact (prodL_1 _ _).trans hk)
  have er : dot_S1000x128_S128x128_S1000x128_1_0_0_1_n_n.rhsIdx (ix2 p q) ((contrEquiv1 dot_S1000x128_S128x128_S1000x128_1_0_0_1_n_n 128 rfl rfl).symm k) = ix2 k q := funext fun a => Fin.ext (by
    match a with
    | ⟨0, _⟩ => exact (prodR_0 _ _).trans hk
    | ⟨1, _⟩ => exact prodR_1 _ _)
  rw [el, er]

/-- The bias row spread over the block's rows: entry (p, q) is b[0, q]. -/
theorem biasRow_at (b : FVec Ideal S1x128 .f32) (p : Fin 1000) (q : Fin 128) :
    broadcastTo S1000x128 b broadcasts_S1x128_S1000x128 (ix2 p q) = b (ix2 (0 : Fin 1) q) :=
  broadcastTo_apply b broadcasts_S1x128_S1000x128 (ix2 p q) (ix2 (0 : Fin 1) q) (fun a => by
    match a with
    | ⟨0, _⟩ => rfl
    | ⟨1, _⟩ => rfl)

/-- The body's stored block, entry by entry: the aggregate's rows times the left weights, plus the bias, plus the node's
    own rows times the right weights, clipped below at zero. The roundings to a narrower format and the casts to the
    same shape are the identity on the extended reals. -/
theorem pay_at (a : Vec Ideal S1000x128 .f32) (wl : Vec Ideal S128x128 .f32) (x : Vec Ideal S1000x128 .f32)
    (wr : Vec Ideal S128x128 .f32) (b : Vec Ideal S1x128 .f32) (p : Fin 1000) (q : Fin 128) :
    k3_pay1 (F := Ideal) a wl x wr b (ix2 p q)
      = max (((∑ k : Fin 128, a (ix2 p k) * wl (ix2 k q)) + b (ix2 (0 : Fin 1) q)) + ∑ k : Fin 128, x (ix2 p k) * wr (ix2 k q)) 0 := by
  unfold k3_pay1
  simp only [shapeCast_self, maximumf_apply, addf_apply, broadcast_apply]
  rw [prod_at, prod_at, biasRow_at]
  simp only [truncf_apply]
  exact congrArg (max _) Ideal.ofBits_zero_f32

/-! ## The blocks of the region's windows, entry by entry -/

theorem zeroOffsets : (![0, 0] : Fin 2 → Nat) = fun _ => 0 := funext fun a => by fin_cases a <;> rfl

/-- The block indices of the six windows at each of the 50 grid points: the aggregate's, the node features' and the
    output's blocks are block `t` of rows; the two weight matrices and the bias row are whole. -/
theorem blockIdx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- There are 50 grid points. -/
theorem points (t : Fin cfg3.N) : t.val < 50 := lt_of_lt_of_eq t.isLt N_3

/-- Row `p` of block `t` is row `1000 t + p` of the array. -/
def blockRow (t : Fin cfg3.N) (p : Fin 1000) : Fin 50000 :=
  ⟨t.val * 1000 + p.val, by have := points t; have := p.isLt; omega⟩

section Blocks

variable (V : (c : Dev nD) → (b : Ref sig .tc) → Buf (Elt Ideal) ((c : Thread nD τ).loc b))

/-- The aggregate's block at point `t`: rows `1000 t … 1000 t + 999` of the aggregate. -/
theorem aggBlk (c : Dev nD) (t : Fin cfg3.N) (p : Fin 1000) (k : Fin 128) :
    iblk3 V c 0 t (ix2 p k) = V c main_v22 (ix2 (blockRow t p) k) := by
  obtain ⟨e0, e1, -⟩ := blockIdx t
  show V c main_v22 (((cfg3.win 0).blk t).view.emb (ix2 p k)) = V c main_v22 (ix2 (blockRow t p) k)
  refine congrArg (V c main_v22) (funext fun a => Fin.ext ?_)
  match a with
  | ⟨0, _⟩ => show win3_0.index t (0 : Fin 2) * 1000 + 1 * p.val = t.val * 1000 + p.val; omega
  | ⟨1, _⟩ => show win3_0.index t (1 : Fin 2) * 128 + 1 * k.val = k.val; omega

/-- The node features' block at point `t`: the same rows of the node features. -/
theorem ownBlk (c : Dev nD) (t : Fin cfg3.N) (p : Fin 1000) (k : Fin 128) :
    iblk3 V c 3 t (ix2 p k) = V c main_arg0 (ix2 (blockRow t p) k) := by
  obtain ⟨-, -, -, -, -, -, e0, e1, -⟩ := blockIdx t
  show V c main_arg0 (((cfg3.win 3).blk t).view.emb (ix2 p k)) = V c main_arg0 (ix2 (blockRow t p) k)
  refine congrArg (V c main_arg0) (funext fun a => Fin.ext ?_)
  match a with
  | ⟨0, _⟩ => show win3_3.index t (0 : Fin 2) * 1000 + 1 * p.val = t.val * 1000 + p.val; omega
  | ⟨1, _⟩ => show win3_3.index t (1 : Fin 2) * 128 + 1 * k.val = k.val; omega

/-- The left weights' block is the whole matrix at every point. -/
theorem wlBlk (c : Dev nD) (t : Fin cfg3.N) (k : Fin 128) (q : Fin 128) :
    iblk3 V c 1 t (ix2 k q) = V c main_v23 (ix2 k q) := by
  obtain ⟨-, -, e0, e1, -⟩ := blockIdx t
  show V c main_v23 (((cfg3.win 1).blk t).view.emb (ix2 k q)) = V c main_v23 (ix2 k q)
  refine congrArg (V c main_v23) (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- The right weights' block is the whole matrix at every point. -/
theorem wrBlk (c : Dev nD) (t : Fin cfg3.N) (k : Fin 128) (q : Fin 128) :
    iblk3 V c 4 t (ix2 k q) = V c main_v24 (ix2 k q) := by
  obtain ⟨-, -, -, -, -, -, -, -, e0, e1, -⟩ := blockIdx t
  show V c main_v24 (((cfg3.win 4).blk t).view.emb (ix2 k q)) = V c main_v24 (ix2 k q)
  refine congrArg (V c main_v24) (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

/-- The bias row's block is the whole row at every point. -/
theorem biasBlk (c : Dev nD) (t : Fin cfg3.N) (q : Fin 128) :
    iblk3 V c 2 t (ix2 (0 : Fin 1) q) = V c main_v25 (ix2 (0 : Fin 1) q) := by
  obtain ⟨-, -, -, -, e0, e1, -⟩ := blockIdx t
  show V c main_v25 (((cfg3.win 2).blk t).view.emb (ix2 (0 : Fin 1) q)) = V c main_v25 (ix2 (0 : Fin 1) q)
  refine congrArg (V c main_v25) (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- Entry (p, q) of the output's block at point `t` sits at row `1000 t + p`, column `q` of the array. -/
theorem outBlk (t : Fin cfg3.N) (p : Fin 1000) (q : Fin 128) :
    ((cfg3.win 5).blk t).view.emb (ix2 p q) = ix2 (blockRow t p) q := by
  obtain ⟨-, -, -, -, -, -, -, -, -, -, e0, e1⟩ := blockIdx t
  refine funext fun a => Fin.ext ?_
  match a with
  | ⟨0, _⟩ => show win3_5.index t (0 : Fin 2) * 1000 + 1 * p.val = t.val * 1000 + p.val; omega
  | ⟨1, _⟩ => show win3_5.index t (1 : Fin 2) * 128 + 1 * q.val = q.val; omega

/-! ## From the blocks to the array -/

/-- What point `t` writes back is block `t` of the clipped combination of the arrays the region finds at entry:
    a row of the output depends only on the same row of the aggregate and of the node features, on the two weight
    matrices and on the bias. -/
theorem flushed_eq (c : Dev nD) (t : Fin cfg3.N) :
    (dat3 (F := Ideal) V c).flushed 5 t = ((cfg3.win 5).blk t).view.read (Elt Ideal)
      (Cert.Sage.combRelu (V c main_v22) (V c main_v23) (V c main_v25) (V c main_arg0) (V c main_v24)) := by
  show (cfg3.win 5).cut (grid3.coords t) ((dat3 (F := Ideal) V c).after 5 t) = _
  rw [after3_5]
  unfold out3_5
  rw [View.canon_unit_zero zeroOffsets]
  simp only [View.ld_unit_zero (S := S1000x128) zeroOffsets, View.ld_unit_zero (S := S128x128) zeroOffsets,
    View.ld_unit_zero (S := S1x128) zeroOffsets]
  funext j
  obtain ⟨p, q, rfl⟩ : ∃ (p : Fin 1000) (q : Fin 128), j = ix2 p q := ⟨j 0, j 1, eq_ix2 j⟩
  show k3_pay1 (F := Ideal) (iblk3 V c 0 t) (iblk3 V c 1 t) (iblk3 V c 3 t) (iblk3 V c 4 t) (iblk3 V c 2 t) (ix2 p q)
    = Cert.Sage.combRelu (V c main_v22) (V c main_v23) (V c main_v25) (V c main_arg0) (V c main_v24)
        (((cfg3.win 5).blk t).view.emb (ix2 p q))
  rw [outBlk t p q]
  refine (pay_at (iblk3 V c 0 t) (iblk3 V c 1 t) (iblk3 V c 3 t) (iblk3 V c 4 t) (iblk3 V c 2 t) p q).trans ?_
  show _ = max (Cert.Sage.combAt (V c main_v22) (V c main_v23) (V c main_v25) (V c main_arg0) (V c main_v24) (blockRow t p) q) 0
  unfold Cert.Sage.combAt
  refine congrArg (max · 0) (congrArg₂ (· + ·) (congrArg₂ (· + ·) (Finset.sum_congr rfl fun k _ => ?_) (biasBlk V c t q))
    (Finset.sum_congr rfl fun k _ => ?_))
  · exact congrArg₂ (· * ·) (aggBlk V c t p k) (wlBlk V c t k q)
  · exact congrArg₂ (· * ·) (ownBlk V c t p k) (wrBlk V c t k q)

end Blocks

/-- An index of the array is in point `t`'s block iff each coordinate is in the block's range on its axis. -/
theorem mem_blk (t : Fin cfg3.N) (i : S50000x128.Idx) :
    i ∈ ((cfg3.win 5).blk t).view.set ↔ ∀ a : Fin 2, win3_5.index t a * S1000x128.size a ≤ (i a).val ∧ (i a).val < win3_5.index t a * S1000x128.size a + S1000x128.size a := by
  show i ∈ ((View.whole main_v26).slice (win3_5.rect t)).set ↔ _
  rw [View.set_slice_whole, Rect.mem_set_unit]
  exact Iff.rfl

/-- Every index of the array lies in the block of the point numbered by its row divided by 1000. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have ht : (i 0).val / 1000 < cfg3.N := lt_of_lt_of_eq (by omega) N_3.symm
  refine ⟨⟨(i 0).val / 1000, ht⟩, flush3_5 _, ?_⟩
  rw [mem_blk]
  obtain ⟨-, -, -, -, -, -, -, -, -, -, e0, e1⟩ := blockIdx ⟨(i 0).val / 1000, ht⟩
  have e0' : win3_5.index ⟨(i 0).val / 1000, ht⟩ (0 : Fin 2) = (i 0).val / 1000 := e0
  intro a
  match a with
  | ⟨0, _⟩ => show win3_5.index ⟨(i 0).val / 1000, ht⟩ (0 : Fin 2) * 1000 ≤ (i 0).val ∧ (i 0).val < win3_5.index ⟨(i 0).val / 1000, ht⟩ (0 : Fin 2) * 1000 + 1000; omega
  | ⟨1, _⟩ => show win3_5.index ⟨(i 0).val / 1000, ht⟩ (1 : Fin 2) * 128 ≤ (i 1).val ∧ (i 1).val < win3_5.index ⟨(i 0).val / 1000, ht⟩ (1 : Fin 2) * 128 + 128; omega

end Combine3

/-- The region's output array after all its grid points, as a function of the arrays the region finds at entry. -/
theorem arr3 (V : (c : Dev nD) → (b : Ref sig .tc) → Buf (Elt Ideal) ((c : Thread nD τ).loc b)) (c : Dev nD) :
    (dat3 (F := Ideal) V c).arrAt 5 cfg3.N = Cert.Sage.combRelu (V c main_v22) (V c main_v23) (V c main_v25) (V c main_arg0) (V c main_v24) :=
  (dat3 (F := Ideal) V c).arrAt_eq_of_cover 5 _ (fun t _ => Combine3.flushed_eq V c t) Combine3.cover

end Cert.KernelIdeal.Sage

end
-- ==== Proof.Lin4.lean ====
/- The projection region of layer 2: every node's row times the transposed weights plus the bias row, clipped at zero.
   The region runs over 50 grid points. Point `t` loads rows `1000 t … 1000 t + 999` of the node array, the whole weight
   matrix and the whole bias row, and stores one block of 1000 rows. At row `p`, column `q` of that block the body's value
   is `max (∑ₖ x[p,k] · w[k,q] + b[0,q], 0)`: a block product into the zero block is the plain sum over the contracted
   axis, and narrowing an operand's float format is the identity on extended reals. The 50 blocks tile the output array
   (row `r` lies in block `r / 1000`), so after the last point the array is the projection of the arrays the region found
   at entry, index by index. Nothing here needs a finite entry: no sum is rearranged and nothing is distributed. -/
import proofs.«412110_j609885356389_1_alg».proof.Proof.Gen.KernelIdeal.Frame
import proofs.«412110_j609885356389_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Sage

open Idealize.ShloMosaic Idealize.ShloMosaic.TcCoe Idealize.ShloMosaic.ValueIdx Idealize.SL.Sem Cert.KernelIdeal Cert.KernelIdeal.Gen
open Idealize.ShloMosaic.Pipeline (Dat Cfg Window)

namespace Lin4

/-- In the block product's dimension numbers, the left operand's row is the output's row … -/
theorem lhs_dot_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- … its column the contraction index, … -/
theorem lhs_dot_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- … the right operand's row the contraction index … -/
theorem rhs_dot_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- … and its column the output's column. -/
theorem rhs_dot_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The block product into the zero block, at row `p` and column `q`: the sum over the 128 features of the row's entry
    times the weight's. -/
theorem matmul_apply (l : FVec Ideal S1000x128 .bf16) (r : FVec Ideal S128x128 .bf16) (p : Fin 1000) (q : Fin 128) :
    FloatOps.matmul dot_S1000x128_S128x128_S1000x128_1_0_0_1_n_n none l r (constant S1000x128 .f32 0x00000000#32) (ix2 p q)
      = ∑ k : Fin 128, l (ix2 p k) * r (ix2 k q) := by
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- What the body stores, at row `p` and column `q` of its block: the row of the node block times the weights' column,
    plus the bias, clipped below at zero. The roundings to the narrower float format are the identity on extended reals. -/
theorem pay_apply (x : Vec Ideal S1000x128 .f32) (w : Vec Ideal S128x128 .f32) (b : Vec Ideal S1x128 .f32) (p : Fin 1000) (q : Fin 128) :
    (k4_pay1 (F := Ideal) x w b) (ix2 p q)
      = max ((∑ k : Fin 128, x (ix2 p k) * w (ix2 k q)) + b (ix2 (0 : Fin 1) q)) 0 := by
  unfold k4_pay1
  simp only [shapeCast_self]
  rw [maximumf_apply, addf_apply, broadcast_apply, broadcastTo_1b_ab_apply]
  refine congrArg₂ max (congrArg₂ (· + ·) ?_ rfl) Ideal.ofBits_zero_f32
  exact matmul_apply _ _ p q

/-! ## From the blocks to the array -/

theorem hz : (![0, 0] : Fin 2 → Nat) = fun _ => 0 := funext fun a => by fin_cases a <;> rfl

/-- The printed index maps over the 50 grid points: the node block and the output block of point `t` are block `t` along
    the rows, the weights and the bias row are whole at every point. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- One block of the result is the projection of the node rows it covers: given that the loaded node block holds rows
    `1000 t … 1000 t + 999` of the node array `X` and the other two loads are the whole weights and bias row, the stored
    block at `j` is the projection at the array index `i` sitting at row `1000 t + j₀`, column `j₁`. -/
theorem block_eq (X : Cert.Sage.Nodes.Idx → EReal) (W : Cert.Sage.Sq.Idx → EReal) (B : Cert.Sage.Row.Idx → EReal)
    (x : Vec Ideal S1000x128 .f32) (w : Vec Ideal S128x128 .f32) (b : Vec Ideal S1x128 .f32) (t : Nat)
    (hx : ∀ (p : Fin 1000) (k : Fin 128) (n : Fin 50000), n.val = t * 1000 + p.val → x (ix2 p k) = X (ix2 n k))
    (hw : w = W) (hb : b = B)
    (j : S1000x128.Idx) (i : Cert.Sage.Nodes.Idx) (hi0 : (i 0).val = t * 1000 + (j 0).val) (hi1 : (i 1).val = (j 1).val) :
    k4_pay1 (F := Ideal) x w b j = Cert.Sage.proj X W B i := by
  obtain ⟨p, q, rfl⟩ : ∃ (p : Fin 1000) (q : Fin 128), j = ix2 p q := ⟨j 0, j 1, eq_ix2 j⟩
  obtain ⟨n, d, rfl⟩ : ∃ (n : Fin 50000) (d : Fin 128), i = ix2 n d := ⟨i 0, i 1, eq_ix2 i⟩
  have hn : n.val = t * 1000 + p.val := hi0
  obtain rfl : d = q := Fin.ext hi1
  rw [pay_apply, hw, hb]
  show _ = Cert.Sage.projAt X W B n d
  unfold Cert.Sage.projAt
  refine congrArg₂ max (congrArg₂ (· + ·) (Finset.sum_congr rfl fun k _ => ?_) rfl) rfl
  rw [hx p k n hn]

/-- The node block at point `t` holds rows `1000 t … 1000 t + 999` of the node array. -/
theorem xblk_apply (V : (c : Dev nD) → (b : Ref sig .tc) → Buf (Elt Ideal) ((c : Thread nD τ).loc b)) (c : Dev nD) (t : Fin cfg4.N)
    (p : Fin 1000) (k : Fin 128) (n : Fin 50000) (hn : n.val = t.val * 1000 + p.val) :
    (iblk4 V c 0 t : Vec Ideal S1000x128 .f32) (ix2 p k) = (V c main_v26 : S50000x128.Idx → EReal) (ix2 n k) := by
  obtain ⟨e0, e1, -⟩ := idx_facts t
  unfold iblk4
  rw [View.read_apply]
  show V c main_v26 _ = V c main_v26 _
  refine congrArg (V c main_v26) (funext fun a => Fin.ext ?_)
  match a with
  | ⟨0, _⟩ => show win4_0.index t (0 : Fin 2) * 1000 + 1 * p.val = n.val; rw [e0, hn]; omega
  | ⟨1, _⟩ => show win4_0.index t (1 : Fin 2) * 128 + 1 * k.val = k.val; rw [e1]; omega

/-- The weights' block at every point is the whole weight array. -/
theorem wblk_eq (V : (c : Dev nD) → (b : Ref sig .tc) → Buf (Elt Ideal) ((c : Thread nD τ).loc b)) (c : Dev nD) (t : Fin cfg4.N) :
    (iblk4 V c 1 t : Vec Ideal S128x128 .f32) = (V c main_v27 : S128x128.Idx → EReal) := by
  obtain ⟨-, -, e2, e3, -⟩ := idx_facts t
  funext y
  unfold iblk4
  rw [View.read_apply]
  show V c main_v27 _ = V c main_v27 _
  refine congrArg (V c main_v27) (funext fun a => Fin.ext ?_)
  match a with
  | ⟨0, _⟩ => show win4_1.index t (0 : Fin 2) * 128 + 1 * (y 0).val = (y 0).val; rw [e2]; omega
  | ⟨1, _⟩ => show win4_1.index t (1 : Fin 2) * 128 + 1 * (y 1).val = (y 1).val; rw [e3]; omega

/-- The bias row's block at every point is the whole row. -/
theorem bblk_eq (V : (c : Dev nD) → (b : Ref sig .tc) → Buf (Elt Ideal) ((c : Thread nD τ).loc b)) (c : Dev nD) (t : Fin cfg4.N) :
    (iblk4 V c 2 t : Vec Ideal S1x128 .f32) = (V c main_v28 : S1x128.Idx → EReal) := by
  obtain ⟨-, -, -, -, e4, e5, -⟩ := idx_facts t
  funext y
  unfold iblk4
  rw [View.read_apply]
  show V c main_v28 _ = V c main_v28 _
  refine congrArg (V c main_v28) (funext fun a => Fin.ext ?_)
  match a with
  | ⟨0, _⟩ => show win4_2.index t (0 : Fin 2) * 1 + 1 * (y 0).val = (y 0).val; rw [e4]; omega
  | ⟨1, _⟩ => show win4_2.index t (1 : Fin 2) * 128 + 1 * (y 1).val = (y 1).val; rw [e5]; omega

/-- What point `t` writes back is block `t` of the projection of the arrays the region found. -/
theorem flushed_eq (V : (c : Dev nD) → (b : Ref sig .tc) → Buf (Elt Ideal) ((c : Thread nD τ).loc b)) (c : Dev nD) (t : Fin cfg4.N) :
    (dat4 (F := Ideal) V c).flushed 3 t
      = ((cfg4.win 3).blk t).view.read (Elt Ideal) (Cert.Sage.proj (V c main_v26) (V c main_v27) (V c main_v28)) := by
  show (cfg4.win 3).cut (grid4.coords t) ((dat4 V c).after 3 t) = _
  rw [after4_3]
  unfold out4_3
  rw [View.canon_unit_zero hz]
  simp only [View.ld_unit_zero (S := S1000x128) hz, View.ld_unit_zero (S := S128x128) hz, View.ld_unit_zero (S := S1x128) hz]
  obtain ⟨-, -, -, -, -, -, e6, e7⟩ := idx_facts t
  funext j
  show k4_pay1 (F := Ideal) (iblk4 V c 0 t) (iblk4 V c 1 t) (iblk4 V c 2 t) j
    = Cert.Sage.proj (V c main_v26) (V c main_v27) (V c main_v28) (((cfg4.win 3).blk t).view.emb j)
  refine block_eq (V c main_v26) (V c main_v27) (V c main_v28) (iblk4 V c 0 t) (iblk4 V c 1 t) (iblk4 V c 2 t) t.val
    (fun p k n hn => xblk_apply V c t p k n hn) (wblk_eq V c t) (bblk_eq V c t) j (((cfg4.win 3).blk t).view.emb j) ?_ ?_
  · show win4_3.index t (0 : Fin 2) * 1000 + 1 * (j 0).val = t.val * 1000 + (j 0).val
    rw [e6]; omega
  · show win4_3.index t (1 : Fin 2) * 128 + 1 * (j 1).val = (j 1).val
    rw [e7]; omega

/-- An index of the output array is in point `t`'s block iff each coordinate is in the block's range on its axis. -/
theorem mem_blk (t : Fin cfg4.N) (i : S50000x128.Idx) :
    i ∈ ((cfg4.win 3).blk t).view.set ↔ ∀ a : Fin 2, win4_3.index t a * S1000x128.size a ≤ (i a).val ∧ (i a).val < win4_3.index t a * S1000x128.size a + S1000x128.size a := by
  show i ∈ ((View.whole main_v29).slice (win4_3.rect t)).set ↔ _
  rw [View.set_slice_whole, Rect.mem_set_unit]
  exact Iff.rfl

/-- Every index of the output array lies in the block of the point its row falls in: row `r` in block `r / 1000`. -/
theorem cover (i : S50000x128.Idx) : ∃ t : Fin cfg4.N, (cfg4.win 3).flush t = true ∧ i ∈ ((cfg4.win 3).blk t).view.set := by
  have hN : cfg4.N = 50 := N_4
  have hi0 : (i 0).val < 50000 := (i 0).isLt
  have hi1 : (i 1).val < 128 := (i 1).isLt
  obtain ⟨-, -, -, -, -, -, e6, e7⟩ := idx_facts ⟨(i 0).val / 1000, by omega⟩
  refine ⟨⟨(i 0).val / 1000, by omega⟩, flush4_3 _, ?_⟩
  rw [mem_blk]
  intro a
  match a with
  | ⟨0, _⟩ =>
    show win4_3.index _ (0 : Fin 2) * 1000 ≤ (i 0).val ∧ (i 0).val < win4_3.index _ (0 : Fin 2) * 1000 + 1000
    rw [e6]; show (i 0).val / 1000 * 1000 ≤ (i 0).val ∧ (i 0).val < (i 0).val / 1000 * 1000 + 1000; omega
  | ⟨1, _⟩ =>
    show win4_3.index _ (1 : Fin 2) * 128 ≤ (i 1).val ∧ (i 1).val < win4_3.index _ (1 : Fin 2) * 128 + 128
    rw [e7]; omega

end Lin4

/-- The region's output array after all its grid points, as a function of the arrays the region finds at entry. -/
theorem arr4 (V : (c : Dev nD) → (b : Ref sig .tc) → Buf (Elt Ideal) ((c : Thread nD τ).loc b)) (c : Dev nD) :
    (dat4 (F := Ideal) V c).arrAt 3 cfg4.N = Cert.Sage.proj (V c main_v26) (V c main_v27) (V c main_v28) :=
  (dat4 (F := Ideal) V c).arrAt_eq_of_cover 3 (Cert.Sage.proj (V c main_v26) (V c main_v27) (V c main_v28))
    (fun t _ => Lin4.flushed_eq V c t) Lin4.cover

end Cert.KernelIdeal.Sage

end
-- ==== Proof.Gat5.lean ====
/- The gathering region of layer 2: per edge, the padded node rows summed against the one-hot row of the edge's source. -/
import proofs.«412110_j609885356389_1_alg».proof.Proof.Gen.KernelIdeal.Frame
import proofs.«412110_j609885356389_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Sage

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## The body's arithmetic at one entry

The body builds, for its 256 edges, the 256 × 50048 matrix whose row `p` is 1 at the column equal to edge `p`'s source word
and 0 elsewhere, and multiplies it into the padded node rows. Read at entry `(p, q)` this is the sum over the 50048 padded
nodes `n` of (1 if the source word of edge `p` is the word `n`, else 0) times the node rows' entry `(n, q)`. No law beyond
reading each operation at an index is used: the sum is kept as it stands. -/

/-- A select on a comparison of two words for equality is the `if` on the equality of the words. -/
theorem gat5_select_eq {α : Type} (a b : BitVec 32) (x y : α) :
    Scalar.select (IntOp.cmpi .eq a b) x y = if a = b then x else y := by
  show (if BitVec.ofBool (a == b) = 1 then x else y) = _
  by_cases h : a = b
  · rw [if_pos h, show (a == b) = true from beq_iff_eq.mpr h]; rfl
  · rw [if_neg h, show (a == b) = false from beq_eq_false_iff_ne.mpr h]; rfl

/-- The one-hot matrix's row coordinate is the output's row. -/
theorem gat5_onehot_row (i : S256x128.Idx) (k : dot_S256x50048_S50048x128_S256x128_1_0_0_1_n_n.contr.Idx) :
    (dot_S256x50048_S50048x128_S256x128_1_0_0_1_n_n.lhsIdx i k 0).val = (i 0).val := by
  unfold DotDims.lhsIdx
  rw [dif_neg (show ¬(0 : Fin S256x50048.rank) ∈ dot_S256x50048_S50048x128_S256x128_1_0_0_1_n_n.lhsBatch by decide), dif_pos (show (0 : Fin S256x50048.rank) ∈ dot_S256x50048_S50048x128_S256x128_1_0_0_1_n_n.lhsNonContracting by decide)]
  rfl
/-- The one-hot matrix's column coordinate is the summed node. -/
theorem gat5_onehot_col (i : S256x128.Idx) (k : dot_S256x50048_S50048x128_S256x128_1_0_0_1_n_n.contr.Idx) :
    (dot_S256x50048_S50048x128_S256x128_1_0_0_1_n_n.lhsIdx i k 1).val = (k ⟨0, by decide⟩).val :=
  dot_S256x50048_S50048x128_S256x128_1_0_0_1_n_n.lhsIdx_val_of_single rfl i k
/-- The node rows' row coordinate is the summed node. -/
theorem gat5_nodes_row (i : S256x128.Idx) (k : dot_S256x50048_S50048x128_S256x128_1_0_0_1_n_n.contr.Idx) :
    (dot_S256x50048_S50048x128_S256x128_1_0_0_1_n_n.rhsIdx i k 0).val = (k ⟨0, by decide⟩).val :=
  dot_S256x50048_S50048x128_S256x128_1_0_0_1_n_n.rhsIdx_val_of_single rfl i k
/-- The node rows' column coordinate is the output's column. -/
theorem gat5_nodes_col (i : S256x128.Idx) (k : dot_S256x50048_S50048x128_S256x128_1_0_0_1_n_n.contr.Idx) :
    (dot_S256x50048_S50048x128_S256x128_1_0_0_1_n_n.rhsIdx i k 1).val = (i 1).val := by
  unfold DotDims.rhsIdx
  rw [dif_neg (show ¬(1 : Fin S50048x128.rank) ∈ dot_S256x50048_S50048x128_S256x128_1_0_0_1_n_n.rhsBatch by decide), dif_pos (show (1 : Fin S50048x128.rank) ∈ dot_S256x50048_S50048x128_S256x128_1_0_0_1_n_n.rhsNonContracting by decide)]
  rfl

/-- Entry `(p, n)` of the one-hot matrix: 1 where edge `p`'s source word is the word `n`, else 0. -/
theorem gat5_onehot_apply (src : Vec Ideal S256x1 .i32) (p : Fin 256) (n : Fin 50048) :
    (select (cmpi .eq (broadcastTo S256x50048 (shapeCast S256x1 src shapeCasts_S256x1_S256x1) broadcasts_S256x1_S256x50048)
        (iota .tc S256x50048 32 [1] iota_S256x50048_d1_w32))
      (broadcast S256x50048 (Scalar.ofBits (F := Ideal) .bf16 0x3F80#16)) (broadcast S256x50048 (Scalar.ofBits (F := Ideal) .bf16 0x0000#16))
        : FVec Ideal S256x50048 .bf16) (ix2 p n)
      = if src (ix2 p (0 : Fin 1)) = BitVec.ofNat 32 n.val then (1 : EReal) else 0 := by
  have hb : broadcastTo S256x50048 (shapeCast S256x1 src shapeCasts_S256x1_S256x1) broadcasts_S256x1_S256x50048 (ix2 p n) = src (ix2 p (0 : Fin 1)) := by
    rw [shapeCast_self]
    exact broadcastTo_apply src broadcasts_S256x1_S256x50048 (ix2 p n) (ix2 p (0 : Fin 1)) (fun a => match a with
      | ⟨0, _⟩ => by show p.val = if (256 : Nat) = 1 then 0 else p.val; rw [if_neg (by decide)]
      | ⟨1, _⟩ => by show (0 : Nat) = if (1 : Nat) = 1 then 0 else n.val; rw [if_pos rfl])
  have hi : iota .tc S256x50048 32 [1] iota_S256x50048_d1_w32 (ix2 p n) = BitVec.ofNat 32 n.val :=
    iota_single_apply .tc S256x50048 32 1 iota_S256x50048_d1_w32 (ix2 p n)
  show Scalar.select (IntOp.cmpi .eq (broadcastTo S256x50048 (shapeCast S256x1 src shapeCasts_S256x1_S256x1) broadcasts_S256x1_S256x50048 (ix2 p n))
      (iota .tc S256x50048 32 [1] iota_S256x50048_d1_w32 (ix2 p n))) (Ideal.ofBits .bf16 0x3F80#16) (Ideal.ofBits .bf16 0x0000#16) = _
  rw [hb, hi, gat5_select_eq]
  rw [show Ideal.ofBits .bf16 0x3F80#16 = (1 : EReal) from IdealRules.sign_bit.ideal_onePat .bf16,
    show Ideal.ofBits .bf16 0x0000#16 = (0 : EReal) from IdealRules.sign_bit.ideal_zero .bf16]

/-- THE BODY'S RESULT AT ENTRY `(p, q)`: the padded node rows summed against the one-hot row of edge `p`'s source. -/
theorem gat5_pay_apply (src : Vec Ideal S256x1 .i32) (hp : Vec Ideal S50048x128 .bf16) (p : Fin 256) (q : Fin 128) :
    k5_pay1 (F := Ideal) src hp (ix2 p q)
      = ∑ n : Fin 50048, (if src (ix2 p (0 : Fin 1)) = BitVec.ofNat 32 n.val then (1 : EReal) else 0) * hp (ix2 n q) := by
  unfold k5_pay1
  refine (Ideal.matmul_constant_zero_apply dot_S256x50048_S50048x128_S256x128_1_0_0_1_n_n none _ _ (ix2 p q)).trans ?_
  rw [← Equiv.sum_comp (ValueIdx.contrEquiv1 dot_S256x50048_S50048x128_S256x128_1_0_0_1_n_n 50048 rfl rfl).symm]
  refine Finset.sum_congr rfl fun n _ => ?_
  have hk := ValueIdx.contrEquiv1_symm_val dot_S256x50048_S50048x128_S256x128_1_0_0_1_n_n 50048 rfl rfl n
  have el : dot_S256x50048_S50048x128_S256x128_1_0_0_1_n_n.lhsIdx (ix2 p q) ((ValueIdx.contrEquiv1 dot_S256x50048_S50048x128_S256x128_1_0_0_1_n_n 50048 rfl rfl).symm n) = ix2 p n := funext fun a => Fin.ext (by
    match a with
    | ⟨0, _⟩ => exact gat5_onehot_row _ _
    | ⟨1, _⟩ => exact (gat5_onehot_col _ _).trans hk)
  have er : dot_S256x50048_S50048x128_S256x128_1_0_0_1_n_n.rhsIdx (ix2 p q) ((ValueIdx.contrEquiv1 dot_S256x50048_S50048x128_S256x128_1_0_0_1_n_n 50048 rfl rfl).symm n) = ix2 n q := funext fun a => Fin.ext (by
    match a with
    | ⟨0, _⟩ => exact (gat5_nodes_row _ _).trans hk
    | ⟨1, _⟩ => exact gat5_nodes_col _ _)
  rw [el, er, shapeCast_self hp shapeCasts_S50048x128_S50048x128]
  exact congrArg (· * hp (ix2 n q)) (gat5_onehot_apply src p n)

/-! ## From the grid's blocks to the array

The grid has 3125 points; point `t` holds edges `256 t … 256 t + 255`: its source block is rows `256 t …` of the source column,
its output block rows `256 t …` of the message array, and the padded node rows are staged whole at every point. So what point
`t` writes back is block `t` of the one function `gatherRows` of the two arrays the region finds at entry, and the 3125 blocks
tile the 800000 rows: row `e` lies in the block of point `e / 256`. -/

/-- The sum over the nodes, written over a point's two blocks, is `gatherRows` of the two arrays at the array index `i` the
    block entry `(p, q)` sits at: row `256 t + p`, column `q`; the node rows' block is the whole array, the source block's row
    `p` is the source column's row `256 t + p`. -/
theorem gat5_of_blocks (hpA : S50048x128.Idx → EReal) (srcA : S800000x1.Idx → BitVec 32)
    (x0 : Vec Ideal S50048x128 .bf16) (x1 : Vec Ideal S256x1 .i32) (tv : Nat) (p : Fin 256) (q : Fin 128) (i : S800000x128.Idx)
    (h0 : (i 0).val = tv * 256 + p.val) (h1 : (i 1).val = q.val)
    (hx0 : ∀ (n : Fin 50048) (d : Fin 128), x0 (ix2 n d) = hpA (ix2 n d))
    (hx1 : ∀ e : Fin 800000, e.val = tv * 256 + p.val → x1 (ix2 p (0 : Fin 1)) = srcA (ix2 e (0 : Fin 1))) :
    ∑ n : Fin 50048, (if x1 (ix2 p (0 : Fin 1)) = BitVec.ofNat 32 n.val then (1 : EReal) else 0) * x0 (ix2 n q)
      = Cert.Sage.gatherRows hpA srcA i := by
  obtain ⟨e, d, rfl⟩ : ∃ (e : Fin 800000) (d : Fin 128), i = ix2 e d := ⟨i 0, i 1, eq_ix2 i⟩
  obtain rfl : d = q := Fin.ext h1
  show _ = ∑ n : Fin 50048, (if srcA (ix2 e (0 : Fin 1)) = BitVec.ofNat 32 n.val then (1 : EReal) else 0) * hpA (ix2 n d)
  refine Finset.sum_congr rfl fun n _ => ?_
  rw [hx0 n d, hx1 e h0]

variable (V : (c : Dev nD) → (b : Ref sig .tc) → Buf (Elt Ideal) ((c : Thread nD τ).loc b))

/-- A block that starts at the origin of its buffer. -/
theorem gat5_origin : (![0, 0] : Fin 2 → Nat) = fun _ => 0 := funext fun a => by fin_cases a <;> rfl

/-- The printed index maps, decided over the grid: the node rows' block is always block (0, 0); the source column's and the
    output's block at point `t` is block (t, 0). -/
theorem gat5_blocks_at : ∀ t : Fin cfg5.N, win5_0.index t (0 : Fin 2) = 0 ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The node rows' block at any point is the whole array. -/
theorem gat5_nodesBlk_apply (c : Dev nD) (t : Fin cfg5.N) (n : Fin 50048) (d : Fin 128) :
    (iblk5 V c 0 t : Vec Ideal S50048x128 .bf16) (ix2 n d) = (V c main_v31 : S50048x128.Idx → EReal) (ix2 n d) := by
  obtain ⟨a0, a1, -, -, -, -⟩ := gat5_blocks_at t
  unfold iblk5
  rw [View.read_apply]
  show V c main_v31 _ = V c main_v31 _
  refine congrArg (V c main_v31) (funext fun a => Fin.ext ?_)
  match a with
  | ⟨0, _⟩ => show win5_0.index t (0 : Fin 2) * 50048 + 1 * n.val = n.val; rw [a0]; omega
  | ⟨1, _⟩ => show win5_0.index t (1 : Fin 2) * 128 + 1 * d.val = d.val; rw [a1]; omega

/-- Row `p` of the source block at point `t` is row `256 t + p` of the source column. -/
theorem gat5_srcBlk_apply (c : Dev nD) (t : Fin cfg5.N) (p : Fin 256) (e : Fin 800000) (he : e.val = t.val * 256 + p.val) :
    (iblk5 V c 1 t : Vec Ideal S256x1 .i32) (ix2 p (0 : Fin 1)) = (V c main_v4 : S800000x1.Idx → BitVec 32) (ix2 e (0 : Fin 1)) := by
  obtain ⟨-, -, b0, b1, -, -⟩ := gat5_blocks_at t
  unfold iblk5
  rw [View.read_apply]
  show V c main_v4 _ = V c main_v4 _
  refine congrArg (V c main_v4) (funext fun a => Fin.ext ?_)
  match a with
  | ⟨0, _⟩ => show win5_1.index t (0 : Fin 2) * 256 + 1 * p.val = e.val; rw [b0, he]; omega
  | ⟨1, _⟩ => show win5_1.index t (1 : Fin 2) * 1 + 1 * 0 = 0; rw [b1]

/-- WHAT POINT `t` WRITES BACK is block `t` of `gatherRows` of the padded node rows and the source column as the region finds them. -/
theorem gat5_flushed_eq (c : Dev nD) (t : Fin cfg5.N) :
    (dat5 (F := Ideal) V c).flushed 2 t
      = ((cfg5.win 2).blk t).view.read (Elt Ideal) (Cert.Sage.gatherRows (V c main_v31) (V c main_v4)) := by
  show (cfg5.win 2).cut (grid5.coords t) ((dat5 V c).after 2 t) = _
  rw [after5_2]
  unfold out5_2
  rw [View.canon_unit_zero gat5_origin]
  simp only [View.ld_unit_zero (S := S256x1) gat5_origin, View.ld_unit_zero (S := S50048x128) gat5_origin]
  obtain ⟨-, -, -, -, o0, o1⟩ := gat5_blocks_at t
  funext j
  obtain ⟨p, q, rfl⟩ : ∃ (p : Fin 256) (q : Fin 128), j = ix2 p q := ⟨j 0, j 1, eq_ix2 j⟩
  show k5_pay1 (F := Ideal) (iblk5 V c 1 t) (iblk5 V c 0 t) (ix2 p q) = _
  refine (gat5_pay_apply (iblk5 V c 1 t) (iblk5 V c 0 t) p q).trans ?_
  rw [View.read_apply]
  have h0 : ((((cfg5.win 2).blk t).view.emb (ix2 p q)) 0).val = t.val * 256 + p.val := by
    show win5_2.index t (0 : Fin 2) * 256 + 1 * p.val = _; rw [o0]; omega
  have h1 : ((((cfg5.win 2).blk t).view.emb (ix2 p q)) 1).val = q.val := by
    show win5_2.index t (1 : Fin 2) * 128 + 1 * q.val = _; rw [o1]; omega
  exact (gat5_of_blocks (V c main_v31) (V c main_v4) (iblk5 V c 0 t) (iblk5 V c 1 t) t.val p q
    (((cfg5.win 2).blk t).view.emb (ix2 p q)) h0 h1 (gat5_nodesBlk_apply V c t) (fun e he => gat5_srcBlk_apply V c t p e he)).trans (cast_eq _ _).symm

/-- An index of the message array is in point `t`'s block iff each coordinate is in the block's range on its axis. -/
theorem gat5_mem_blk (t : Fin cfg5.N) (i : S800000x128.Idx) :
    i ∈ ((cfg5.win 2).blk t).view.set
      ↔ ∀ a : Fin 2, win5_2.index t a * S256x128.size a ≤ (i a).val ∧ (i a).val < win5_2.index t a * S256x128.size a + S256x128.size a := by
  show i ∈ ((View.whole main_v32).slice (win5_2.rect t)).set ↔ _
  rw [View.set_slice_whole, Rect.mem_set_unit]
  exact Iff.rfl

/-- Every index of the message array lies in the block of a point that writes back: row `e` in that of point `e / 256`. -/
theorem gat5_covered (i : S800000x128.Idx) :
    ∃ t : Fin cfg5.N, (cfg5.win 2).flush t = true ∧ i ∈ ((cfg5.win 2).blk t).view.set := by
  have hi0 : (i 0).val < 800000 := (i 0).isLt
  have hi1 : (i 1).val < 128 := (i 1).isLt
  have hN : cfg5.N = 3125 := N_5
  have hlt : (i 0).val / 256 < cfg5.N := by rw [hN]; omega
  obtain ⟨-, -, -, -, o0, o1⟩ := gat5_blocks_at ⟨(i 0).val / 256, hlt⟩
  have o0' : win5_2.index ⟨(i 0).val / 256, hlt⟩ (0 : Fin 2) = (i 0).val / 256 := o0
  refine ⟨⟨(i 0).val / 256, hlt⟩, flush5_2 _, ?_⟩
  rw [gat5_mem_blk]
  intro a
  match a with
  | ⟨0, _⟩ =>
    show win5_2.index ⟨(i 0).val / 256, hlt⟩ (0 : Fin 2) * 256 ≤ (i 0).val
      ∧ (i 0).val < win5_2.index ⟨(i 0).val / 256, hlt⟩ (0 : Fin 2) * 256 + 256
    rw [o0']; omega
  | ⟨1, _⟩ =>
    show win5_2.index ⟨(i 0).val / 256, hlt⟩ (1 : Fin 2) * 128 ≤ (i 1).val
      ∧ (i 1).val < win5_2.index ⟨(i 0).val / 256, hlt⟩ (1 : Fin 2) * 128 + 128
    rw [o1]; omega

/-- The region's output array after all its grid points, as a function of the arrays the region finds at entry. -/
theorem arr5 (V : (c : Dev nD) → (b : Ref sig .tc) → Buf (Elt Ideal) ((c : Thread nD τ).loc b)) (c : Dev nD) :
    (dat5 (F := Ideal) V c).arrAt 2 cfg5.N = Cert.Sage.gatherRows (V c main_v31) (V c main_v4) :=
  (dat5 (F := Ideal) V c).arrAt_eq_of_cover 2 (Cert.Sage.gatherRows (V c main_v31) (V c main_v4))
    (fun t _ => gat5_flushed_eq V c t) (fun i => gat5_covered i)

end Cert.KernelIdeal.Sage

end
-- ==== Proof.Sca6.lean ====
/- The accumulating region of layer 2: per padded node, the messages summed against the one-hot column of the edges' destinations, 128 edges a grid point.

  The output block is the whole array [50048, 128] and stays in place over all 6250 grid points. The first point fills it
  with zeros; every point t then adds, at (n, d), the sum over the 128 edges e = 128 t + k of its block of
  (1 where the edge's destination is n, else 0) times the edge's message at d: the one-hot column is a row number
  compared with the broadcast destination row, the sum a matrix product into zero. So after point t the block holds the
  sum over the first t + 1 blocks of edges (induction on the point; only 0 + x = x and the associativity of + on the
  extended reals are used), after the last point the sum over all 800000 edges (an edge number is a block and a place
  in it), and the one write-back, after the last point, writes that. -/
import proofs.«412110_j609885356389_1_alg».proof.Proof.Gen.KernelIdeal.Frame
import proofs.«412110_j609885356389_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Sage

open Idealize.ShloMosaic Idealize.ShloMosaic.TcCoe Idealize.ShloMosaic.ValueIdx Idealize.SL.Sem Cert.KernelIdeal Cert.KernelIdeal.Gen
open Idealize.ShloMosaic.Pipeline (Dat Cfg Window)

namespace Sca6

section Pieces
variable {F : FTy → Type} [FloatOps F]

theorem hz : (![0, 0] : Fin 2 → Nat) = fun _ => 0 := funext fun a => by fin_cases a <;> rfl

/-- Past the first point the body leaves the update of the running contents: its one covering store's payload, the
    loads reading the whole buffers. -/
theorem outB (c : Dev nD) (i : grid6.Coords) (a1 : Memref sig .tc .vmem S128x128 .f32) (h1 : a1.IsWhole)
    (a2 : Memref sig .tc .vmem S1x128 .i32) (h2 : a2.IsWhole) (a3 : Memref sig .tc .vmem S50048x128 .f32) (h3 : a3.IsWhole)
    (hc : ¬cond6_0 i) (x0 : Vec F S128x128 .f32) (x1 : Vec F S1x128 .i32) (xo : Vec F S50048x128 .f32) :
    out6_B_2 c i a1 h1 a2 h2 a3 h3 hc x0 x1 xo = k6_pay2 x1 x0 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero hz]
  simp only [View.readAt_eq_ld, h1.read_unread, h2.read_unread, h3.read_unread, View.ld_unit_zero (S := S128x128) hz,
    View.ld_unit_zero (S := S1x128) hz, View.ld_unit_zero (S := S50048x128) hz]

/-- At the first point the body stores the zero fill, reads it back, and leaves the update of it. -/
theorem outA (c : Dev nD) (i : grid6.Coords) (a1 : Memref sig .tc .vmem S128x128 .f32) (h1 : a1.IsWhole)
    (a2 : Memref sig .tc .vmem S1x128 .i32) (h2 : a2.IsWhole) (a3 : Memref sig .tc .vmem S50048x128 .f32) (h3 : a3.IsWhole)
    (hc : cond6_0 i) (x0 : Vec F S128x128 .f32) (x1 : Vec F S1x128 .i32) :
    out6_A_2 c i a1 h1 a2 h2 a3 h3 hc x0 x1 = k6_pay2 x1 x0 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S50048x128) hz, View.readCov_unit_zero (S := S50048x128) _ hz]
  simp only [View.readAt_eq_ld, h1.read_unread, h2.read_unread, View.ld_unit_zero (S := S128x128) hz,
    View.ld_unit_zero (S := S1x128) hz]

end Pieces

/-- The zero fill reads 0 everywhere. -/
theorem pay1_apply (p : Fin 50048) (d : Fin 128) : (k6_pay1 (F := Ideal)) (ix2 p d) = 0 := by
  unfold k6_pay1
  exact Ideal.ofBits_zero_f32

theorem lhs_0 (i : S50048x128.Idx) (q : dot_S50048x128_S128x128_S50048x128_1_0_0_1_n_n.contr.Idx) :
    (dot_S50048x128_S128x128_S50048x128_1_0_0_1_n_n.lhsIdx i q 0).val = (i 0).val := by
  unfold DotDims.lhsIdx
  rw [dif_neg (show ¬(0 : Fin S50048x128.rank) ∈ dot_S50048x128_S128x128_S50048x128_1_0_0_1_n_n.lhsBatch by decide), dif_pos (show (0 : Fin S50048x128.rank) ∈ dot_S50048x128_S128x128_S50048x128_1_0_0_1_n_n.lhsNonContracting by decide)]
  rfl
theorem lhs_1 (i : S50048x128.Idx) (q : dot_S50048x128_S128x128_S50048x128_1_0_0_1_n_n.contr.Idx) :
    (dot_S50048x128_S128x128_S50048x128_1_0_0_1_n_n.lhsIdx i q 1).val = (q ⟨0, by decide⟩).val :=
  dot_S50048x128_S128x128_S50048x128_1_0_0_1_n_n.lhsIdx_val_of_single rfl i q
theorem rhs_0 (i : S50048x128.Idx) (q : dot_S50048x128_S128x128_S50048x128_1_0_0_1_n_n.contr.Idx) :
    (dot_S50048x128_S128x128_S50048x128_1_0_0_1_n_n.rhsIdx i q 0).val = (q ⟨0, by decide⟩).val :=
  dot_S50048x128_S128x128_S50048x128_1_0_0_1_n_n.rhsIdx_val_of_single rfl i q
theorem rhs_1 (i : S50048x128.Idx) (q : dot_S50048x128_S128x128_S50048x128_1_0_0_1_n_n.contr.Idx) :
    (dot_S50048x128_S128x128_S50048x128_1_0_0_1_n_n.rhsIdx i q 1).val = (i 1).val := by
  unfold DotDims.rhsIdx
  rw [dif_neg (show ¬(1 : Fin S128x128.rank) ∈ dot_S50048x128_S128x128_S50048x128_1_0_0_1_n_n.rhsBatch by decide), dif_pos (show (1 : Fin S128x128.rank) ∈ dot_S50048x128_S128x128_S50048x128_1_0_0_1_n_n.rhsNonContracting by decide)]
  rfl

/-- The one-hot entry: row p against the destination of the block's edge k. -/
theorem onehot_apply (x1 : Vec Ideal S1x128 .i32) (p : Fin 50048) (k : Fin 128) :
    (select (cmpi .eq (iota .tc S50048x128 32 [0] iota_S50048x128_d0_w32) (broadcastTo S50048x128 x1 broadcasts_S1x128_S50048x128))
      (broadcast S50048x128 (Scalar.ofBits (F := Ideal) .bf16 0x3F80#16)) (broadcast S50048x128 (Scalar.ofBits (F := Ideal) .bf16 0x0000#16))
      : FVec Ideal S50048x128 .bf16) (ix2 p k)
      = if BitVec.ofNat 32 p.val = x1 (ix2 (0 : Fin 1) k) then (1 : EReal) else 0 := by
  rw [select_apply, broadcast_apply, broadcast_apply]
  have e3 : iota .tc S50048x128 32 [0] iota_S50048x128_d0_w32 (ix2 p k) = BitVec.ofNat 32 p.val :=
    iota_single_apply .tc S50048x128 32 0 iota_S50048x128_d0_w32 (ix2 p k)
  have e6 : broadcastTo S50048x128 x1 broadcasts_S1x128_S50048x128 (ix2 p k) = x1 (ix2 (0 : Fin 1) k) :=
    broadcastTo_apply x1 broadcasts_S1x128_S50048x128 (ix2 p k) (ix2 (0 : Fin 1) k) (fun a => by
      match a with
      | ⟨0, _⟩ => rfl
      | ⟨1, _⟩ => rfl)
  show Scalar.select (IntOp.cmpi .eq (iota .tc S50048x128 32 [0] iota_S50048x128_d0_w32 (ix2 p k)) (broadcastTo S50048x128 x1 broadcasts_S1x128_S50048x128 (ix2 p k))) _ _ = _
  rw [e3, e6]
  by_cases h : BitVec.ofNat 32 p.val = x1 (ix2 (0 : Fin 1) k)
  · rw [if_pos h, h]
    have : IntOp.cmpi .eq (x1 (ix2 (0 : Fin 1) k)) (x1 (ix2 (0 : Fin 1) k)) = 1#1 := by simp [IntOp.cmpi]
    rw [this, select_one]
    exact Ideal.ofBits_one_bf16
  · rw [if_neg h]
    have hb : (BitVec.ofNat 32 p.val == x1 (ix2 (0 : Fin 1) k)) = false := beq_eq_false_iff_ne.mpr h
    have : IntOp.cmpi .eq (BitVec.ofNat 32 p.val) (x1 (ix2 (0 : Fin 1) k)) = 0#1 := by
      show BitVec.ofBool (_ == _) = 0#1
      rw [hb]; rfl
    rw [this, select_zero]
    exact Ideal.ofBits_zero_bf16

/-- The update at an index: the running contents there plus the block's 128 edges' messages, each weighted by
    whether the edge points at row p. -/
theorem pay2_apply (x1 : Vec Ideal S1x128 .i32) (x0 : Vec Ideal S128x128 .f32) (acc : Vec Ideal S50048x128 .f32)
    (p : Fin 50048) (d : Fin 128) :
    k6_pay2 (F := Ideal) x1 x0 acc (ix2 p d)
      = acc (ix2 p d) + ∑ k : Fin 128, (if BitVec.ofNat 32 p.val = x1 (ix2 (0 : Fin 1) k) then (1 : EReal) else 0) * x0 (ix2 k d) := by
  unfold k6_pay2
  simp only [shapeCast_self]
  rw [addf_apply]
  simp only [matmul]
  rw [Ideal.matmul_constant_zero_apply, ← Equiv.sum_comp (contrEquiv1 dot_S50048x128_S128x128_S50048x128_1_0_0_1_n_n 128 rfl rfl).symm]
  refine congrArg (acc (ix2 p d) + ·) (Finset.sum_congr rfl fun k _ => ?_)
  have hk := contrEquiv1_symm_val dot_S50048x128_S128x128_S50048x128_1_0_0_1_n_n 128 rfl rfl k
  have el : dot_S50048x128_S128x128_S50048x128_1_0_0_1_n_n.lhsIdx (ix2 p d) ((contrEquiv1 dot_S50048x128_S128x128_S50048x128_1_0_0_1_n_n 128 rfl rfl).symm k) = ix2 p k := funext fun a => Fin.ext (by
    match a with
    | ⟨0, _⟩ => exact lhs_0 _ _
    | ⟨1, _⟩ => exact (lhs_1 _ _).trans hk)
  have er : dot_S50048x128_S128x128_S50048x128_1_0_0_1_n_n.rhsIdx (ix2 p d) ((contrEquiv1 dot_S50048x128_S128x128_S50048x128_1_0_0_1_n_n 128 rfl rfl).symm k) = ix2 k d := funext fun a => Fin.ext (by
    match a with
    | ⟨0, _⟩ => exact (rhs_0 _ _).trans hk
    | ⟨1, _⟩ => exact rhs_1 _ _)
  rw [el, er, truncf_apply, onehot_apply]

section Region

variable (V : (c : Dev nD) → (b : Ref sig .tc) → Buf (Elt Ideal) ((c : Thread nD τ).loc b))

/-- The three windows' block indices at a grid point t: the message block (t, 0), the destination block (0, t),
    the output block (0, 0); decided over the grid. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = t.val
    ∧ win6_2.index t (0 : Fin 2) = 0 ∧ win6_2.index t (1 : Fin 2) = 0 :=
  (by decide +kernel : ∀ t : Fin grid6.N, _)

/-- Edge k of block s, as an edge number. -/
def edge (s : Fin 6250) (k : Fin 128) : Fin 800000 := ⟨128 * s.val + k.val, by have := s.isLt; have := k.isLt; omega⟩

theorem point_lt (t : Fin cfg6.N) : t.val < 6250 := lt_of_lt_of_eq t.isLt (show cfg6.N = 6250 from N_6)

/-- The message block at point t is rows 128 t .. 128 t + 127 of the message array. -/
theorem msgBlk_apply (c : Dev nD) (t : Fin cfg6.N) (k : Fin 128) (d : Fin 128) :
    (iblk6 (F := Ideal) V c 0 t : Vec Ideal S128x128 .f32) (ix2 k d)
      = (V c main_v32 : Cert.Sage.Msgs.Idx → EReal) (ix2 (edge ⟨t.val, point_lt t⟩ k) d) := by
  have hi := idx_facts t
  unfold iblk6
  rw [View.read_apply]
  show V c main_v32 _ = V c main_v32 _
  congr 1
  funext a
  apply Fin.ext
  match a with
  | ⟨0, _⟩ => show win6_0.index t 0 * 128 + 1 * k.val = 128 * t.val + k.val; rw [hi.1]; omega
  | ⟨1, _⟩ => show win6_0.index t 1 * 128 + 1 * d.val = d.val; rw [hi.2.1]; omega

/-- The destination block at point t is columns 128 t .. 128 t + 127 of the destination row. -/
theorem dstBlk_apply (c : Dev nD) (t : Fin cfg6.N) (k : Fin 128) :
    (iblk6 (F := Ideal) V c 1 t : Vec Ideal S1x128 .i32) (ix2 (0 : Fin 1) k)
      = (V c main_v5 : Cert.Sage.DstRow.Idx → BitVec 32) (ix2 (0 : Fin 1) (edge ⟨t.val, point_lt t⟩ k)) := by
  have hi := idx_facts t
  unfold iblk6
  rw [View.read_apply]
  show V c main_v5 _ = V c main_v5 _
  congr 1
  funext a
  apply Fin.ext
  match a with
  | ⟨0, _⟩ => show win6_1.index t 0 * 1 + 1 * 0 = 0; rw [hi.2.2.1]
  | ⟨1, _⟩ => show win6_1.index t 1 * 128 + 1 * k.val = 128 * t.val + k.val; rw [hi.2.2.2.1]; omega

/-- What block s adds at (p, d): its 128 edges' messages, each weighted by whether the edge points at row p
    (nothing past the last block). -/
def blockSum (msg : Cert.Sage.Msgs.Idx → EReal) (dst : Cert.Sage.DstRow.Idx → BitVec 32) (s : ℕ) (p : Fin 50048) (d : Fin 128) : EReal :=
  if h : s < 6250 then
    ∑ k : Fin 128, (if BitVec.ofNat 32 p.val = dst (ix2 (0 : Fin 1) (edge ⟨s, h⟩ k)) then (1 : EReal) else 0) * msg (ix2 (edge ⟨s, h⟩ k) d)
  else 0

/-- An edge number is a block and a place inside it: e = 128 s + k. -/
def edgeEquiv : Fin 6250 × Fin 128 ≃ Fin 800000 where
  toFun x := edge x.1 x.2
  invFun e := (⟨e.val / 128, by have := e.isLt; omega⟩, ⟨e.val % 128, by omega⟩)
  left_inv x := by
    have h1 := x.1.isLt
    have h2 := x.2.isLt
    refine Prod.ext (Fin.ext ?_) (Fin.ext ?_)
    · show (128 * x.1.val + x.2.val) / 128 = x.1.val; omega
    · show (128 * x.1.val + x.2.val) % 128 = x.2.val; omega
  right_inv e := by
    refine Fin.ext ?_
    show 128 * (e.val / 128) + e.val % 128 = e.val; omega

/-- The blocks' sums, all 6250 of them, are the sum over all edges. -/
theorem sum_blockSum (msg : Cert.Sage.Msgs.Idx → EReal) (dst : Cert.Sage.DstRow.Idx → BitVec 32) (p : Fin 50048) (d : Fin 128) :
    ∑ s ∈ Finset.range 6250, blockSum msg dst s p d = Cert.Sage.scatterAt msg dst p d := by
  unfold Cert.Sage.scatterAt
  rw [Finset.sum_range, ← Equiv.sum_comp edgeEquiv, Fintype.sum_prod_type]
  refine Finset.sum_congr rfl fun s _ => ?_
  unfold blockSum
  rw [dif_pos s.isLt]
  rfl

/-- What the output's buffer holds after a first point: the update of the zero fill by the point's blocks. -/
theorem outsAt_first (c : Dev nD) (t : Fin cfg6.N) (h0 : t.val % 6250 = 0) :
    outsAt6 (F := Ideal) V c t.val t.isLt = k6_pay2 (iblk6 V c 1 t) (iblk6 V c 0 t) (k6_pay1 (F := Ideal)) :=
  (outsAt6_A V c t h0).trans
    (outA c (grid6.coords t) (ms6_0 t) (hs6_0 t) (ms6_1 t) (hs6_1 t) (ms6_2 t) (hs6_2 t) ((hcond6_0 t).mpr h0) (iblk6 V c 0 t) (iblk6 V c 1 t))

/-- And after a later point: the update, by the point's blocks, of what the point before left. -/
theorem outsAt_next (c : Dev nD) (t : Fin cfg6.N) (h0 : ¬t.val % 6250 = 0) :
    outsAt6 (F := Ideal) V c t.val t.isLt
      = k6_pay2 (iblk6 V c 1 t) (iblk6 V c 0 t) (outsAt6 V c (t.val - 1) (Nat.lt_of_le_of_lt (Nat.sub_le _ _) t.isLt)) :=
  (outsAt6_B V c t h0).trans
    (outB c (grid6.coords t) (ms6_0 t) (hs6_0 t) (ms6_1 t) (hs6_1 t) (ms6_2 t) (hs6_2 t) (fun h => h0 ((hcond6_0 t).mp h)) (iblk6 V c 0 t) (iblk6 V c 1 t)
      (outsAt6 V c (t.val - 1) (Nat.lt_of_le_of_lt (Nat.sub_le _ _) t.isLt)))

/-- A block's sum read through the windows' blocks at point t is the block's sum read off the arrays. -/
theorem blk_sum (c : Dev nD) (t : Fin cfg6.N) (p : Fin 50048) (d : Fin 128) :
    (∑ k : Fin 128, (if BitVec.ofNat 32 p.val = (iblk6 (F := Ideal) V c 1 t : Vec Ideal S1x128 .i32) (ix2 (0 : Fin 1) k) then (1 : EReal) else 0)
        * (iblk6 (F := Ideal) V c 0 t : Vec Ideal S128x128 .f32) (ix2 k d))
      = blockSum (V c main_v32) (V c main_v5) t.val p d := by
  unfold blockSum
  rw [dif_pos (point_lt t)]
  refine Finset.sum_congr rfl fun k _ => ?_
  rw [msgBlk_apply V c t k d, dstBlk_apply V c t k]

/-- THE INVARIANT: after point n the output holds at (p, d) the sum of the first n + 1 blocks' sums; by induction
    on the point (0 + x = x and associativity of + on the extended reals are all it takes). -/
theorem outsAt_eq (c : Dev nD) : ∀ (n : ℕ) (hn : n < cfg6.N) (p : Fin 50048) (d : Fin 128),
    (outsAt6 (F := Ideal) V c n hn : Vec Ideal S50048x128 .f32) (ix2 p d)
      = ∑ s ∈ Finset.range (n + 1), blockSum (V c main_v32) (V c main_v5) s p d
  | 0, hn, p, d => by
    refine (congrFun (outsAt_first V c ⟨0, hn⟩ rfl) (ix2 p d)).trans ?_
    refine (pay2_apply (iblk6 V c 1 ⟨0, hn⟩) (iblk6 V c 0 ⟨0, hn⟩) (k6_pay1 (F := Ideal)) p d).trans ?_
    rw [pay1_apply, zero_add, blk_sum V c ⟨0, hn⟩ p d]
    exact (Finset.sum_range_one (fun s => blockSum (V c main_v32) (V c main_v5) s p d)).symm
  | n + 1, hn, p, d => by
    have hN : cfg6.N = 6250 := N_6
    have hB : ¬(⟨n + 1, hn⟩ : Fin cfg6.N).val % 6250 = 0 := by dsimp only; omega
    refine (congrFun (outsAt_next V c ⟨n + 1, hn⟩ hB) (ix2 p d)).trans ?_
    refine (pay2_apply (iblk6 V c 1 ⟨n + 1, hn⟩) (iblk6 V c 0 ⟨n + 1, hn⟩) (outsAt6 V c n (Nat.lt_of_succ_lt hn)) p d).trans ?_
    rw [outsAt_eq c n (Nat.lt_of_succ_lt hn) p d, blk_sum V c ⟨n + 1, hn⟩ p d]
    exact (Finset.sum_range_succ (fun s => blockSum (V c main_v32) (V c main_v5) s p d) (n + 1)).symm

/-- The one write-back, after the last point, writes the whole sum: the output's block (0, 0) read through zero
    offsets is the array. -/
theorem flushed_eq (c : Dev nD) (t : Fin cfg6.N) (hf : (cfg6.win 2).flush t = true) :
    (dat6 (F := Ideal) V c).flushed 2 t
      = ((cfg6.win 2).blk t).view.read (Elt Ideal) (Cert.Sage.scatterRows (V c main_v32) (V c main_v5)) := by
  have hN : cfg6.N = 6250 := N_6
  have h3 : t.val = 6249 := by have := (flush6_2 t).mp hf; have := t.isLt; omega
  have hi := idx_facts t
  have hG : outsAt6 (F := Ideal) V c t.val t.isLt = Cert.Sage.scatterRows (V c main_v32) (V c main_v5) := by
    funext i
    obtain ⟨p, d, rfl⟩ : ∃ (p : Fin 50048) (d : Fin 128), i = ix2 p d := ⟨i 0, i 1, eq_ix2 i⟩
    rw [outsAt_eq V c t.val t.isLt p d, h3]
    exact sum_blockSum _ _ p d
  show (cfg6.win 2).cut (grid6.coords t) ((dat6 V c).after 2 t) = _
  rw [after6_2, hG]
  have hz' : (fun a => win6_2.index t a * main_v33.ty.shape.size a) = fun _ => 0 := funext fun a => by
    match a with
    | ⟨0, _⟩ => show win6_2.index t 0 * 50048 = 0; rw [hi.2.2.2.2.1]
    | ⟨1, _⟩ => show win6_2.index t 1 * 128 = 0; rw [hi.2.2.2.2.2]
  exact (Memref.read_access_unit_zero (Elt Ideal) main_v33 hz' (fun a => by rw [congrFun hz' a]; simp) _).symm

end Region

end Sca6

/-- The region's output array after all its grid points, as a function of the arrays the region finds at entry. -/
theorem arr6 (V : (c : Dev nD) → (b : Ref sig .tc) → Buf (Elt Ideal) ((c : Thread nD τ).loc b)) (c : Dev nD) :
    (dat6 (F := Ideal) V c).arrAt 2 cfg6.N = Cert.Sage.scatterRows (V c main_v32) (V c main_v5) := by
  have hlast : (6249 : ℕ) < cfg6.N := lt_of_lt_of_eq (by decide) N_6.symm
  refine (dat6 (F := Ideal) V c).arrAt_eq_of_cover 2 (Cert.Sage.scatterRows (V c main_v32) (V c main_v5)) (Sca6.flushed_eq V c) fun i =>
    ⟨⟨6249, hlast⟩, (flush6_2 ⟨6249, hlast⟩).mpr rfl, ?_⟩
  have hi := Sca6.idx_facts ⟨6249, hlast⟩
  show i ∈ ((View.whole main_v33).slice (win6_2.rect ⟨6249, hlast⟩)).set
  rw [View.set_slice_whole, Rect.mem_set_unit]
  intro a
  have h0 : (i 0 : Nat) < 50048 := (i 0).isLt
  have h1 : (i 1 : Nat) < 128 := (i 1).isLt
  match a with
  | ⟨0, _⟩ =>
    show win6_2.index ⟨6249, hlast⟩ 0 * 50048 ≤ (i 0 : Nat) ∧ (i 0 : Nat) < win6_2.index ⟨6249, hlast⟩ 0 * 50048 + 50048
    rw [hi.2.2.2.2.1]; omega
  | ⟨1, _⟩ =>
    show win6_2.index ⟨6249, hlast⟩ 1 * 128 ≤ (i 1 : Nat) ∧ (i 1 : Nat) < win6_2.index ⟨6249, hlast⟩ 1 * 128 + 128
    rw [hi.2.2.2.2.2]; omega

end Cert.KernelIdeal.Sage

end
-- ==== Proof.Cmb7.lean ====
/- The combining region of layer 2 (no clip). -/
import proofs.«412110_j609885356389_1_alg».proof.Proof.Gen.KernelIdeal.Frame
import proofs.«412110_j609885356389_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Sage

open Idealize.ShloMosaic Idealize.ShloMosaic.TcCoe Idealize.ShloMosaic.ValueIdx Idealize.SL.Sem Cert.KernelIdeal Cert.KernelIdeal.Gen
open Idealize.ShloMosaic.Pipeline (Dat Cfg Window)

namespace Combine7

/-! ## The product of a block of rows with a square matrix, entry by entry -/

/-- The left factor's index at output entry `i` keeps the output's row. -/
theorem prodL_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- Its column is the summation index. -/
theorem prodL_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- The right factor's row is the summation index. -/
theorem prodR_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- Its column is the output's column. -/
theorem prodR_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A [1000,128] block times a [128,128] matrix, added into the zero block: entry (p, q) is the sum over k of
    l[p, k] · r[k, q], whatever the operands' float formats. -/
theorem prod_at {φ₁ φ₂ : FTy} (l : FVec Ideal S1000x128 φ₁) (r : FVec Ideal S128x128 φ₂) (p : Fin 1000) (q : Fin 128) :
    matmul dot_S1000x128_S128x128_S1000x128_1_0_0_1_n_n none l r (constant (F := Ideal) S1000x128 .f32 0x00000000#32) (ix2 p q)
      = ∑ k : Fin 128, l (ix2 p k) * r (ix2 k q) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k := funext fun a => Fin.ext (by
    match a with
    | ⟨0, _⟩ => exact prodL_0 _ _
    | ⟨1, _⟩ => exact (prodL_1 _ _).trans hk)
  have er : dot_S1000x128_S128x128_S1000x128_1_0_0_1_n_n.rhsIdx (ix2 p q) ((contrEquiv1 dot_S1000x128_S128x128_S1000x128_1_0_0_1_n_n 128 rfl rfl).symm k) = ix2 k q := funext fun a => Fin.ext (by
    match a with
    | ⟨0, _⟩ => exact (prodR_0 _ _).trans hk
    | ⟨1, _⟩ => exact prodR_1 _ _)
  rw [el, er]

/-- The bias row spread over the block's rows: entry (p, q) is b[0, q]. -/
theorem biasRow_at (b : FVec Ideal S1x128 .f32) (p : Fin 1000) (q : Fin 128) :
    broadcastTo S1000x128 b broadcasts_S1x128_S1000x128 (ix2 p q) = b (ix2 (0 : Fin 1) q) :=
  broadcastTo_apply b broadcasts_S1x128_S1000x128 (ix2 p q) (ix2 (0 : Fin 1) q) (fun a => by
    match a with
    | ⟨0, _⟩ => rfl
    | ⟨1, _⟩ => rfl)

/-- The body's stored block, entry by entry: the aggregate's rows times the left weights, plus the bias, plus the node's
    own rows times the right weights; this layer does not clip. The roundings to a narrower format and the casts to the
    same shape are the identity on the extended reals. -/
theorem pay_at (a : Vec Ideal S1000x128 .f32) (wl : Vec Ideal S128x128 .f32) (x : Vec Ideal S1000x128 .f32)
    (wr : Vec Ideal S128x128 .f32) (b : Vec Ideal S1x128 .f32) (p : Fin 1000) (q : Fin 128) :
    k7_pay1 (F := Ideal) a wl x wr b (ix2 p q)
      = ((∑ k : Fin 128, a (ix2 p k) * wl (ix2 k q)) + b (ix2 (0 : Fin 1) q)) + ∑ k : Fin 128, x (ix2 p k) * wr (ix2 k q) := by
  unfold k7_pay1
  simp only [shapeCast_self, addf_apply]
  rw [prod_at, prod_at, biasRow_at]
  simp only [truncf_apply]

/-! ## The blocks of the region's windows, entry by entry -/

theorem zeroOffsets : (![0, 0] : Fin 2 → Nat) = fun _ => 0 := funext fun a => by fin_cases a <;> rfl

/-- The block indices of the six windows at each of the 50 grid points: the aggregate's, the layer input's and the
    output's blocks are block `t` of rows; the two weight matrices and the bias row are whole. -/
theorem blockIdx : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- There are 50 grid points. -/
theorem points (t : Fin cfg7.N) : t.val < 50 := lt_of_lt_of_eq t.isLt N_7

/-- Row `p` of block `t` is row `1000 t + p` of the array. -/
def blockRow (t : Fin cfg7.N) (p : Fin 1000) : Fin 50000 :=
  ⟨t.val * 1000 + p.val, by have := points t; have := p.isLt; omega⟩

section Blocks

variable (V : (c : Dev nD) → (b : Ref sig .tc) → Buf (Elt Ideal) ((c : Thread nD τ).loc b))

/-- The aggregate's block at point `t`: rows `1000 t … 1000 t + 999` of the aggregate. -/
theorem aggBlk (c : Dev nD) (t : Fin cfg7.N) (p : Fin 1000) (k : Fin 128) :
    iblk7 V c 0 t (ix2 p k) = V c main_v39 (ix2 (blockRow t p) k) := by
  obtain ⟨e0, e1, -⟩ := blockIdx t
  show V c main_v39 (((cfg7.win 0).blk t).view.emb (ix2 p k)) = V c main_v39 (ix2 (blockRow t p) k)
  refine congrArg (V c main_v39) (funext fun a => Fin.ext ?_)
  match a with
  | ⟨0, _⟩ => show win7_0.index t (0 : Fin 2) * 1000 + 1 * p.val = t.val * 1000 + p.val; omega
  | ⟨1, _⟩ => show win7_0.index t (1 : Fin 2) * 128 + 1 * k.val = k.val; omega

/-- The layer input's block at point `t`: the same rows of the first layer's output. -/
theorem ownBlk (c : Dev nD) (t : Fin cfg7.N) (p : Fin 1000) (k : Fin 128) :
    iblk7 V c 3 t (ix2 p k) = V c main_v26 (ix2 (blockRow t p) k) := by
  obtain ⟨-, -, -, -, -, -, e0, e1, -⟩ := blockIdx t
  show V c main_v26 (((cfg7.win 3).blk t).view.emb (ix2 p k)) = V c main_v26 (ix2 (blockRow t p) k)
  refine congrArg (V c main_v26) (funext fun a => Fin.ext ?_)
  match a with
  | ⟨0, _⟩ => show win7_3.index t (0 : Fin 2) * 1000 + 1 * p.val = t.val * 1000 + p.val; omega
  | ⟨1, _⟩ => show win7_3.index t (1 : Fin 2) * 128 + 1 * k.val = k.val; omega

/-- The left weights' block is the whole matrix at every point. -/
theorem wlBlk (c : Dev nD) (t : Fin cfg7.N) (k : Fin 128) (q : Fin 128) :
    iblk7 V c 1 t (ix2 k q) = V c main_v40 (ix2 k q) := by
  obtain ⟨-, -, e0, e1, -⟩ := blockIdx t
  show V c main_v40 (((cfg7.win 1).blk t).view.emb (ix2 k q)) = V c main_v40 (ix2 k q)
  refine congrArg (V c main_v40) (funext fun a => Fin.ext ?_)
  match a with
  | ⟨0, _⟩ => show win7_1.index t (0 : Fin 2) * 128 + 1 * k.val = k.val; omega
  | ⟨1, _⟩ => show win7_1.index t (1 : Fin 2) * 128 + 1 * q.val = q.val; omega

/-- The right weights' block is the whole matrix at every point. -/
theorem wrBlk (c : Dev nD) (t : Fin cfg7.N) (k : Fin 128) (q : Fin 128) :
    iblk7 V c 4 t (ix2 k q) = V c main_v41 (ix2 k q) := by
  obtain ⟨-, -, -, -, -, -, -, -, e0, e1, -⟩ := blockIdx t
  show V c main_v41 (((cfg7.win 4).blk t).view.emb (ix2 k q)) = V c main_v41 (ix2 k q)
  refine congrArg (V c main_v41) (funext fun a => Fin.ext ?_)
  match a with
  | ⟨0, _⟩ => show win7_4.index t (0 : Fin 2) * 128 + 1 * k.val = k.val; omega
  | ⟨1, _⟩ => show win7_4.index t (1 : Fin 2) * 128 + 1 * q.val = q.val; omega

/-- The bias row's block is the whole row at every point. -/
theorem biasBlk (c : Dev nD) (t : Fin cfg7.N) (q : Fin 128) :
    iblk7 V c 2 t (ix2 (0 : Fin 1) q) = V c main_v42 (ix2 (0 : Fin 1) q) := by
  obtain ⟨-, -, -, -, e0, e1, -⟩ := blockIdx t
  show V c main_v42 (((cfg7.win 2).blk t).view.emb (ix2 (0 : Fin 1) q)) = V c main_v42 (ix2 (0 : Fin 1) q)
  refine congrArg (V c main_v42) (funext fun a => Fin.ext ?_)
  match a with
  | ⟨0, _⟩ => show win7_2.index t (0 : Fin 2) * 1 + 1 * 0 = 0; omega
  | ⟨1, _⟩ => show win7_2.index t (1 : Fin 2) * 128 + 1 * q.val = q.val; omega

/-- Entry (p, q) of the output's block at point `t` sits at row `1000 t + p`, column `q` of the array. -/
theorem outBlk (t : Fin cfg7.N) (p : Fin 1000) (q : Fin 128) :
    ((cfg7.win 5).blk t).view.emb (ix2 p q) = ix2 (blockRow t p) q := by
  obtain ⟨-, -, -, -, -, -, -, -, -, -, e0, e1⟩ := blockIdx t
  refine funext fun a => Fin.ext ?_
  match a with
  | ⟨0, _⟩ => show win7_5.index t (0 : Fin 2) * 1000 + 1 * p.val = t.val * 1000 + p.val; omega
  | ⟨1, _⟩ => show win7_5.index t (1 : Fin 2) * 128 + 1 * q.val = q.val; omega

/-! ## From the blocks to the array -/

/-- What point `t` writes back is block `t` of the combination of the arrays the region finds at entry: a row of the
    output depends only on the same row of the aggregate and of the layer's input, on the two weight matrices and on
    the bias. -/
theorem flushed_eq (c : Dev nD) (t : Fin cfg7.N) :
    (dat7 (F := Ideal) V c).flushed 5 t = ((cfg7.win 5).blk t).view.read (Elt Ideal)
      (Cert.Sage.comb (V c main_v39) (V c main_v40) (V c main_v42) (V c main_v26) (V c main_v41)) := by
  show (cfg7.win 5).cut (grid7.coords t) ((dat7 (F := Ideal) V c).after 5 t) = _
  rw [after7_5]
  unfold out7_5
  rw [View.canon_unit_zero zeroOffsets]
  simp only [View.ld_unit_zero (S := S1000x128) zeroOffsets, View.ld_unit_zero (S := S128x128) zeroOffsets,
    View.ld_unit_zero (S := S1x128) zeroOffsets]
  funext j
  obtain ⟨p, q, rfl⟩ : ∃ (p : Fin 1000) (q : Fin 128), j = ix2 p q := ⟨j 0, j 1, eq_ix2 j⟩
  show k7_pay1 (F := Ideal) (iblk7 V c 0 t) (iblk7 V c 1 t) (iblk7 V c 3 t) (iblk7 V c 4 t) (iblk7 V c 2 t) (ix2 p q)
    = Cert.Sage.comb (V c main_v39) (V c main_v40) (V c main_v42) (V c main_v26) (V c main_v41)
        (((cfg7.win 5).blk t).view.emb (ix2 p q))
  rw [outBlk t p q]
  refine (pay_at (iblk7 V c 0 t) (iblk7 V c 1 t) (iblk7 V c 3 t) (iblk7 V c 4 t) (iblk7 V c 2 t) p q).trans ?_
  show _ = Cert.Sage.combAt (V c main_v39) (V c main_v40) (V c main_v42) (V c main_v26) (V c main_v41) (blockRow t p) q
  unfold Cert.Sage.combAt
  refine congrArg₂ (· + ·) (congrArg₂ (· + ·) (Finset.sum_congr rfl fun k _ => ?_) (biasBlk V c t q))
    (Finset.sum_congr rfl fun k _ => ?_)
  · exact congrArg₂ (· * ·) (aggBlk V c t p k) (wlBlk V c t k q)
  · exact congrArg₂ (· * ·) (ownBlk V c t p k) (wrBlk V c t k q)

end Blocks

/-- An index of the array is in point `t`'s block iff each coordinate is in the block's range on its axis. -/
theorem mem_blk (t : Fin cfg7.N) (i : S50000x128.Idx) :
    i ∈ ((cfg7.win 5).blk t).view.set ↔ ∀ a : Fin 2, win7_5.index t a * S1000x128.size a ≤ (i a).val ∧ (i a).val < win7_5.index t a * S1000x128.size a + S1000x128.size a := by
  show i ∈ ((View.whole main_v43).slice (win7_5.rect t)).set ↔ _
  rw [View.set_slice_whole, Rect.mem_set_unit]
  exact Iff.rfl

/-- Every index of the array lies in the block of the point numbered by its row divided by 1000. -/
theorem cover (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  have ht : (i 0).val / 1000 < cfg7.N := lt_of_lt_of_eq (by omega) N_7.symm
  refine ⟨⟨(i 0).val / 1000, ht⟩, flush7_5 _, ?_⟩
  rw [mem_blk]
  obtain ⟨-, -, -, -, -, -, -, -, -, -, e0, e1⟩ := blockIdx ⟨(i 0).val / 1000, ht⟩
  have e0' : win7_5.index ⟨(i 0).val / 1000, ht⟩ (0 : Fin 2) = (i 0).val / 1000 := e0
  intro a
  match a with
  | ⟨0, _⟩ => show win7_5.index ⟨(i 0).val / 1000, ht⟩ (0 : Fin 2) * 1000 ≤ (i 0).val ∧ (i 0).val < win7_5.index ⟨(i 0).val / 1000, ht⟩ (0 : Fin 2) * 1000 + 1000; omega
  | ⟨1, _⟩ => show win7_5.index ⟨(i 0).val / 1000, ht⟩ (1 : Fin 2) * 128 ≤ (i 1).val ∧ (i 1).val < win7_5.index ⟨(i 0).val / 1000, ht⟩ (1 : Fin 2) * 128 + 128; omega

end Combine7

/-- The region's output array after all its grid points, as a function of the arrays the region finds at entry. -/
theorem arr7 (V : (c : Dev nD) → (b : Ref sig .tc) → Buf (Elt Ideal) ((c : Thread nD τ).loc b)) (c : Dev nD) :
    (dat7 (F := Ideal) V c).arrAt 5 cfg7.N = Cert.Sage.comb (V c main_v39) (V c main_v40) (V c main_v42) (V c main_v26) (V c main_v41) :=
  (dat7 (F := Ideal) V c).arrAt_eq_of_cover 5 _ (fun t _ => Combine7.flushed_eq V c t) Combine7.cover

end Cert.KernelIdeal.Sage

end
-- ==== Proof.Glue.lean ====
/- The small host operations between the regions, read index by index: a bias as a row, the sources as a column, the
   destinations as a row, the padding of the node axis, and the division of the first 50000 rows. -/
import proofs.«412110_j609885356389_1_alg».proof.Proof.Gen.KernelIdeal.Frame
import proofs.«412110_j609885356389_1_alg».proof.Proof.Spec
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Sage

open Idealize.ShloMosaic Idealize.ShloMosaic.TcCoe Idealize.ShloMosaic.ValueIdx Idealize.SL.Sem Cert.KernelIdeal Cert.KernelIdeal.Gen
open Idealize.ShloMosaic.Pipeline (Dat Cfg Window)

/-- A bias [128] reshaped to [1, 128] is the bias as a row. -/
theorem bias_row (b : FVec Ideal S128 .f32) :
    shapeCast S1x128 b shapeCasts_S128_S1x128 = Cert.Sage.rowOf b := by
  funext i
  obtain ⟨u, d, rfl⟩ : ∃ (u : Fin 1) (d : Fin 128), i = ix2 u d := ⟨i 0, i 1, eq_ix2 i⟩
  exact shapeCast_a_1a_apply b _ u d

/-- Row 0 of the edge list, flattened and reshaped to a column, is the sources as a column. -/
theorem src_col (ei : IVec S2x800000 32) :
    shapeCast S800000x1 (shapeCast S800000 (extractStridedSlice S1x800000 ![0, 0] ei slices_S2x800000_S1x800000_0_0) shapeCasts_S1x800000_S800000) shapeCasts_S800000_S800000x1
      = Cert.Sage.srcCol ei := by
  funext i
  obtain ⟨e, u, rfl⟩ : ∃ (e : Fin 800000) (u : Fin 1), i = ix2 e u := ⟨i 0, i 1, eq_ix2 i⟩
  -- position (e, u) of the column is position e of the vector: u = 0
  refine (shapeCast_apply _ _ (ix2 e u) (ix1 e) ?_).trans ?_
  · rw [Shape.rowMajor_val_one, Shape.rowMajor_val_two]
    show e.val = e.val * 1 + u.val
    omega
  · refine (shapeCast_1a_a_apply _ _ e).trans ?_
    exact slice2_axis0_apply 0 ei _ 0 e 0 rfl

/-- Row 1 of the edge list, flattened and reshaped to a row, is the destinations as a row. -/
theorem dst_row (ei : IVec S2x800000 32) :
    shapeCast S1x800000 (shapeCast S800000 (extractStridedSlice S1x800000 ![1, 0] ei slices_S2x800000_S1x800000_1_0) shapeCasts_S1x800000_S800000) shapeCasts_S800000_S1x800000
      = Cert.Sage.dstRow ei := by
  funext i
  obtain ⟨u, e, rfl⟩ : ∃ (u : Fin 1) (e : Fin 800000), i = ix2 u e := ⟨i 0, i 1, eq_ix2 i⟩
  refine (shapeCast_a_1a_apply _ _ u e).trans ?_
  refine (shapeCast_1a_a_apply _ _ e).trans ?_
  exact slice2_axis0_apply 1 ei _ 0 e 1 rfl

/-- The node rows padded at the high end of axis 0 with 48 rows of the value 0 (the integer 0 converted), then
    changed of format, are the padded rows. -/
theorem pad_rows (h : FVec Ideal S50000x128 .f32) :
    truncf .bf16 (pad S50048x128 ![0, 0] ![48, 0] ![0, 0] h (sitofp .f32 (constantI S_ 32 0#32)) pads_S50000x128_S50048x128_0480_000 h_S_) bitsLt_bf16_f32
      = Cert.Sage.padRows h := by
  funext i
  obtain ⟨n, d, rfl⟩ : ∃ (n : Fin 50048) (d : Fin 128), i = ix2 n d := ⟨i 0, i 1, eq_ix2 i⟩
  -- the change of format is the identity on extended reals
  show pad S50048x128 ![0, 0] ![48, 0] ![0, 0] h (sitofp .f32 (constantI S_ 32 0#32)) pads_S50000x128_S50048x128_0480_000 h_S_ (ix2 n d)
    = if hlt : n.val < 50000 then h (ix2 (⟨n.val, hlt⟩ : Fin 50000) d) else 0
  by_cases hlt : n.val < 50000
  · -- a row of the operand: no low padding, no interior padding, so the coordinates are kept
    rw [dif_pos hlt]
    exact pad_apply_of_inside _ _ _ h _ _ _ (ix2 n d) (ix2 (⟨n.val, hlt⟩ : Fin 50000) d) (fun a => by
      match a with
      | ⟨0, _⟩ => show n.val = 0 + n.val * (0 + 1); omega
      | ⟨1, _⟩ => show d.val = 0 + d.val * (0 + 1); omega)
  · -- one of the 48 high rows: the padding value, the integer 0 converted
    rw [dif_neg hlt]
    refine (pad_apply_of_not_inside _ _ _ h _ _ _ (ix2 n d) (0 : Fin 2) ?_).trans ?_
    · intro hc
      have h3 := hc.2.2
      change (n.val - 0) / 1 < 50000 at h3
      omega
    · show (((0#32 : BitVec 32).toInt : ℝ) : EReal) = 0
      rw [show (0#32 : BitVec 32).toInt = 0 from by decide, Int.cast_zero, EReal.coe_zero]

/-- The first 50000 rows of the sums, divided elementwise by the divisor array, are the mean rows. -/
theorem mean_rows (s : FVec Ideal S50048x128 .f32) (cb : FVec Ideal S50000x128 .f32) :
    Host.divf (extractStridedSlice S50000x128 ![0, 0] s slices_S50048x128_S50000x128_0_0) cb = Cert.Sage.meanRows s cb := by
  funext i
  obtain ⟨n, d, rfl⟩ : ∃ (n : Fin 50000) (d : Fin 128), i = ix2 n d := ⟨i 0, i 1, eq_ix2 i⟩
  show Ideal.div (extractStridedSlice S50000x128 ![0, 0] s slices_S50048x128_S50000x128_0_0 (ix2 n d)) (cb (ix2 n d))
    = Ideal.div (s (ix2 (⟨n.val, by omega⟩ : Fin 50048) d)) (cb (ix2 n d))
  refine congrArg (fun z => Ideal.div z (cb (ix2 n d))) ?_
  exact slice2_axis0_apply 0 s _ n d (⟨n.val, by omega⟩ : Fin 50048) (Nat.zero_add _).symm

end Cert.KernelIdeal.Sage

end
-- ==== Proof.Fold.lean ====
/- The contents of the result array at the last segment boundary, read back through every region and every stretch of
   host operations to the arguments: two graph layers. -/
import proofs.«412110_j609885356389_1_alg».proof.Proof.Gen.KernelIdeal.Frame
import proofs.«412110_j609885356389_1_alg».proof.Proof.Spec
import proofs.«412110_j609885356389_1_alg».proof.Proof.Lin0
import proofs.«412110_j609885356389_1_alg».proof.Proof.Gat1
import proofs.«412110_j609885356389_1_alg».proof.Proof.Sca2
import proofs.«412110_j609885356389_1_alg».proof.Proof.Cmb3
import proofs.«412110_j609885356389_1_alg».proof.Proof.Lin4
import proofs.«412110_j609885356389_1_alg».proof.Proof.Gat5
import proofs.«412110_j609885356389_1_alg».proof.Proof.Sca6
import proofs.«412110_j609885356389_1_alg».proof.Proof.Cmb7
import proofs.«412110_j609885356389_1_alg».proof.Proof.Glue
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Sage

open Idealize.ShloMosaic Idealize.ShloMosaic.TcCoe Idealize.ShloMosaic.ValueIdx Idealize.SL.Sem Cert.KernelIdeal Cert.KernelIdeal.Gen
open Idealize.ShloMosaic.Pipeline (Dat Cfg Window)

/-- A weight matrix transposed, as the host does it before a region. -/
def wT (w : FVec Ideal S128x128 .f32) : FVec Ideal S128x128 .f32 :=
  transpose S128x128 [1, 0] w transposes_S128x128_S128x128_1_0

/-- The divisor array as the host computes it: ones added at every edge's destination (the in-degree), clipped below at
    one, broadcast over the features. -/
def cntB (ei : IVec S2x800000 32) : FVec Ideal S50000x128 .f32 :=
  broadcastInDim S50000x128 ![0, 1] bcast_S50000x1_S50000x128_0_1
    (broadcastInDim S50000x1 ![0] bcast_S50000_S50000x1_0
      (maximumf
        (Host.scatterAdd scatter_S50000_S800000x1_S800000_n_0_0_1
          (broadcastInDim S50000 ![] bcast_S_S50000 (constant S_ .f32 0x00000000#32))
          (broadcastInDim S800000x1 ![0] bcast_S800000_S800000x1_0
            (shapeCast S800000 ((extractStridedSlice S1x800000 ![1, 0] · slices_S2x800000_S1x800000_1_0) ei) shapeCasts_S1x800000_S800000))
          (broadcastInDim S800000 ![] bcast_S_S800000 (constant S_ .f32 0x3F800000#32)))
        (broadcastInDim S50000 ![] bcast_S_S50000 (constant S_ .f32 0x3F800000#32))))

namespace Fold

variable (m : (ℓ : Loc nD τ sig) → Buf (Elt Ideal) ℓ) (ρ : Dev nD → PrngReg) (c : Dev nD)

/-! ## A buffer that a stretch of host operations does not write keeps its contents across it

For each stretch: the list of the buffers its operations write, that every operation writes into that list, and
the step of the fold at a buffer outside the list. -/

abbrev wr0 : List (Ref sig .tc) :=
  [main_v0, main_v1, main_v2, main_v3, main_v4, main_v5, main_cst, main_v6, main_cst_0, main_v7, main_v8, main_v9, main_v10, main_v11]
abbrev wr1 : List (Ref sig .tc) := [main_c]
abbrev wr1_1 : List (Ref sig .tc) := [main_call0_v0, main_v13]
abbrev wr1_2 : List (Ref sig .tc) := [main_v14]
abbrev wr3 : List (Ref sig .tc) :=
  [main_v17, main_cst_1, main_v18, main_v19, main_v20, main_v21, main_v22, main_v23, main_v24, main_v25]
abbrev wr4 : List (Ref sig .tc) := [main_v27, main_v28]
abbrev wr5 : List (Ref sig .tc) := [main_c_2]
abbrev wr5_1 : List (Ref sig .tc) := [main_call1_v0, main_v30]
abbrev wr5_2 : List (Ref sig .tc) := [main_v31]
abbrev wr7 : List (Ref sig .tc) :=
  [main_v34, main_cst_3, main_v35, main_v36, main_v37, main_v38, main_v39, main_v40, main_v41, main_v42]

local macro "writes_sub" ops:ident : tactic => `(tactic| (
  simp only [$ops:ident, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)))

theorem wr0_sub : (hostOps0 : List (HloOp τ sig (Elt Ideal))).Forall fun op => op.writes ⊆ (wr0.map (Proc.devRef (τ := τ) .tc)).toFinset := by
  writes_sub hostOps0
theorem wr1_sub : (hostOps1 : List (HloOp τ sig (Elt Ideal))).Forall fun op => op.writes ⊆ (wr1.map (Proc.devRef (τ := τ) .tc)).toFinset := by
  writes_sub hostOps1
theorem wr1_1_sub : (hostOps1_1 : List (HloOp τ sig (Elt Ideal))).Forall fun op => op.writes ⊆ (wr1_1.map (Proc.devRef (τ := τ) .tc)).toFinset := by
  writes_sub hostOps1_1
theorem wr1_2_sub : (hostOps1_2 : List (HloOp τ sig (Elt Ideal))).Forall fun op => op.writes ⊆ (wr1_2.map (Proc.devRef (τ := τ) .tc)).toFinset := by
  writes_sub hostOps1_2
theorem wr3_sub : (hostOps3 : List (HloOp τ sig (Elt Ideal))).Forall fun op => op.writes ⊆ (wr3.map (Proc.devRef (τ := τ) .tc)).toFinset := by
  writes_sub hostOps3
theorem wr4_sub : (hostOps4 : List (HloOp τ sig (Elt Ideal))).Forall fun op => op.writes ⊆ (wr4.map (Proc.devRef (τ := τ) .tc)).toFinset := by
  writes_sub hostOps4
theorem wr5_sub : (hostOps5 : List (HloOp τ sig (Elt Ideal))).Forall fun op => op.writes ⊆ (wr5.map (Proc.devRef (τ := τ) .tc)).toFinset := by
  writes_sub hostOps5
theorem wr5_1_sub : (hostOps5_1 : List (HloOp τ sig (Elt Ideal))).Forall fun op => op.writes ⊆ (wr5_1.map (Proc.devRef (τ := τ) .tc)).toFinset := by
  writes_sub hostOps5_1
theorem wr5_2_sub : (hostOps5_2 : List (HloOp τ sig (Elt Ideal))).Forall fun op => op.writes ⊆ (wr5_2.map (Proc.devRef (τ := τ) .tc)).toFinset := by
  writes_sub hostOps5_2
theorem wr7_sub : (hostOps7 : List (HloOp τ sig (Elt Ideal))).Forall fun op => op.writes ⊆ (wr7.map (Proc.devRef (τ := τ) .tc)).toFinset := by
  writes_sub hostOps7

theorem k1 (r : Ref sig .tc) (h : r ∉ wr0) : W1 (F := Ideal) m ρ c (Proc.devRef .tc r) = W0 m ρ c (Proc.devRef .tc r) :=
  StableHlo.after_of_writes_sub hostOps0 _ wr0_sub h
theorem k3 (r : Ref sig .tc) (h : r ∉ wr1) : W3 (F := Ideal) m ρ c (Proc.devRef .tc r) = W2 m ρ c (Proc.devRef .tc r) :=
  StableHlo.after_of_writes_sub hostOps1 _ wr1_sub h
theorem k4 (r : Ref sig .tc) (h : r ∉ wr1_1) : W4 (F := Ideal) m ρ c (Proc.devRef .tc r) = W3 m ρ c (Proc.devRef .tc r) :=
  StableHlo.after_of_writes_sub hostOps1_1 _ wr1_1_sub h
theorem k5 (r : Ref sig .tc) (h : r ∉ wr1_2) : W5 (F := Ideal) m ρ c (Proc.devRef .tc r) = W4 m ρ c (Proc.devRef .tc r) :=
  StableHlo.after_of_writes_sub hostOps1_2 _ wr1_2_sub h
theorem k8 (r : Ref sig .tc) (h : r ∉ wr3) : W8 (F := Ideal) m ρ c (Proc.devRef .tc r) = W7 m ρ c (Proc.devRef .tc r) :=
  StableHlo.after_of_writes_sub hostOps3 _ wr3_sub h
theorem k10 (r : Ref sig .tc) (h : r ∉ wr4) : W10 (F := Ideal) m ρ c (Proc.devRef .tc r) = W9 m ρ c (Proc.devRef .tc r) :=
  StableHlo.after_of_writes_sub hostOps4 _ wr4_sub h
theorem k12 (r : Ref sig .tc) (h : r ∉ wr5) : W12 (F := Ideal) m ρ c (Proc.devRef .tc r) = W11 m ρ c (Proc.devRef .tc r) :=
  StableHlo.after_of_writes_sub hostOps5 _ wr5_sub h
theorem k13 (r : Ref sig .tc) (h : r ∉ wr5_1) : W13 (F := Ideal) m ρ c (Proc.devRef .tc r) = W12 m ρ c (Proc.devRef .tc r) :=
  StableHlo.after_of_writes_sub hostOps5_1 _ wr5_1_sub h
theorem k14 (r : Ref sig .tc) (h : r ∉ wr5_2) : W14 (F := Ideal) m ρ c (Proc.devRef .tc r) = W13 m ρ c (Proc.devRef .tc r) :=
  StableHlo.after_of_writes_sub hostOps5_2 _ wr5_2_sub h
theorem k17 (r : Ref sig .tc) (h : r ∉ wr7) : W17 (F := Ideal) m ρ c (Proc.devRef .tc r) = W16 m ρ c (Proc.devRef .tc r) :=
  StableHlo.after_of_writes_sub hostOps7 _ wr7_sub h

/-- Across the three stretches between region 0 and region 1. -/
theorem k5_3 (r : Ref sig .tc) (h : r ∉ wr1 ++ wr1_1 ++ wr1_2) :
    W5 (F := Ideal) m ρ c (Proc.devRef .tc r) = W2 m ρ c (Proc.devRef .tc r) :=
  (k5 m ρ c r fun e => h (by simp only [List.mem_append]; exact Or.inr e)).trans
    ((k4 m ρ c r fun e => h (by simp only [List.mem_append]; exact Or.inl (Or.inr e))).trans
      (k3 m ρ c r fun e => h (by simp only [List.mem_append]; exact Or.inl (Or.inl e))))

/-- Across the three stretches between region 4 and region 5. -/
theorem k14_3 (r : Ref sig .tc) (h : r ∉ wr5 ++ wr5_1 ++ wr5_2) :
    W14 (F := Ideal) m ρ c (Proc.devRef .tc r) = W11 m ρ c (Proc.devRef .tc r) :=
  (k14 m ρ c r fun e => h (by simp only [List.mem_append]; exact Or.inr e)).trans
    ((k13 m ρ c r fun e => h (by simp only [List.mem_append]; exact Or.inl (Or.inr e))).trans
      (k12 m ρ c r fun e => h (by simp only [List.mem_append]; exact Or.inl (Or.inl e))))

/-! ## An input window's array keeps its contents across its region -/

theorem i2_0 : W2 (F := Ideal) m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem i6_1 : W6 (F := Ideal) m ρ c (Proc.devRef .tc main_v4) = W5 m ρ c (Proc.devRef .tc main_v4) :=
  (W6_arr m ρ c 1).trans (((dat1 (V5 m ρ) c).arrAt_in 1 rfl _).trans (A_eq1 (V5 m ρ) c 1))
theorem i7_1 : W7 (F := Ideal) m ρ c (Proc.devRef .tc main_v5) = W6 m ρ c (Proc.devRef .tc main_v5) :=
  (W7_arr m ρ c 1).trans (((dat2 (V6 m ρ) c).arrAt_in 1 rfl _).trans (A_eq2 (V6 m ρ) c 1))
theorem i11_0 : W11 (F := Ideal) m ρ c (Proc.devRef .tc main_v26) = W10 m ρ c (Proc.devRef .tc main_v26) :=
  (W11_arr m ρ c 0).trans (((dat4 (V10 m ρ) c).arrAt_in 0 rfl _).trans (A_eq4 (V10 m ρ) c 0))

/-! ## What the host operations compute, each stretch read at the buffers a region then takes -/

/-- The divisor array from the in-degrees: clipped below at one, broadcast over the features. -/
def divisor (deg : FVec Ideal S50000 .f32) : FVec Ideal S50000x128 .f32 :=
  broadcastInDim S50000x128 ![0, 1] bcast_S50000x1_S50000x128_0_1
    (broadcastInDim S50000x1 ![0] bcast_S50000_S50000x1_0
      (maximumf deg (broadcastInDim S50000 ![] bcast_S_S50000 (constant (F := Ideal) S_ .f32 0x3F800000#32))))

/-- The in-degrees: ones added at every edge's destination. -/
def degree (ei : IVec S2x800000 32) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0
      (shapeCast S800000 ((extractStridedSlice S1x800000 ![1, 0] · slices_S2x800000_S1x800000_1_0) ei) shapeCasts_S1x800000_S800000))
    (broadcastInDim S800000 ![] bcast_S_S800000 (constant (F := Ideal) S_ .f32 0x3F800000#32))

theorem cntB_eq (ei : IVec S2x800000 32) : cntB ei = divisor (degree ei) := rfl

theorem h1_v10 : W1 (F := Ideal) m ρ c (Proc.devRef .tc main_v10) = wT (W0 m ρ c (Proc.devRef .tc main_arg2)) := by
  show StableHlo.after hostOps0 _ (Proc.devRef .tc main_v10) = _
  after_results
  rfl
theorem h1_v11 : W1 (F := Ideal) m ρ c (Proc.devRef .tc main_v11) = Cert.Sage.rowOf (W0 m ρ c (Proc.devRef .tc main_arg3)) := by
  show StableHlo.after hostOps0 _ (Proc.devRef .tc main_v11) = _
  after_results
  exact bias_row _
theorem h1_v4 : W1 (F := Ideal) m ρ c (Proc.devRef .tc main_v4) = Cert.Sage.srcCol (W0 m ρ c (Proc.devRef .tc main_arg1)) := by
  show StableHlo.after hostOps0 _ (Proc.devRef .tc main_v4) = _
  after_results
  exact src_col _
theorem h1_v5 : W1 (F := Ideal) m ρ c (Proc.devRef .tc main_v5) = Cert.Sage.dstRow (W0 m ρ c (Proc.devRef .tc main_arg1)) := by
  show StableHlo.after hostOps0 _ (Proc.devRef .tc main_v5) = _
  after_results
  exact dst_row _
theorem h1_v9 : W1 (F := Ideal) m ρ c (Proc.devRef .tc main_v9) = degree (W0 m ρ c (Proc.devRef .tc main_arg1)) := by
  show StableHlo.after hostOps0 _ (Proc.devRef .tc main_v9) = _
  after_results
  rfl

theorem h5_v14 : W5 (F := Ideal) m ρ c (Proc.devRef .tc main_v14) = Cert.Sage.padRows (W2 m ρ c (Proc.devRef .tc main_v12)) := by
  show StableHlo.after hostOps1_2 (StableHlo.after hostOps1_1 (StableHlo.after hostOps1 _)) (Proc.devRef .tc main_v14) = _
  after_results
  exact pad_rows _

theorem h8_v22 : W8 (F := Ideal) m ρ c (Proc.devRef .tc main_v22) =
    Cert.Sage.meanRows (W7 m ρ c (Proc.devRef .tc main_v16)) (divisor (W7 m ρ c (Proc.devRef .tc main_v9))) := by
  show StableHlo.after hostOps3 _ (Proc.devRef .tc main_v22) = _
  after_results
  exact mean_rows _ _
theorem h8_v23 : W8 (F := Ideal) m ρ c (Proc.devRef .tc main_v23) = wT (W7 m ρ c (Proc.devRef .tc main_arg4)) := by
  show StableHlo.after hostOps3 _ (Proc.devRef .tc main_v23) = _
  after_results
  rfl
theorem h8_v24 : W8 (F := Ideal) m ρ c (Proc.devRef .tc main_v24) = wT (W7 m ρ c (Proc.devRef .tc main_arg6)) := by
  show StableHlo.after hostOps3 _ (Proc.devRef .tc main_v24) = _
  after_results
  rfl
theorem h8_v25 : W8 (F := Ideal) m ρ c (Proc.devRef .tc main_v25) = Cert.Sage.rowOf (W7 m ρ c (Proc.devRef .tc main_arg5)) := by
  show StableHlo.after hostOps3 _ (Proc.devRef .tc main_v25) = _
  after_results
  exact bias_row _

theorem h10_v27 : W10 (F := Ideal) m ρ c (Proc.devRef .tc main_v27) = wT (W9 m ρ c (Proc.devRef .tc main_arg7)) := by
  show StableHlo.after hostOps4 _ (Proc.devRef .tc main_v27) = _
  after_results
  rfl
theorem h10_v28 : W10 (F := Ideal) m ρ c (Proc.devRef .tc main_v28) = Cert.Sage.rowOf (W9 m ρ c (Proc.devRef .tc main_arg8)) := by
  show StableHlo.after hostOps4 _ (Proc.devRef .tc main_v28) = _
  after_results
  exact bias_row _

theorem h14_v31 : W14 (F := Ideal) m ρ c (Proc.devRef .tc main_v31) = Cert.Sage.padRows (W11 m ρ c (Proc.devRef .tc main_v29)) := by
  show StableHlo.after hostOps5_2 (StableHlo.after hostOps5_1 (StableHlo.after hostOps5 _)) (Proc.devRef .tc main_v31) = _
  after_results
  exact pad_rows _

theorem h17_v39 : W17 (F := Ideal) m ρ c (Proc.devRef .tc main_v39) =
    Cert.Sage.meanRows (W16 m ρ c (Proc.devRef .tc main_v33)) (divisor (W16 m ρ c (Proc.devRef .tc main_v9))) := by
  show StableHlo.after hostOps7 _ (Proc.devRef .tc main_v39) = _
  after_results
  exact mean_rows _ _
theorem h17_v40 : W17 (F := Ideal) m ρ c (Proc.devRef .tc main_v40) = wT (W16 m ρ c (Proc.devRef .tc main_arg9)) := by
  show StableHlo.after hostOps7 _ (Proc.devRef .tc main_v40) = _
  after_results
  rfl
theorem h17_v41 : W17 (F := Ideal) m ρ c (Proc.devRef .tc main_v41) = wT (W16 m ρ c (Proc.devRef .tc main_arg11)) := by
  show StableHlo.after hostOps7 _ (Proc.devRef .tc main_v41) = _
  after_results
  rfl
theorem h17_v42 : W17 (F := Ideal) m ρ c (Proc.devRef .tc main_v42) = Cert.Sage.rowOf (W16 m ρ c (Proc.devRef .tc main_arg10)) := by
  show StableHlo.after hostOps7 _ (Proc.devRef .tc main_v42) = _
  after_results
  exact bias_row _

/-! ## Each region's result array from what it finds in its input arrays -/

open Cert.Sage in
theorem r0 {x : Nodes.Idx → EReal} {w : Sq.Idx → EReal} {b : Row.Idx → EReal}
    (hx : W1 (F := Ideal) m ρ c (Proc.devRef .tc main_arg0) = x) (hw : W1 (F := Ideal) m ρ c (Proc.devRef .tc main_v10) = w)
    (hb : W1 (F := Ideal) m ρ c (Proc.devRef .tc main_v11) = b) :
    W2 (F := Ideal) m ρ c (Proc.devRef .tc main_v12) = proj x w b := by
  subst hx hw hb
  exact (W2_arr m ρ c 3).trans (arr0 (V1 m ρ) c)

open Cert.Sage in
theorem r1 {hp : NodesPad.Idx → EReal} {src : SrcCol.Idx → BitVec 32}
    (hh : W5 (F := Ideal) m ρ c (Proc.devRef .tc main_v14) = hp) (hs : W5 (F := Ideal) m ρ c (Proc.devRef .tc main_v4) = src) :
    W6 (F := Ideal) m ρ c (Proc.devRef .tc main_v15) = gatherRows hp src := by
  subst hh hs
  exact (W6_arr m ρ c 2).trans (arr1 (V5 m ρ) c)

open Cert.Sage in
theorem r2 {msg : Msgs.Idx → EReal} {dst : DstRow.Idx → BitVec 32}
    (hm : W6 (F := Ideal) m ρ c (Proc.devRef .tc main_v15) = msg) (hd : W6 (F := Ideal) m ρ c (Proc.devRef .tc main_v5) = dst) :
    W7 (F := Ideal) m ρ c (Proc.devRef .tc main_v16) = scatterRows msg dst := by
  subst hm hd
  exact (W7_arr m ρ c 2).trans (arr2 (V6 m ρ) c)

open Cert.Sage in
theorem r3 {agg : Nodes.Idx → EReal} {wl : Sq.Idx → EReal} {bl : Row.Idx → EReal} {x : Nodes.Idx → EReal} {wr : Sq.Idx → EReal}
    (ha : W8 (F := Ideal) m ρ c (Proc.devRef .tc main_v22) = agg) (hwl : W8 (F := Ideal) m ρ c (Proc.devRef .tc main_v23) = wl)
    (hbl : W8 (F := Ideal) m ρ c (Proc.devRef .tc main_v25) = bl) (hx : W8 (F := Ideal) m ρ c (Proc.devRef .tc main_arg0) = x)
    (hwr : W8 (F := Ideal) m ρ c (Proc.devRef .tc main_v24) = wr) :
    W9 (F := Ideal) m ρ c (Proc.devRef .tc main_v26) = combRelu agg wl bl x wr := by
  subst ha hwl hbl hx hwr
  exact (W9_arr m ρ c 5).trans (arr3 (V8 m ρ) c)

open Cert.Sage in
theorem r4 {x : Nodes.Idx → EReal} {w : Sq.Idx → EReal} {b : Row.Idx → EReal}
    (hx : W10 (F := Ideal) m ρ c (Proc.devRef .tc main_v26) = x) (hw : W10 (F := Ideal) m ρ c (Proc.devRef .tc main_v27) = w)
    (hb : W10 (F := Ideal) m ρ c (Proc.devRef .tc main_v28) = b) :
    W11 (F := Ideal) m ρ c (Proc.devRef .tc main_v29) = proj x w b := by
  subst hx hw hb
  exact (W11_arr m ρ c 3).trans (arr4 (V10 m ρ) c)

open Cert.Sage in
theorem r5 {hp : NodesPad.Idx → EReal} {src : SrcCol.Idx → BitVec 32}
    (hh : W14 (F := Ideal) m ρ c (Proc.devRef .tc main_v31) = hp) (hs : W14 (F := Ideal) m ρ c (Proc.devRef .tc main_v4) = src) :
    W15 (F := Ideal) m ρ c (Proc.devRef .tc main_v32) = gatherRows hp src := by
  subst hh hs
  exact (W15_arr m ρ c 2).trans (arr5 (V14 m ρ) c)

open Cert.Sage in
theorem r6 {msg : Msgs.Idx → EReal} {dst : DstRow.Idx → BitVec 32}
    (hm : W15 (F := Ideal) m ρ c (Proc.devRef .tc main_v32) = msg) (hd : W15 (F := Ideal) m ρ c (Proc.devRef .tc main_v5) = dst) :
    W16 (F := Ideal) m ρ c (Proc.devRef .tc main_v33) = scatterRows msg dst := by
  subst hm hd
  exact (W16_arr m ρ c 2).trans (arr6 (V15 m ρ) c)

open Cert.Sage in
theorem r7 {agg : Nodes.Idx → EReal} {wl : Sq.Idx → EReal} {bl : Row.Idx → EReal} {x : Nodes.Idx → EReal} {wr : Sq.Idx → EReal}
    (ha : W17 (F := Ideal) m ρ c (Proc.devRef .tc main_v39) = agg) (hwl : W17 (F := Ideal) m ρ c (Proc.devRef .tc main_v40) = wl)
    (hbl : W17 (F := Ideal) m ρ c (Proc.devRef .tc main_v42) = bl) (hx : W17 (F := Ideal) m ρ c (Proc.devRef .tc main_v26) = x)
    (hwr : W17 (F := Ideal) m ρ c (Proc.devRef .tc main_v41) = wr) :
    W18 (F := Ideal) m ρ c (Proc.devRef .tc main_v43) = comb agg wl bl x wr := by
  subst ha hwl hbl hx hwr
  exact (W18_arr m ρ c 5).trans (arr7 (V17 m ρ) c)

/-! ## The arguments, and the host's index and degree arrays, at the boundaries where they are read -/

/-- A buffer no host operation writes and no region has as an array: an argument other than the node features. -/
abbrev Untouched (r : Ref sig .tc) : Prop :=
  r ∉ wr0 ∧ (∀ w, Pipeline.arrRef spec0 w ≠ r) ∧ r ∉ wr1 ++ wr1_1 ++ wr1_2 ∧ (∀ w, Pipeline.arrRef spec1 w ≠ r) ∧
  (∀ w, Pipeline.arrRef spec2 w ≠ r) ∧ r ∉ wr3 ∧ (∀ w, Pipeline.arrRef spec3 w ≠ r) ∧ r ∉ wr4 ∧
  (∀ w, Pipeline.arrRef spec4 w ≠ r) ∧ r ∉ wr5 ++ wr5_1 ++ wr5_2 ∧ (∀ w, Pipeline.arrRef spec5 w ≠ r) ∧
  (∀ w, Pipeline.arrRef spec6 w ≠ r)

theorem back7 (r : Ref sig .tc) (h : Untouched r) :
    W7 (F := Ideal) m ρ c (Proc.devRef .tc r) = W0 m ρ c (Proc.devRef .tc r) :=
  (W7_of_ne m ρ c r h.2.2.2.2.1).trans <| (W6_of_ne m ρ c r h.2.2.2.1).trans <| (k5_3 m ρ c r h.2.2.1).trans <|
    (W2_of_ne m ρ c r h.2.1).trans <| k1 m ρ c r h.1

theorem back9 (r : Ref sig .tc) (h : Untouched r) :
    W9 (F := Ideal) m ρ c (Proc.devRef .tc r) = W0 m ρ c (Proc.devRef .tc r) :=
  (W9_of_ne m ρ c r h.2.2.2.2.2.2.1).trans <| (k8 m ρ c r h.2.2.2.2.2.1).trans <| back7 m ρ c r h

theorem back16 (r : Ref sig .tc) (h : Untouched r) :
    W16 (F := Ideal) m ρ c (Proc.devRef .tc r) = W0 m ρ c (Proc.devRef .tc r) :=
  (W16_of_ne m ρ c r h.2.2.2.2.2.2.2.2.2.2.2).trans <| (W15_of_ne m ρ c r h.2.2.2.2.2.2.2.2.2.2.1).trans <|
    (k14_3 m ρ c r h.2.2.2.2.2.2.2.2.2.1).trans <| (W11_of_ne m ρ c r h.2.2.2.2.2.2.2.2.1).trans <|
    (k10 m ρ c r h.2.2.2.2.2.2.2.1).trans <| back9 m ρ c r h

/-- The node features at region 0's entry. -/
theorem x_1 : W1 (F := Ideal) m ρ c (Proc.devRef .tc main_arg0) = W0 m ρ c (Proc.devRef .tc main_arg0) :=
  k1 m ρ c main_arg0 (by decide)
/-- The node features at region 3's entry: region 0 has them as an input array. -/
theorem x_8 : W8 (F := Ideal) m ρ c (Proc.devRef .tc main_arg0) = W0 m ρ c (Proc.devRef .tc main_arg0) :=
  (k8 m ρ c main_arg0 (by decide)).trans <| (W7_of_ne m ρ c main_arg0 (by decide)).trans <|
    (W6_of_ne m ρ c main_arg0 (by decide)).trans <| (k5_3 m ρ c main_arg0 (by decide)).trans <| (i2_0 m ρ c).trans <| x_1 m ρ c

/-- The sources at region 1's entry. -/
theorem src_5 : W5 (F := Ideal) m ρ c (Proc.devRef .tc main_v4) = Cert.Sage.srcCol (W0 m ρ c (Proc.devRef .tc main_arg1)) :=
  (k5_3 m ρ c main_v4 (by decide)).trans <| (W2_of_ne m ρ c main_v4 (by decide)).trans <| h1_v4 m ρ c
/-- The sources at region 5's entry: region 1 has them as an input array. -/
theorem src_14 : W14 (F := Ideal) m ρ c (Proc.devRef .tc main_v4) = Cert.Sage.srcCol (W0 m ρ c (Proc.devRef .tc main_arg1)) :=
  (k14_3 m ρ c main_v4 (by decide)).trans <| (W11_of_ne m ρ c main_v4 (by decide)).trans <| (k10 m ρ c main_v4 (by decide)).trans <|
    (W9_of_ne m ρ c main_v4 (by decide)).trans <| (k8 m ρ c main_v4 (by decide)).trans <| (W7_of_ne m ρ c main_v4 (by decide)).trans <|
    (i6_1 m ρ c).trans <| src_5 m ρ c

/-- The destinations at region 2's entry. -/
theorem dst_6 : W6 (F := Ideal) m ρ c (Proc.devRef .tc main_v5) = Cert.Sage.dstRow (W0 m ρ c (Proc.devRef .tc main_arg1)) :=
  (W6_of_ne m ρ c main_v5 (by decide)).trans <| (k5_3 m ρ c main_v5 (by decide)).trans <| (W2_of_ne m ρ c main_v5 (by decide)).trans <|
    h1_v5 m ρ c
/-- The destinations at region 6's entry: region 2 has them as an input array. -/
theorem dst_15 : W15 (F := Ideal) m ρ c (Proc.devRef .tc main_v5) = Cert.Sage.dstRow (W0 m ρ c (Proc.devRef .tc main_arg1)) :=
  (W15_of_ne m ρ c main_v5 (by decide)).trans <| (k14_3 m ρ c main_v5 (by decide)).trans <| (W11_of_ne m ρ c main_v5 (by decide)).trans <|
    (k10 m ρ c main_v5 (by decide)).trans <| (W9_of_ne m ρ c main_v5 (by decide)).trans <| (k8 m ρ c main_v5 (by decide)).trans <|
    (i7_1 m ρ c).trans <| dst_6 m ρ c

/-- The in-degrees where the first divisor is made. -/
theorem deg_7 : W7 (F := Ideal) m ρ c (Proc.devRef .tc main_v9) = degree (W0 m ρ c (Proc.devRef .tc main_arg1)) :=
  (W7_of_ne m ρ c main_v9 (by decide)).trans <| (W6_of_ne m ρ c main_v9 (by decide)).trans <| (k5_3 m ρ c main_v9 (by decide)).trans <|
    (W2_of_ne m ρ c main_v9 (by decide)).trans <| h1_v9 m ρ c
/-- The in-degrees where the second divisor is made. -/
theorem deg_16 : W16 (F := Ideal) m ρ c (Proc.devRef .tc main_v9) = degree (W0 m ρ c (Proc.devRef .tc main_arg1)) :=
  (W16_of_ne m ρ c main_v9 (by decide)).trans <| (W15_of_ne m ρ c main_v9 (by decide)).trans <| (k14_3 m ρ c main_v9 (by decide)).trans <|
    (W11_of_ne m ρ c main_v9 (by decide)).trans <| (k10 m ρ c main_v9 (by decide)).trans <| (W9_of_ne m ρ c main_v9 (by decide)).trans <|
    (k8 m ρ c main_v9 (by decide)).trans <| deg_7 m ρ c

/-- The first layer's result from region 3's exit to region 7's entry: region 4 has it as an input array. -/
theorem hid_17 : W17 (F := Ideal) m ρ c (Proc.devRef .tc main_v26) = W9 m ρ c (Proc.devRef .tc main_v26) :=
  (k17 m ρ c main_v26 (by decide)).trans <| (W16_of_ne m ρ c main_v26 (by decide)).trans <| (W15_of_ne m ρ c main_v26 (by decide)).trans <|
    (k14_3 m ρ c main_v26 (by decide)).trans <| (i11_0 m ρ c).trans <| k10 m ρ c main_v26 (by decide)

/-! ## The two layers -/

/-- Layer 1: region 3's result array, from the arguments. -/
theorem layer1 : W9 (F := Ideal) m ρ c (Proc.devRef .tc main_v26) =
    Cert.Sage.layerRelu (W0 m ρ c (Proc.devRef .tc main_arg0)) (W0 m ρ c (Proc.devRef .tc main_arg1))
      (cntB (W0 m ρ c (Proc.devRef .tc main_arg1))) (wT (W0 m ρ c (Proc.devRef .tc main_arg2))) (W0 m ρ c (Proc.devRef .tc main_arg3))
      (wT (W0 m ρ c (Proc.devRef .tc main_arg4))) (W0 m ρ c (Proc.devRef .tc main_arg5)) (wT (W0 m ρ c (Proc.devRef .tc main_arg6))) := by
  have p := r0 m ρ c (x_1 m ρ c) (h1_v10 m ρ c) (h1_v11 m ρ c)
  have g := r1 m ρ c ((h5_v14 m ρ c).trans (congrArg Cert.Sage.padRows p)) (src_5 m ρ c)
  have s := r2 m ρ c g (dst_6 m ρ c)
  have a := (h8_v22 m ρ c).trans (congrArg₂ Cert.Sage.meanRows s ((congrArg divisor (deg_7 m ρ c)).trans (cntB_eq _).symm))
  exact r3 m ρ c a ((h8_v23 m ρ c).trans (congrArg wT (back7 m ρ c main_arg4 (by decide))))
    ((h8_v25 m ρ c).trans (congrArg Cert.Sage.rowOf (back7 m ρ c main_arg5 (by decide)))) (x_8 m ρ c)
    ((h8_v24 m ρ c).trans (congrArg wT (back7 m ρ c main_arg6 (by decide))))

/-- Layer 2: region 7's result array, from the first layer's result and the arguments. -/
theorem layer2 {H : Cert.Sage.Nodes.Idx → EReal} (hH : W9 (F := Ideal) m ρ c (Proc.devRef .tc main_v26) = H) :
    W18 (F := Ideal) m ρ c (Proc.devRef .tc main_v43) =
    Cert.Sage.layer H (W0 m ρ c (Proc.devRef .tc main_arg1))
      (cntB (W0 m ρ c (Proc.devRef .tc main_arg1))) (wT (W0 m ρ c (Proc.devRef .tc main_arg7))) (W0 m ρ c (Proc.devRef .tc main_arg8))
      (wT (W0 m ρ c (Proc.devRef .tc main_arg9))) (W0 m ρ c (Proc.devRef .tc main_arg10)) (wT (W0 m ρ c (Proc.devRef .tc main_arg11))) := by
  have p := r4 m ρ c ((k10 m ρ c main_v26 (by decide)).trans hH)
    ((h10_v27 m ρ c).trans (congrArg wT (back9 m ρ c main_arg7 (by decide))))
    ((h10_v28 m ρ c).trans (congrArg Cert.Sage.rowOf (back9 m ρ c main_arg8 (by decide))))
  have g := r5 m ρ c ((h14_v31 m ρ c).trans (congrArg Cert.Sage.padRows p)) (src_14 m ρ c)
  have s := r6 m ρ c g (dst_15 m ρ c)
  have a := (h17_v39 m ρ c).trans (congrArg₂ Cert.Sage.meanRows s ((congrArg divisor (deg_16 m ρ c)).trans (cntB_eq _).symm))
  exact r7 m ρ c a ((h17_v40 m ρ c).trans (congrArg wT (back16 m ρ c main_arg9 (by decide))))
    ((h17_v42 m ρ c).trans (congrArg Cert.Sage.rowOf (back16 m ρ c main_arg10 (by decide)))) ((hid_17 m ρ c).trans hH)
    ((h17_v41 m ρ c).trans (congrArg wT (back16 m ρ c main_arg11 (by decide))))

end Fold

/-- The result array's final contents are the two layers of the arguments. -/
theorem out_eq (m : (ℓ : Loc nD τ sig) → Buf (Elt Ideal) ℓ) (ρ : Dev nD → PrngReg) (c : Dev nD) :
    W18 (F := Ideal) m ρ c (Proc.devRef .tc main_v43) =
      Cert.Sage.twoLayers (m ((c.tc : Thread nD τ).loc main_arg0)) (m ((c.tc : Thread nD τ).loc main_arg1)) (cntB (m ((c.tc : Thread nD τ).loc main_arg1))) (cntB (m ((c.tc : Thread nD τ).loc main_arg1)))
        (wT (m ((c.tc : Thread nD τ).loc main_arg2))) (m ((c.tc : Thread nD τ).loc main_arg3)) (wT (m ((c.tc : Thread nD τ).loc main_arg4))) (m ((c.tc : Thread nD τ).loc main_arg5)) (wT (m ((c.tc : Thread nD τ).loc main_arg6)))
        (wT (m ((c.tc : Thread nD τ).loc main_arg7))) (m ((c.tc : Thread nD τ).loc main_arg8)) (wT (m ((c.tc : Thread nD τ).loc main_arg9))) (m ((c.tc : Thread nD τ).loc main_arg10)) (wT (m ((c.tc : Thread nD τ).loc main_arg11))) := by
  exact Fold.layer2 m ρ c (Fold.layer1 m ρ c)

end Cert.KernelIdeal.Sage

end
-- ==== Proof.RefOps.lean ====
/- The reference's two data-dependent operations read as the one-hot sums of the specification: the gather of the
   projected rows at the sources (where every source is a node) and the accumulating scatter at the destinations. -/
import proofs.«412110_j609885356389_1_alg».proof.Proof.Gen.ReferenceIdeal.Run
import proofs.«412110_j609885356389_1_alg».proof.Proof.Gen.ReferenceIdeal.Read
import proofs.«412110_j609885356389_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Sage

open Idealize.ShloMosaic Idealize.ShloMosaic.TcCoe Idealize.ShloMosaic.ValueIdx Idealize.SL.Sem Cert.ReferenceIdeal Cert.ReferenceIdeal.Gen Cert.ReferenceIdeal.Read

/-- An index of [50000, 128] as an index of [50048, 128]. -/
abbrev padIdx (i : S50000x128.Idx) : Cert.Sage.NodesPad.Idx :=
  ix2 (⟨(i 0).val, Nat.lt_trans (idx2_lt0 i) (by decide)⟩ : Fin 50048) (i 1 : Fin 128)

/-- The gather's dimension numbers: result element (e, d) reads row `start e`, column d of the operand. -/
abbrev gD := gather_S50000x128_S800000x1_S800000x128_1_0_n_n_0_1_1128
/-- The scatter's dimension numbers: update element (e, d) lands at row `start e`, column d of the operand. -/
abbrev sD := scatter_S50000x128_S800000x1_S800000x128_1_0_0_1

/-! ## Words: a small natural and the signed reading of its 32-bit word -/

/-- A 32-bit word read signed is the small natural `n` exactly when it is the word of `n`. -/
theorem toInt_eq_iff (v : BitVec 32) (n : Nat) (hn : n < 50048) : v.toInt = (n : Int) ↔ BitVec.ofNat 32 n = v := by
  constructor
  · intro h
    have h2 : BitVec.ofInt 32 v.toInt = v := BitVec.ofInt_toInt
    rw [h] at h2
    rw [← h2]
    exact (BitVec.ofInt_natCast 32 n).symm
  · rintro rfl
    rw [BitVec.toInt_eq_toNat_cond, BitVec.toNat_ofNat]
    split <;> omega

/-! ## The gather read at an index, over any index array -/

/-- On the node axis the slice starts at the edge's index, read signed and clamped into [0, 49999]. -/
theorem g_start0 (idx : IVec S800000x1 32) (e : Fin 800000) (d : Fin 128) :
    gD.start (ix2 e d) idx 0 = min (idx (ix2 e (0 : Fin 1))).toInt.toNat (50000 - 1) := by
  unfold GatherDims.start
  rw [dif_pos (show (0 : Fin 2) ∈ gD.startIndexMap from List.mem_singleton.mpr rfl)]
  have hsi : gD.siIdx (ix2 e d) ⟨List.idxOf (0 : Fin 2) gD.startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the feature axis the slice starts at 0: the start index map does not name it. -/
theorem g_start1 (idx : IVec S800000x1 32) (e : Fin 800000) (d : Fin 128) :
    gD.start (ix2 e d) idx 1 = 0 := by
  unfold GatherDims.start
  rw [dif_neg (show ¬ (1 : Fin 2) ∈ gD.startIndexMap by decide)]

/-- The node axis is collapsed: no offset on it. -/
theorem g_off0 (e : Fin 800000) (d : Fin 128) : gD.offCoord (ix2 e d) 0 = 0 :=
  GatherDims.offCoord_eq_zero _ _ _ (fun h => ((GatherDims.mem_sKept _ _).mp h).1 (List.mem_singleton.mpr rfl))

/-- The feature axis is the one offset axis: its offset is the result's feature coordinate. -/
theorem g_off1 (e : Fin 800000) (d : Fin 128) : gD.offCoord (ix2 e d) 1 = d.val := by
  unfold GatherDims.offCoord
  rw [dif_pos (show (1 : Fin 2) ∈ gD.sKept by decide)]
  rfl

/-- The operand index result element (e, d) reads: (clamp (idx e), d). -/
theorem g_operandIdx (idx : IVec S800000x1 32) (e : Fin 800000) (d : Fin 128) :
    gD.operandIdx (ix2 e d) idx
      = ix2 (⟨min (idx (ix2 e (0 : Fin 1))).toInt.toNat (50000 - 1), by omega⟩ : Fin 50000) d := by
  funext a
  refine Fin.ext ?_
  match a with
  | ⟨0, _⟩ =>
    show gD.start (ix2 e d) idx 0 + gD.batchCoord (ix2 e d) 0 + gD.offCoord (ix2 e d) 0 = _
    rw [GatherDims.batchCoord_eq_zero _ _ _ List.not_mem_nil, g_off0, g_start0]
    rfl
  | ⟨1, _⟩ =>
    show gD.start (ix2 e d) idx 1 + gD.batchCoord (ix2 e d) 1 + gD.offCoord (ix2 e d) 1 = _
    rw [GatherDims.batchCoord_eq_zero _ _ _ List.not_mem_nil, g_off1, g_start1]
    show 0 + 0 + d.val = d.val
    omega

/-- The gather at (e, d) is the operand at row `r`, column d, once the clamped index is known to be `r`. -/
theorem g_gather_apply (hh : FVec Ideal S50000x128 .f32) (idx : IVec S800000x1 32) (e : Fin 800000) (d : Fin 128)
    (r : Fin 50000) (hr : min (idx (ix2 e (0 : Fin 1))).toInt.toNat (50000 - 1) = r.val) :
    Host.gather gD hh idx (ix2 e d) = hh (ix2 r d) := by
  unfold Host.gather
  rw [g_operandIdx]
  refine congrArg hh ?_
  funext a
  match a with
  | ⟨0, _⟩ => exact Fin.ext hr
  | ⟨1, _⟩ => rfl

/-- A padded row below 50000 is the row itself. -/
theorem padRows_lt (hh : FVec Ideal S50000x128 .f32) (n : Fin 50048) (d : Fin 128) (hn : n.val < 50000) :
    Cert.Sage.padRows hh (ix2 n d) = hh (ix2 (⟨n.val, hn⟩ : Fin 50000) d) := by
  unfold Cert.Sage.padRows
  exact dif_pos hn

/-- The gather as the one-hot sum, over any index array that holds edge e's source at (e, 0): with the source a node
    the clamp is the identity, and the sum's one non-zero term is the source's own row. -/
theorem gather_of_idx (hh : FVec Ideal S50000x128 .f32) (x1 : IVec S2x800000 32) (hr : Cert.Sage.SrcInRange x1)
    (idx : IVec S800000x1 32) (hidx : ∀ e : Fin 800000, idx (ix2 e (0 : Fin 1)) = x1 (ix2 (0 : Fin 2) e)) :
    Host.gather gD hh idx = Cert.Sage.gatherRows (Cert.Sage.padRows hh) (Cert.Sage.srcCol x1) := by
  funext j
  obtain ⟨e, d, rfl⟩ : ∃ e d, j = ix2 e d := ⟨j 0, j 1, eq_ix2 j⟩
  obtain ⟨h0, h1⟩ := hr e
  have hlt : (x1 (ix2 (0 : Fin 2) e)).toInt.toNat < 50000 := by omega
  have hcast : (x1 (ix2 (0 : Fin 2) e)).toInt = (((x1 (ix2 (0 : Fin 2) e)).toInt.toNat : Nat) : Int) := by omega
  rw [g_gather_apply hh idx e d ⟨(x1 (ix2 (0 : Fin 2) e)).toInt.toNat, hlt⟩
    (by rw [hidx]; show min (x1 (ix2 (0 : Fin 2) e)).toInt.toNat (50000 - 1) = (x1 (ix2 (0 : Fin 2) e)).toInt.toNat; omega)]
  show _ = Cert.Sage.gatherAt (Cert.Sage.padRows hh) (Cert.Sage.srcCol x1) e d
  unfold Cert.Sage.gatherAt
  rw [Finset.sum_eq_single (⟨(x1 (ix2 (0 : Fin 2) e)).toInt.toNat, Nat.lt_trans hlt (by decide)⟩ : Fin 50048)]
  · rw [if_pos, one_mul, padRows_lt hh _ d hlt]
    show x1 (ix2 (0 : Fin 2) e) = BitVec.ofNat 32 (x1 (ix2 (0 : Fin 2) e)).toInt.toNat
    exact ((toInt_eq_iff _ _ (Nat.lt_trans hlt (by decide))).1 hcast).symm
  · intro n _ hne
    rw [if_neg, zero_mul]
    intro hEq
    apply hne
    refine Fin.ext ?_
    have hn : (x1 (ix2 (0 : Fin 2) e)).toInt = (n.val : Int) := (toInt_eq_iff _ n.val n.isLt).2 hEq.symm
    show n.val = (x1 (ix2 (0 : Fin 2) e)).toInt.toNat
    omega
  · intro hn
    exact absurd (Finset.mem_univ _) hn

/-! ## The scatter read at an index, over any index array -/

/-- On the node axis the window starts at the edge's index, read signed and not clamped. -/
theorem s_start0 (idx : IVec S800000x1 32) (e : Fin 800000) (d : Fin 128) :
    sD.start (ix2 e d) idx 0 = (idx (ix2 e (0 : Fin 1))).toInt := by
  unfold ScatterDims.start
  rw [dif_pos (show (0 : Fin 2) ∈ sD.scatterDimsToOperandDims from List.mem_singleton.mpr rfl)]
  have hsi : sD.siIdx (ix2 e d) ⟨List.idxOf (0 : Fin 2) sD.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis the window starts at 0. -/
theorem s_start1 (idx : IVec S800000x1 32) (e : Fin 800000) (d : Fin 128) :
    sD.start (ix2 e d) idx 1 = 0 := by
  unfold ScatterDims.start
  rw [dif_neg (show ¬ (1 : Fin 2) ∈ sD.scatterDimsToOperandDims by decide)]

/-- The node axis is an inserted axis: no window coordinate on it. -/
theorem s_win0 (e : Fin 800000) (d : Fin 128) : sD.window (ix2 e d) 0 = 0 := by
  unfold ScatterDims.window
  rw [dif_neg (show ¬ (0 : Fin 2) ∈ sD.sKept by decide)]

/-- The feature axis carries the update's feature coordinate. -/
theorem s_win1 (e : Fin 800000) (d : Fin 128) : sD.window (ix2 e d) 1 = d.val := by
  unfold ScatterDims.window
  rw [dif_pos (show (1 : Fin 2) ∈ sD.sKept by decide)]
  rfl

/-- Where an update lands: edge e's feature d lands at (i0, i1) exactly when the edge's index, read signed, is i0
    and d = i1 (an index outside [0, 50000) lands nowhere). -/
theorem s_resultIdx_iff (idx : IVec S800000x1 32) (e : Fin 800000) (d : Fin 128) (i0 : Fin 50000) (i1 : Fin 128) :
    sD.resultIdx? (ix2 e d) idx = some (ix2 i0 i1) ↔ (idx (ix2 e (0 : Fin 1))).toInt = (i0.val : Int) ∧ d = i1 := by
  unfold ScatterDims.resultIdx?
  split
  · rename_i h
    rw [Option.some.injEq]
    constructor
    · intro hEq
      have h0 := congrFun hEq 0
      have h1 := congrFun hEq 1
      have h0v := congrArg Fin.val h0
      have h1v := congrArg Fin.val h1
      simp only [s_start0, s_start1, s_win0, s_win1] at h0v h1v
      have hh := (h 0).1
      rw [s_start0, s_win0] at hh
      refine ⟨?_, Fin.ext ?_⟩
      · change ((idx (ix2 e (0 : Fin 1))).toInt + ((0 : Nat) : Int)).toNat = i0.val at h0v
        omega
      · change (0 + (d.val : Int)).toNat = i1.val at h1v
        omega
    · rintro ⟨ht, rfl⟩
      funext a
      refine Fin.ext ?_
      match a with
      | ⟨0, _⟩ =>
        show (sD.start (ix2 e d) idx 0 + (sD.window (ix2 e d) 0 : Int)).toNat = i0.val
        rw [s_start0, s_win0, ht]; omega
      | ⟨1, _⟩ =>
        show (sD.start (ix2 e d) idx 1 + (sD.window (ix2 e d) 1 : Int)).toNat = d.val
        rw [s_start1, s_win1]; omega
  · rename_i h
    constructor
    · intro hc; exact absurd hc (by simp)
    · rintro ⟨ht, rfl⟩
      exfalso; apply h
      intro a
      match a with
      | ⟨0, _⟩ =>
        show 0 ≤ sD.start (ix2 e d) idx 0 + (sD.window (ix2 e d) 0 : Int) ∧ sD.start (ix2 e d) idx 0 + (sD.window (ix2 e d) 0 : Int) < ((50000 : Nat) : Int)
        rw [s_start0, s_win0, ht]; have := i0.isLt; omega
      | ⟨1, _⟩ =>
        show 0 ≤ sD.start (ix2 e d) idx 1 + (sD.window (ix2 e d) 1 : Int) ∧ sD.start (ix2 e d) idx 1 + (sD.window (ix2 e d) 1 : Int) < ((128 : Nat) : Int)
        rw [s_start1, s_win1]; have := d.isLt; omega

/-- The accumulating scatter at (i0, i1): the operand there plus the one-hot sum over the edges. The sum over the
    updates that land at (i0, i1) is split by coordinates; for each edge the inner sum over the feature keeps d = i1. -/
theorem s_scatterAdd_apply (x : FVec Ideal S50000x128 .f32) (idx : IVec S800000x1 32) (msg : FVec Ideal S800000x128 .f32)
    (i0 : Fin 50000) (i1 : Fin 128) :
    Host.scatterAdd sD x idx msg (ix2 i0 i1)
      = x (ix2 i0 i1) + ∑ e : Fin 800000, (if BitVec.ofNat 32 i0.val = idx (ix2 e (0 : Fin 1)) then (1 : EReal) else 0) * msg (ix2 e i1) := by
  show Ideal.hostScatterAdd sD x idx msg (ix2 i0 i1) = _
  unfold Ideal.hostScatterAdd
  refine congrArg (fun t => x (ix2 i0 i1) + t) ?_
  rw [Finset.sum_filter, sum_idx2]
  refine Finset.sum_congr rfl fun e _ => ?_
  simp only [s_resultIdx_iff]
  by_cases ht : (idx (ix2 e (0 : Fin 1))).toInt = (i0.val : Int)
  · rw [if_pos ((toInt_eq_iff _ _ (Nat.lt_trans i0.isLt (by decide))).1 ht), one_mul]
    simp only [ht, true_and]
    rw [Finset.sum_ite_eq' Finset.univ i1, if_pos (Finset.mem_univ _)]
  · rw [if_neg (fun h => ht ((toInt_eq_iff _ _ (Nat.lt_trans i0.isLt (by decide))).2 h)), zero_mul]
    simp only [ht, false_and, if_false, Finset.sum_const_zero]

/-- The scatter into zeros as the one-hot sum, over any index array that holds edge e's destination at (e, 0). -/
theorem scatter_of_idx (x : FVec Ideal S50000x128 .f32) (hx : ∀ i, x i = (0 : EReal)) (x1 : IVec S2x800000 32)
    (idx : IVec S800000x1 32) (hidx : ∀ e : Fin 800000, idx (ix2 e (0 : Fin 1)) = x1 (ix2 (1 : Fin 2) e))
    (msg : FVec Ideal S800000x128 .f32) :
    Host.scatterAdd sD x idx msg = fun i => Cert.Sage.scatterRows msg (Cert.Sage.dstRow x1) (padIdx i) := by
  funext i
  obtain ⟨i0, i1, rfl⟩ : ∃ a b, i = ix2 a b := ⟨i 0, i 1, eq_ix2 i⟩
  rw [s_scatterAdd_apply, hx, zero_add]
  show _ = Cert.Sage.scatterAt msg (Cert.Sage.dstRow x1) (⟨i0.val, Nat.lt_trans i0.isLt (by decide)⟩ : Fin 50048) i1
  unfold Cert.Sage.scatterAt
  refine Finset.sum_congr rfl fun e _ => ?_
  rw [hidx]
  rfl

/-! ## The reference's index arrays read at an edge -/

/-- Row 0 of the edge list flattened (layer 1): entry e is edge e's source. -/
theorem v1_at (x1 : IVec S2x800000 32) (e : Fin 800000) :
    val_main_v1 (F := Ideal) x1 (ix1 e) = x1 (ix2 (0 : Fin 2) e) := by
  rw [val_main_v1_apply, val_main_v0_apply]
  refine congrArg x1 ?_
  funext a
  refine Fin.ext ?_
  match a with
  | ⟨0, _⟩ => rfl
  | ⟨1, _⟩ => exact Nat.mod_eq_of_lt e.isLt

/-- A source that is not negative is left alone by the wrap of negative indices (layer 1). -/
theorem v14_at (x1 : IVec S2x800000 32) (e : Fin 800000) (h0 : 0 ≤ (x1 (ix2 (0 : Fin 2) e)).toInt) :
    val_main_v14 (F := Ideal) x1 (ix1 e) = x1 (ix2 (0 : Fin 2) e) := by
  rw [val_main_v14_apply, val_main_v11_apply, val_main_v10_apply, val_main_c_apply, v1_at]
  have hc : IntOp.cmpi .slt (x1 (ix2 (0 : Fin 2) e)) 0#32 = 0#1 := by
    show BitVec.ofBool ((x1 (ix2 (0 : Fin 2) e)).slt 0#32) = 0#1
    have : (x1 (ix2 (0 : Fin 2) e)).slt 0#32 = false := by
      rw [BitVec.slt, decide_eq_false_iff_not]
      show ¬ (x1 (ix2 (0 : Fin 2) e)).toInt < (0#32).toInt
      rw [BitVec.toInt_zero]; omega
    rw [this]; rfl
  rw [hc, select_zero]

/-- The source column (layer 1) at (e, 0). -/
theorem v15_at (x1 : IVec S2x800000 32) (e : Fin 800000) (h0 : 0 ≤ (x1 (ix2 (0 : Fin 2) e)).toInt) :
    val_main_v15 (F := Ideal) x1 (ix2 e (0 : Fin 1)) = x1 (ix2 (0 : Fin 2) e) := by
  rw [val_main_v15_apply, ← v14_at x1 e h0]
  refine congrArg (val_main_v14 (F := Ideal) x1) ?_
  funext a
  match a with
  | ⟨0, _⟩ => rfl

/-- Row 0 of the edge list flattened (layer 2): entry e is edge e's source. -/
theorem v39_at (x1 : IVec S2x800000 32) (e : Fin 800000) :
    val_main_v39 (F := Ideal) x1 (ix1 e) = x1 (ix2 (0 : Fin 2) e) := by
  rw [val_main_v39_apply, val_main_v38_apply]
  refine congrArg x1 ?_
  funext a
  refine Fin.ext ?_
  match a with
  | ⟨0, _⟩ => rfl
  | ⟨1, _⟩ => exact Nat.mod_eq_of_lt e.isLt

/-- A source that is not negative is left alone by the wrap of negative indices (layer 2). -/
theorem v52_at (x1 : IVec S2x800000 32) (e : Fin 800000) (h0 : 0 ≤ (x1 (ix2 (0 : Fin 2) e)).toInt) :
    val_main_v52 (F := Ideal) x1 (ix1 e) = x1 (ix2 (0 : Fin 2) e) := by
  rw [val_main_v52_apply, val_main_v49_apply, val_main_v48_apply, val_main_c_4_apply, v39_at]
  have hc : IntOp.cmpi .slt (x1 (ix2 (0 : Fin 2) e)) 0#32 = 0#1 := by
    show BitVec.ofBool ((x1 (ix2 (0 : Fin 2) e)).slt 0#32) = 0#1
    have : (x1 (ix2 (0 : Fin 2) e)).slt 0#32 = false := by
      rw [BitVec.slt, decide_eq_false_iff_not]
      show ¬ (x1 (ix2 (0 : Fin 2) e)).toInt < (0#32).toInt
      rw [BitVec.toInt_zero]; omega
    rw [this]; rfl
  rw [hc, select_zero]

/-- The source column (layer 2) at (e, 0). -/
theorem v53_at (x1 : IVec S2x800000 32) (e : Fin 800000) (h0 : 0 ≤ (x1 (ix2 (0 : Fin 2) e)).toInt) :
    val_main_v53 (F := Ideal) x1 (ix2 e (0 : Fin 1)) = x1 (ix2 (0 : Fin 2) e) := by
  rw [val_main_v53_apply, ← v52_at x1 e h0]
  refine congrArg (val_main_v52 (F := Ideal) x1) ?_
  funext a
  match a with
  | ⟨0, _⟩ => rfl

/-- Row 1 of the edge list flattened (layer 1): entry e is edge e's destination. -/
theorem v3_at (x1 : IVec S2x800000 32) (e : Fin 800000) :
    val_main_v3 (F := Ideal) x1 (ix1 e) = x1 (ix2 (1 : Fin 2) e) := by
  rw [val_main_v3_apply, val_main_v2_apply]
  refine congrArg x1 ?_
  funext a
  refine Fin.ext ?_
  match a with
  | ⟨0, _⟩ => rfl
  | ⟨1, _⟩ => exact Nat.mod_eq_of_lt e.isLt

/-- The destination column (layer 1) at (e, 0). -/
theorem v18_at (x1 : IVec S2x800000 32) (e : Fin 800000) :
    val_main_v18 (F := Ideal) x1 (ix2 e (0 : Fin 1)) = x1 (ix2 (1 : Fin 2) e) := by
  rw [val_main_v18_apply, ← v3_at x1 e]
  refine congrArg (val_main_v3 (F := Ideal) x1) ?_
  funext a
  match a with
  | ⟨0, _⟩ => rfl

/-- Row 1 of the edge list flattened (layer 2): entry e is edge e's destination. -/
theorem v41_at (x1 : IVec S2x800000 32) (e : Fin 800000) :
    val_main_v41 (F := Ideal) x1 (ix1 e) = x1 (ix2 (1 : Fin 2) e) := by
  rw [val_main_v41_apply, val_main_v40_apply]
  refine congrArg x1 ?_
  funext a
  refine Fin.ext ?_
  match a with
  | ⟨0, _⟩ => rfl
  | ⟨1, _⟩ => exact Nat.mod_eq_of_lt e.isLt

/-- The destination column (layer 2) at (e, 0). -/
theorem v56_at (x1 : IVec S2x800000 32) (e : Fin 800000) :
    val_main_v56 (F := Ideal) x1 (ix2 e (0 : Fin 1)) = x1 (ix2 (1 : Fin 2) e) := by
  rw [val_main_v56_apply, ← v41_at x1 e]
  refine congrArg (val_main_v41 (F := Ideal) x1) ?_
  funext a
  match a with
  | ⟨0, _⟩ => rfl

/-- The scatter's operand (layer 1) is zero everywhere. -/
theorem v17_zero (i : S50000x128.Idx) : val_main_v17 (F := Ideal) i = (0 : EReal) := by
  rw [val_main_v17_apply, val_main_cst_apply]
  exact Ideal.ofBits_zero_f32

/-- The scatter's operand (layer 2) is zero everywhere. -/
theorem v55_zero (i : S50000x128.Idx) : val_main_v55 (F := Ideal) i = (0 : EReal) := by
  rw [val_main_v55_apply, val_main_cst_6_apply]
  exact Ideal.ofBits_zero_f32

/-! ## The four statements -/

/-- Layer 1's gather: with every source a node, the clamped read of row `src e` is the one-hot sum over the padded rows. -/
theorem gather_eq1 (h : FVec Ideal S50000x128 .f32) (x1 : IVec S2x800000 32) (hr : Cert.Sage.SrcInRange x1) :
    Host.gather gather_S50000x128_S800000x1_S800000x128_1_0_n_n_0_1_1128 h (val_main_v15 (F := Ideal) x1)
      = Cert.Sage.gatherRows (Cert.Sage.padRows h) (Cert.Sage.srcCol x1) :=
  gather_of_idx h x1 hr _ (fun e => v15_at x1 e (hr e).1)

/-- Layer 2's gather (the same index chain, printed a second time). -/
theorem gather_eq2 (h : FVec Ideal S50000x128 .f32) (x1 : IVec S2x800000 32) (hr : Cert.Sage.SrcInRange x1) :
    Host.gather gather_S50000x128_S800000x1_S800000x128_1_0_n_n_0_1_1128 h (val_main_v53 (F := Ideal) x1)
      = Cert.Sage.gatherRows (Cert.Sage.padRows h) (Cert.Sage.srcCol x1) :=
  gather_of_idx h x1 hr _ (fun e => v53_at x1 e (hr e).1)

/-- Layer 1's accumulating scatter into zeros: node `n`'s row is the one-hot sum over all edges (an edge whose
    destination is no node lands nowhere on both sides). -/
theorem scatter_eq1 (msg : FVec Ideal S800000x128 .f32) (x1 : IVec S2x800000 32) :
    Host.scatterAdd scatter_S50000x128_S800000x1_S800000x128_1_0_0_1 (val_main_v17 (F := Ideal)) (val_main_v18 (F := Ideal) x1) msg
      = fun i => Cert.Sage.scatterRows msg (Cert.Sage.dstRow x1) (padIdx i) :=
  scatter_of_idx _ v17_zero x1 _ (v18_at x1) msg

/-- Layer 2's accumulating scatter. -/
theorem scatter_eq2 (msg : FVec Ideal S800000x128 .f32) (x1 : IVec S2x800000 32) :
    Host.scatterAdd scatter_S50000x128_S800000x1_S800000x128_1_0_0_1 (val_main_v55 (F := Ideal)) (val_main_v56 (F := Ideal) x1) msg
      = fun i => Cert.Sage.scatterRows msg (Cert.Sage.dstRow x1) (padIdx i) :=
  scatter_of_idx _ v55_zero x1 _ (v56_at x1) msg

end Cert.ReferenceIdeal.Sage

end
-- ==== Proof.Ref1.lean ====
/- The reference's first layer, operation by operation, is the specification's clipped layer. -/
import proofs.«412110_j609885356389_1_alg».proof.Proof.Gen.ReferenceIdeal.Run
import proofs.«412110_j609885356389_1_alg».proof.Proof.Gen.ReferenceIdeal.Read
import proofs.«412110_j609885356389_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«412110_j609885356389_1_alg».proof.Proof.RefOps

noncomputable section

namespace Cert.ReferenceIdeal.Sage

open Idealize.ShloMosaic Idealize.ShloMosaic.TcCoe Idealize.ShloMosaic.ValueIdx Idealize.SL.Sem Cert.ReferenceIdeal Cert.ReferenceIdeal.Gen Cert.ReferenceIdeal.Read

/-- The first projection of the reference: the product of the features with the transposed weight, plus the bias
    read along the feature axis, clipped below at zero. -/
theorem ref1_proj (x0 : FVec Ideal S50000x128 .f32) (x2 : FVec Ideal S128x128 .f32) (x3 : FVec Ideal S128 .f32) :
    val_main_v9 (F := Ideal) x0 x2 x3 = Cert.Sage.proj x0 (val_main_v4 (F := Ideal) x2) (Cert.Sage.rowOf x3) := by
  funext i
  obtain ⟨n, d, rfl⟩ : ∃ (n : Fin 50000) (d : Fin 128), i = ix2 n d := ⟨i 0, i 1, eq_ix2 i⟩
  rw [val_main_v9_apply, val_main_v8_apply, val_main_v5_apply, val_main_v7_apply, val_main_v6_apply,
    val_main_call0_v0_apply, val_main_call0_cst_apply]
  generalize val_main_v4 (F := Ideal) x2 = w
  have e1 : ∀ k : Fin 128, lidx_main_v5 (ix2 n d) k = ix2 n k := fun k =>
    funext fun a => Fin.ext (by match a with | ⟨0, _⟩ => rfl | ⟨1, _⟩ => rfl)
  have e2 : ∀ k : Fin 128, ridx_main_v5 (ix2 n d) k = ix2 k d := fun k =>
    funext fun a => Fin.ext (by match a with | ⟨0, _⟩ => rfl | ⟨1, _⟩ => rfl)
  have e3 : idx_main_v6 (idx_main_v7 (ix2 n d)) = ix1 d :=
    funext fun a => Fin.ext (by match a with | ⟨0, _⟩ => rfl)
  simp only [e1, e2, e3, Ideal.addf_def, Ideal.maximumf_def, Ideal.ofBits_def, Ideal.ofBits_zero_f32]
  rfl

/-- The reference's mean over incoming edges: the accumulating scatter of the gathered projected rows, divided entry by
    entry by the divisor array, is `meanRows` of the one-hot sums (every source being a node). -/
theorem ref1_mean (x0 : FVec Ideal S50000x128 .f32) (x1 : IVec S2x800000 32) (x2 : FVec Ideal S128x128 .f32)
    (x3 : FVec Ideal S128 .f32) (hr : Cert.Sage.SrcInRange x1) :
    val_main_v28 (F := Ideal) x0 x1 x2 x3
      = Cert.Sage.meanRows (Cert.Sage.scatterRows (Cert.Sage.gatherRows (Cert.Sage.padRows
          (Cert.Sage.proj x0 (val_main_v4 (F := Ideal) x2) (Cert.Sage.rowOf x3))) (Cert.Sage.srcCol x1)) (Cert.Sage.dstRow x1))
          (val_main_v27 (F := Ideal) x1) := by
  funext i
  rw [val_main_v28_apply, Ideal.hostDivf_def]
  unfold val_main_v19 val_main_v16
  rw [ref1_proj, gather_eq1 _ x1 hr, scatter_eq1]
  rfl

/-- The combination read at node `n`, feature `d`, over arbitrary arrays: the two products against the transposed
    weights, the bias read along the feature axis, and the clip at zero are `combRelu` there. -/
theorem ref1_comb_read (agg : FVec Ideal S50000x128 .f32) (wl : FVec Ideal S128x128 .f32) (b : FVec Ideal S128 .f32)
    (x : FVec Ideal S50000x128 .f32) (wr : FVec Ideal S128x128 .f32) (n : Fin 50000) (d : Fin 128) :
    max (((∑ k : Fin 128, agg (lidx_main_v30 (ix2 n d) k) * wl (ridx_main_v30 (ix2 n d) k))
          + b (idx_main_v31 (idx_main_v32 (ix2 n d))))
          + ∑ k : Fin 128, x (lidx_main_v35 (ix2 n d) k) * wr (ridx_main_v35 (ix2 n d) k)) (0 : EReal)
      = Cert.Sage.combRelu agg wl (Cert.Sage.rowOf b) x wr (ix2 n d) := by
  have e1 : ∀ k : Fin 128, lidx_main_v30 (ix2 n d) k = ix2 n k := fun k =>
    funext fun a => Fin.ext (by match a with | ⟨0, _⟩ => rfl | ⟨1, _⟩ => rfl)
  have e2 : ∀ k : Fin 128, ridx_main_v30 (ix2 n d) k = ix2 k d := fun k =>
    funext fun a => Fin.ext (by match a with | ⟨0, _⟩ => rfl | ⟨1, _⟩ => rfl)
  have e3 : idx_main_v31 (idx_main_v32 (ix2 n d)) = ix1 d :=
    funext fun a => Fin.ext (by match a with | ⟨0, _⟩ => rfl)
  have e4 : ∀ k : Fin 128, lidx_main_v35 (ix2 n d) k = ix2 n k := fun k =>
    funext fun a => Fin.ext (by match a with | ⟨0, _⟩ => rfl | ⟨1, _⟩ => rfl)
  have e5 : ∀ k : Fin 128, ridx_main_v35 (ix2 n d) k = ix2 k d := fun k =>
    funext fun a => Fin.ext (by match a with | ⟨0, _⟩ => rfl | ⟨1, _⟩ => rfl)
  simp only [e1, e2, e3, e4, e5]
  rfl

/-- Layer 1 of the reference (its value after the clip at zero) is `layerRelu` of the arguments, the divisor array and the
    transposed weights being the reference's own. -/
theorem ref_layer1 (x0 : FVec Ideal S50000x128 .f32) (x1 : IVec S2x800000 32) (x2 : FVec Ideal S128x128 .f32) (x3 : FVec Ideal S128 .f32) (x4 : FVec Ideal S128x128 .f32) (x5 : FVec Ideal S128 .f32) (x6 : FVec Ideal S128x128 .f32) (hr : Cert.Sage.SrcInRange x1) :
    val_main_v37 (F := Ideal) x0 x1 x2 x3 x4 x5 x6
      = Cert.Sage.layerRelu x0 x1 (val_main_v27 (F := Ideal) x1) (val_main_v4 (F := Ideal) x2) x3 (val_main_v29 (F := Ideal) x4) x5 (val_main_v34 (F := Ideal) x6) := by
  funext i
  obtain ⟨n, d, rfl⟩ : ∃ (n : Fin 50000) (d : Fin 128), i = ix2 n d := ⟨i 0, i 1, eq_ix2 i⟩
  rw [val_main_v37_apply, val_main_v36_apply, val_main_v33_apply, val_main_v30_apply, val_main_v32_apply,
    val_main_v31_apply, val_main_v35_apply, val_main_call1_v0_apply, val_main_call1_cst_apply,
    ref1_mean x0 x1 x2 x3 hr, Ideal.ofBits_def, Ideal.ofBits_zero_f32]
  exact ref1_comb_read _ _ x5 x0 _ n d

end Cert.ReferenceIdeal.Sage

end
-- ==== Proof.Ref2.lean ====
/- The reference's second layer, operation by operation, is the specification's layer of the first layer's value. -/
import proofs.«412110_j609885356389_1_alg».proof.Proof.Gen.ReferenceIdeal.Run
import proofs.«412110_j609885356389_1_alg».proof.Proof.Gen.ReferenceIdeal.Read
import proofs.«412110_j609885356389_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«412110_j609885356389_1_alg».proof.Proof.RefOps

noncomputable section

namespace Cert.ReferenceIdeal.Sage

open Idealize.ShloMosaic Idealize.ShloMosaic.TcCoe Idealize.ShloMosaic.ValueIdx Idealize.SL.Sem Cert.ReferenceIdeal Cert.ReferenceIdeal.Gen Cert.ReferenceIdeal.Read

/-! ## Where each product and each bias is read

At the output index (n, d) a row-by-column product reads its left operand at (n, k) and its right operand at (k, d);
a bias [128] broadcast first to a row and then down the node axis is read at d. -/

theorem lidx43_ix2 (n : Fin 50000) (d k : Fin 128) : lidx_main_v43 (ix2 n d) k = ix2 n k :=
  funext fun a => Fin.ext (by match a with | ⟨0, _⟩ => rfl | ⟨1, _⟩ => rfl)

theorem ridx43_ix2 (n : Fin 50000) (d k : Fin 128) : ridx_main_v43 (ix2 n d) k = ix2 k d :=
  funext fun a => Fin.ext (by match a with | ⟨0, _⟩ => rfl | ⟨1, _⟩ => rfl)

theorem lidx68_ix2 (n : Fin 50000) (d k : Fin 128) : lidx_main_v68 (ix2 n d) k = ix2 n k :=
  funext fun a => Fin.ext (by match a with | ⟨0, _⟩ => rfl | ⟨1, _⟩ => rfl)

theorem ridx68_ix2 (n : Fin 50000) (d k : Fin 128) : ridx_main_v68 (ix2 n d) k = ix2 k d :=
  funext fun a => Fin.ext (by match a with | ⟨0, _⟩ => rfl | ⟨1, _⟩ => rfl)

theorem lidx73_ix2 (n : Fin 50000) (d k : Fin 128) : lidx_main_v73 (ix2 n d) k = ix2 n k :=
  funext fun a => Fin.ext (by match a with | ⟨0, _⟩ => rfl | ⟨1, _⟩ => rfl)

theorem ridx73_ix2 (n : Fin 50000) (d k : Fin 128) : ridx_main_v73 (ix2 n d) k = ix2 k d :=
  funext fun a => Fin.ext (by match a with | ⟨0, _⟩ => rfl | ⟨1, _⟩ => rfl)

theorem bias45_ix2 (n : Fin 50000) (d : Fin 128) : idx_main_v44 (idx_main_v45 (ix2 n d)) = ix1 d :=
  funext fun a => Fin.ext (by match a with | ⟨0, _⟩ => rfl)

theorem bias70_ix2 (n : Fin 50000) (d : Fin 128) : idx_main_v69 (idx_main_v70 (ix2 n d)) = ix1 d :=
  funext fun a => Fin.ext (by match a with | ⟨0, _⟩ => rfl)

section

variable (x0 : FVec Ideal S50000x128 .f32) (x1 : IVec S2x800000 32) (x2 : FVec Ideal S128x128 .f32) (x3 : FVec Ideal S128 .f32)
  (x4 : FVec Ideal S128x128 .f32) (x5 : FVec Ideal S128 .f32) (x6 : FVec Ideal S128x128 .f32) (x7 : FVec Ideal S128x128 .f32)
  (x8 : FVec Ideal S128 .f32)

/-- The second projection: the product with the transposed weight, plus the bias, clipped below at zero. -/
theorem ref_proj2 :
    val_main_v47 (F := Ideal) x0 x1 x2 x3 x4 x5 x6 x7 x8
      = Cert.Sage.proj (val_main_v37 (F := Ideal) x0 x1 x2 x3 x4 x5 x6) (val_main_v42 (F := Ideal) x7) (Cert.Sage.rowOf x8) := by
  funext i
  obtain ⟨n, d, rfl⟩ : ∃ (n : Fin 50000) (d : Fin 128), i = ix2 n d := ⟨i 0, i 1, eq_ix2 i⟩
  rw [val_main_v47_apply, val_main_v46_apply, val_main_v43_apply, val_main_v45_apply, val_main_v44_apply,
    val_main_call2_v0_apply, val_main_call2_cst_apply]
  generalize val_main_v37 (F := Ideal) x0 x1 x2 x3 x4 x5 x6 = y
  generalize val_main_v42 (F := Ideal) x7 = w
  simp only [lidx43_ix2, ridx43_ix2, bias45_ix2, Ideal.maximumf_def, Ideal.addf_def, Ideal.ofBits_def, Ideal.ofBits_zero_f32]
  rfl

/-- The messages: every edge takes the projected row of its source. -/
theorem ref_gather2 (hr : Cert.Sage.SrcInRange x1) :
    val_main_v54 (F := Ideal) x0 x1 x2 x3 x4 x5 x6 x7 x8
      = Cert.Sage.gatherRows (Cert.Sage.padRows (Cert.Sage.proj (val_main_v37 (F := Ideal) x0 x1 x2 x3 x4 x5 x6)
          (val_main_v42 (F := Ideal) x7) (Cert.Sage.rowOf x8))) (Cert.Sage.srcCol x1) := by
  unfold val_main_v54
  rw [ref_proj2]
  exact gather_eq2 _ x1 hr

/-- The sums: every node adds the messages of the edges that point at it. -/
theorem ref_scatter2 (hr : Cert.Sage.SrcInRange x1) :
    val_main_v57 (F := Ideal) x0 x1 x2 x3 x4 x5 x6 x7 x8
      = fun i => Cert.Sage.scatterRows (Cert.Sage.gatherRows (Cert.Sage.padRows (Cert.Sage.proj
          (val_main_v37 (F := Ideal) x0 x1 x2 x3 x4 x5 x6) (val_main_v42 (F := Ideal) x7) (Cert.Sage.rowOf x8)))
          (Cert.Sage.srcCol x1)) (Cert.Sage.dstRow x1) (padIdx i) := by
  unfold val_main_v57
  rw [ref_gather2 x0 x1 x2 x3 x4 x5 x6 x7 x8 hr]
  exact scatter_eq2 _ x1

/-- The means: the sums divided by the reference's own divisor array. -/
theorem ref_mean2 (hr : Cert.Sage.SrcInRange x1) :
    val_main_v66 (F := Ideal) x0 x1 x2 x3 x4 x5 x6 x7 x8
      = Cert.Sage.meanRows (Cert.Sage.scatterRows (Cert.Sage.gatherRows (Cert.Sage.padRows (Cert.Sage.proj
          (val_main_v37 (F := Ideal) x0 x1 x2 x3 x4 x5 x6) (val_main_v42 (F := Ideal) x7) (Cert.Sage.rowOf x8)))
          (Cert.Sage.srcCol x1)) (Cert.Sage.dstRow x1)) (val_main_v65 (F := Ideal) x1) := by
  funext i
  rw [val_main_v66_apply, ref_scatter2 x0 x1 x2 x3 x4 x5 x6 x7 x8 hr]
  generalize val_main_v37 (F := Ideal) x0 x1 x2 x3 x4 x5 x6 = y
  generalize val_main_v42 (F := Ideal) x7 = w
  generalize val_main_v65 (F := Ideal) x1 = c
  rfl

end

/-- The reference's result is `layer` of the first layer's value, the divisor array and the transposed weights being
    the reference's own. -/
theorem ref_layer2 (x0 : FVec Ideal S50000x128 .f32) (x1 : IVec S2x800000 32) (x2 : FVec Ideal S128x128 .f32) (x3 : FVec Ideal S128 .f32) (x4 : FVec Ideal S128x128 .f32) (x5 : FVec Ideal S128 .f32) (x6 : FVec Ideal S128x128 .f32) (x7 : FVec Ideal S128x128 .f32) (x8 : FVec Ideal S128 .f32) (x9 : FVec Ideal S128x128 .f32) (x10 : FVec Ideal S128 .f32) (x11 : FVec Ideal S128x128 .f32) (hr : Cert.Sage.SrcInRange x1) :
    val_main_v74 (F := Ideal) x0 x1 x2 x3 x4 x5 x6 x7 x8 x9 x10 x11
      = Cert.Sage.layer (val_main_v37 (F := Ideal) x0 x1 x2 x3 x4 x5 x6) x1 (val_main_v65 (F := Ideal) x1)
          (val_main_v42 (F := Ideal) x7) x8 (val_main_v67 (F := Ideal) x9) x10 (val_main_v72 (F := Ideal) x11) := by
  funext i
  obtain ⟨n, d, rfl⟩ : ∃ (n : Fin 50000) (d : Fin 128), i = ix2 n d := ⟨i 0, i 1, eq_ix2 i⟩
  rw [val_main_v74_apply, val_main_v71_apply, val_main_v68_apply, val_main_v70_apply, val_main_v69_apply,
    val_main_v73_apply, ref_mean2 x0 x1 x2 x3 x4 x5 x6 x7 x8 hr]
  generalize val_main_v37 (F := Ideal) x0 x1 x2 x3 x4 x5 x6 = y
  generalize val_main_v42 (F := Ideal) x7 = wp
  generalize val_main_v65 (F := Ideal) x1 = c
  generalize val_main_v67 (F := Ideal) x9 = wl
  generalize val_main_v72 (F := Ideal) x11 = wr
  simp only [lidx68_ix2, ridx68_ix2, lidx73_ix2, ridx73_ix2, bias70_ix2, Ideal.addf_def]
  rfl

end Cert.ReferenceIdeal.Sage

end
-- ==== Proof.PreSrc.lean ====
/- The precondition's last conjunct, read: every source index of the edge list is a node. -/
import proofs.«412110_j609885356389_1_alg».proof.Defs
import proofs.«412110_j609885356389_1_alg».proof.Proof.Gen.Pre_finite_inputs
import proofs.«412110_j609885356389_1_alg».proof.Proof.Spec
import Idealize.ShloMosaic.Lib.ReduceAll
import Idealize.ShloMosaic.Lib.StableHlo.Predicate
import Idealize.ShloMosaic.Lib.ValueIdx
import Idealize.ShloMosaic.Lib.ValueLayout

noncomputable section

namespace Cert.KernelIdeal.Sage

open Idealize.ShloMosaic Idealize.ShloMosaic.TcCoe Idealize.ShloMosaic.ValueIdx Idealize.SL.Sem Cert.KernelIdeal

/-! ## The predicate's last conjunct, decoded over any float carrier

The predicate is a chain of conjunctions; the eleven conjuncts about the float arrays stay unread (they are
carried as the left operand of a conjunction and dropped). The last conjunct takes row 0 of the edge list as a
vector, compares it elementwise with 0 (signed, at least) and with 50000 (signed, below), and folds the
elementwise conjunction by "and" from 1. The fold being 1, every element is 1; an element being 1 is the pair of
inequalities at that edge. -/

section Decode

open Cert.Pre_finite_inputs

variable [Cert.Pre_finite_inputs.Facts] {F : FTy → Type} [FloatOps F]

/-- The rank-0 shape has one index. -/
instance subsingleton_scalar_idx : Subsingleton S_.Idx := ⟨fun a b => funext fun d => d.elim0⟩

/-- Row 0 of the edge list as a vector reads, at `e`, the edge list at `(0, e)`. -/
theorem row0_apply (a1 : IVec S2x800000 32) (e : Fin 800000) :
    shapeCast S800000 (extractStridedSlice S1x800000 ![0, 0] a1 Facts.slices_S2x800000_S1x800000_0_0)
        Facts.shapeCasts_S1x800000_S800000 (ix1 e) = a1 (ix2 (0 : Fin 2) e) :=
  (shapeCast_1a_a_apply _ _ e).trans (slice2_axis0_apply 0 a1 _ 0 e 0 rfl)

/-- The last part of the chain: its result being 1 at the one index, every source lies in [0, 50000). -/
theorem part3_src (a1 : IVec S2x800000 32) (v48 : IVec S_ 1) (v49 v50 : FVec F S128x128 .f32)
    (h : fn_part3 a1 v48 v49 v50 ix0 = 1#1) : Cert.Sage.SrcInRange a1 := by
  intro e
  dsimp only [fn_part3] at h
  -- the outer conjunction: keep its right operand, the fold over the edges
  obtain ⟨-, hall⟩ := IntOp.andi_eq_one.1 (show IntOp.andi _ _ = 1#1 from h)
  -- the fold is 1, so the element at edge e is 1
  have he := Host.reduce_andi_all _ _ _ _ ix0 hall (ix1 e)
  obtain ⟨hge, hlt⟩ := IntOp.andi_eq_one.1 (show IntOp.andi _ _ = 1#1 from he)
  have hge' := IntOp.cmpi_sge.1 (show IntOp.cmpi .sge _ _ = 1#1 from hge)
  have hlt' := IntOp.cmpi_slt.1 (show IntOp.cmpi .slt _ _ = 1#1 from hlt)
  rw [row0_apply] at hge' hlt'
  have h0 : (0#32 : BitVec 32).toInt = 0 := by decide
  have h5 : (50000#32 : BitVec 32).toInt = 50000 := by decide
  refine ⟨?_, ?_⟩
  · have : (0#32 : BitVec 32).toInt ≤ (a1 (ix2 (0 : Fin 2) e)).toInt := hge'
    rw [h0] at this; exact this
  · have : (a1 (ix2 (0 : Fin 2) e)).toInt < (50000#32 : BitVec 32).toInt := hlt'
    rw [h5] at this; exact this

/-- The middle part ends in the call of the last. -/
theorem part2_src (a1 : IVec S2x800000 32) (a8 : FVec F S128 .f32) (a9 : FVec F S128x128 .f32) (a10 : FVec F S128 .f32)
    (a11 : FVec F S128x128 .f32) (v33 : IVec S_ 1) (h : fn_part2 a1 a8 a9 a10 a11 v33 ix0 = 1#1) :
    Cert.Sage.SrcInRange a1 := by
  dsimp only [fn_part2] at h
  exact part3_src _ _ _ _ h

/-- The first part ends in the call of the middle one. -/
theorem part1_src (a1 : IVec S2x800000 32) (a5 : FVec F S128 .f32) (a6 a7 : FVec F S128x128 .f32) (a8 : FVec F S128 .f32)
    (a9 : FVec F S128x128 .f32) (a10 : FVec F S128 .f32) (a11 : FVec F S128x128 .f32) (v13 : IVec S_ 1)
    (v16 : IVec S128x128 1) (h : fn_part1 a1 a5 a6 a7 a8 a9 a10 a11 v13 v16 ix0 = 1#1) :
    Cert.Sage.SrcInRange a1 := by
  dsimp only [fn_part1] at h
  exact part2_src _ _ _ _ _ _ h

/-- The whole predicate being 1 at the one index, every source lies in [0, 50000). -/
theorem fn_src (a0 : FVec F S50000x128 .f32) (a1 : IVec S2x800000 32) (a2 : FVec F S128x128 .f32) (a3 : FVec F S128 .f32)
    (a4 : FVec F S128x128 .f32) (a5 : FVec F S128 .f32) (a6 a7 : FVec F S128x128 .f32) (a8 : FVec F S128 .f32)
    (a9 : FVec F S128x128 .f32) (a10 : FVec F S128 .f32) (a11 : FVec F S128x128 .f32)
    (h : fn a0 a1 a2 a3 a4 a5 a6 a7 a8 a9 a10 a11 ix0 = 1#1) : Cert.Sage.SrcInRange a1 := by
  dsimp only [fn] at h
  exact part1_src _ _ _ _ _ _ _ _ _ _ h

end Decode

/-- Under the precondition every source index lies in [0, 50000). -/
theorem src_in_range (m : (ℓ : Loc nD τ sig) → Buf (Elt Ideal) ℓ)
    (hpre : Cert.Pre_KernelIdeal m) (c : Dev nD) :
    Cert.Sage.SrcInRange (m ((c.tc : Thread nD τ).loc main_arg1)) :=
  fn_src _ _ _ _ _ _ _ _ _ _ _ _ (congrFun (hpre c) ix0)

end Cert.KernelIdeal.Sage

end
-- ==== Proof.lean ====
/-
  Two mean-aggregating graph layers over 50000 nodes and 800000 edges, computed by eight grid kernels (projection,
  one-hot gather, one-hot scatter-accumulate, combination, twice) against the plain gather / segment-sum reference.
  Over the extended reals both programs compute `Cert.Sage.twoLayers` of the arguments (Proof/Spec.lean):
  a one-hot sum over the padded node axis picks the source's row exactly where the source index is a node, which is
  what the reference's clamped row read gives there, and a one-hot sum over the edges adds exactly the rows whose
  destination is the node, which is what the reference's accumulating scatter gives (an edge whose destination is no
  node contributes to neither). The precondition says every float input is finite and every source index lies in
  [0, 50000); only the second part is used. The kernel side is read region by region (Proof/Lin0 … Proof/Cmb7) and
  threaded through the host operations between the regions (Proof/Fold); the reference side operation by operation
  (Proof/Ref1, Proof/Ref2 over Proof/RefOps).
-/
import proofs.«412110_j609885356389_1_alg».proof.Defs
import proofs.«412110_j609885356389_1_alg».proof.Proof.Gen.Kernel
import proofs.«412110_j609885356389_1_alg».proof.Proof.Gen.Kernel.Skeleton
import proofs.«412110_j609885356389_1_alg».proof.Proof.Gen.Kernel.Launch
import proofs.«412110_j609885356389_1_alg».proof.Proof.Gen.Kernel.Points
import proofs.«412110_j609885356389_1_alg».proof.Proof.Gen.Kernel.Frame
import proofs.«412110_j609885356389_1_alg».proof.Proof.Gen.KernelIdeal
import proofs.«412110_j609885356389_1_alg».proof.Proof.Gen.KernelIdeal.Skeleton
import proofs.«412110_j609885356389_1_alg».proof.Proof.Gen.KernelIdeal.Launch
import proofs.«412110_j609885356389_1_alg».proof.Proof.Gen.KernelIdeal.Points
import proofs.«412110_j609885356389_1_alg».proof.Proof.Gen.KernelIdeal.Frame
import proofs.«412110_j609885356389_1_alg».proof.Proof.Gen.ReferenceIdeal
import proofs.«412110_j609885356389_1_alg».proof.Proof.Gen.ReferenceIdeal.Run
import proofs.«412110_j609885356389_1_alg».proof.Proof.Gen.ReferenceIdeal.Read
import proofs.«412110_j609885356389_1_alg».proof.Proof.Gen.Pre_finite_inputs
import proofs.«412110_j609885356389_1_alg».proof.Proof.Spec
import proofs.«412110_j609885356389_1_alg».proof.Proof.RunValue
import proofs.«412110_j609885356389_1_alg».proof.Proof.Fold
import proofs.«412110_j609885356389_1_alg».proof.Proof.Ref1
import proofs.«412110_j609885356389_1_alg».proof.Proof.Ref2
import proofs.«412110_j609885356389_1_alg».proof.Proof.PreSrc
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two programs transpose a weight matrix by the same host operation. -/
theorem wT_eq4 (w : FVec Ideal Cert.KernelIdeal.S128x128 .f32) :
    Cert.KernelIdeal.Sage.wT w = Cert.ReferenceIdeal.Read.val_main_v4 (F := Ideal) w := rfl
theorem wT_eq29 (w : FVec Ideal Cert.KernelIdeal.S128x128 .f32) :
    Cert.KernelIdeal.Sage.wT w = Cert.ReferenceIdeal.Read.val_main_v29 (F := Ideal) w := rfl
theorem wT_eq34 (w : FVec Ideal Cert.KernelIdeal.S128x128 .f32) :
    Cert.KernelIdeal.Sage.wT w = Cert.ReferenceIdeal.Read.val_main_v34 (F := Ideal) w := rfl
theorem wT_eq42 (w : FVec Ideal Cert.KernelIdeal.S128x128 .f32) :
    Cert.KernelIdeal.Sage.wT w = Cert.ReferenceIdeal.Read.val_main_v42 (F := Ideal) w := rfl
theorem wT_eq67 (w : FVec Ideal Cert.KernelIdeal.S128x128 .f32) :
    Cert.KernelIdeal.Sage.wT w = Cert.ReferenceIdeal.Read.val_main_v67 (F := Ideal) w := rfl
theorem wT_eq72 (w : FVec Ideal Cert.KernelIdeal.S128x128 .f32) :
    Cert.KernelIdeal.Sage.wT w = Cert.ReferenceIdeal.Read.val_main_v72 (F := Ideal) w := rfl

/-- The two programs compute the divisor array (the clipped in-degrees, broadcast) by the same host operations. -/
theorem cnt_eq27 (ei : IVec Cert.KernelIdeal.S2x800000 32) :
    Cert.KernelIdeal.Sage.cntB ei = Cert.ReferenceIdeal.Read.val_main_v27 (F := Ideal) ei := rfl
theorem cnt_eq65 (ei : IVec Cert.KernelIdeal.S2x800000 32) :
    Cert.KernelIdeal.Sage.cntB ei = Cert.ReferenceIdeal.Read.val_main_v65 (F := Ideal) ei := rfl

/-- From memories that agree on the arguments both programs end with the result array at the two layers of the
    arguments: the kernel program by its run with the last boundary's contents read back, the reference by its run read
    operation by operation. -/
theorem algebraic : Cert.algebraic_KernelIdeal_ReferenceIdeal := by
  intro m ρ m' ρ' hpre hagree
  refine ⟨fun c => Cert.Sage.twoLayers (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (Cert.KernelIdeal.Sage.cntB (m ((c.tc : Thread Cert.KernelIdeal.nD Cert.KernelIdeal.τ).loc Cert.KernelIdeal.main_arg1))) (Cert.KernelIdeal.Sage.cntB (m ((c.tc : Thread Cert.KernelIdeal.nD Cert.KernelIdeal.τ).loc Cert.KernelIdeal.main_arg1)))
      (Cert.KernelIdeal.Sage.wT (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (Cert.KernelIdeal.Sage.wT (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (Cert.KernelIdeal.Sage.wT (m ((c.tc : Thread Cert.KernelIdeal.nD Cert.KernelIdeal.τ).loc Cert.KernelIdeal.main_arg6)))
      (Cert.KernelIdeal.Sage.wT (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (Cert.KernelIdeal.Sage.wT (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (Cert.KernelIdeal.Sage.wT (m ((c.tc : Thread Cert.KernelIdeal.nD Cert.KernelIdeal.τ).loc Cert.KernelIdeal.main_arg11))), ?_, ?_⟩
  · exact (θ_run Cert.KernelIdeal.defs _ _).mono
      (fun r h c => ⟨(h c).1.trans (Cert.KernelIdeal.Sage.out_eq m ρ c), (h c).2⟩)
      (Cert.KernelIdeal.Sage.run_value (F := Ideal) m ρ)
  · refine (θ_run Cert.ReferenceIdeal.defs _ _).mono (fun r h c => ⟨(h c).1.trans ?_, (h c).2⟩)
      (Cert.ReferenceIdeal.Value.run (F := Ideal) m' ρ')
    have hr := Cert.KernelIdeal.Sage.src_in_range m hpre c
    obtain ⟨e0, e1, e2, e3, e4, e5, e6, e7, e8, e9, e10, e11⟩ := hagree c
    rw [Cert.ReferenceIdeal.Read.val_main_v74_eq, e0, e1, e2, e3, e4, e5, e6, e7, e8, e9, e10, e11,
      Cert.ReferenceIdeal.Sage.ref_layer2 _ _ _ _ _ _ _ _ _ _ _ _ hr, Cert.ReferenceIdeal.Sage.ref_layer1 _ _ _ _ _ _ _ hr,
      ← cnt_eq27, ← cnt_eq65, ← wT_eq4, ← wT_eq29, ← wT_eq34, ← wT_eq42, ← wT_eq67, ← wT_eq72]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
